-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x20 : Shape := ⟨2, ![200000, 20]⟩
abbrev S2x4000000 : Shape := ⟨2, ![2, 4000000]⟩
abbrev S200000 : Shape := ⟨1, ![200000]⟩
abbrev S20x20 : Shape := ⟨2, ![20, 20]⟩
abbrev S20 : Shape := ⟨1, ![20]⟩
abbrev S20x5 : Shape := ⟨2, ![20, 5]⟩
abbrev S5 : Shape := ⟨1, ![5]⟩
abbrev S_ : Shape := ⟨0, ![]⟩

class Facts : Prop where
  bcast_S_S200000x20 : S_.BroadcastsInDim S200000x20 (![] : Fin 0 → Fin S200000x20.rank)
  reducesTo_S200000x20_S_d0_1 : S200000x20.ReducesTo [0, 1] S_
  h_S_ : 0 < S_.numel
  bcast_S_S20x20 : S_.BroadcastsInDim S20x20 (![] : Fin 0 → Fin S20x20.rank)
  reducesTo_S20x20_S_d0_1 : S20x20.ReducesTo [0, 1] S_
  bcast_S_S20 : S_.BroadcastsInDim S20 (![] : Fin 0 → Fin S20.rank)
  reducesTo_S20_S_d0 : S20.ReducesTo [0] S_
  bcast_S_S20x5 : S_.BroadcastsInDim S20x5 (![] : Fin 0 → Fin S20x5.rank)
  reducesTo_S20x5_S_d0_1 : S20x5.ReducesTo [0, 1] S_
  bcast_S_S5 : S_.BroadcastsInDim S5 (![] : Fin 0 → Fin S5.rank)
  reducesTo_S5_S_d0 : S5.ReducesTo [0] S_

variable [Facts]

def fn_part1 {F : FTy → Type} [FloatOps F] (main_arg6 : FVec F S5 .f32) (main_v13 : IVec S_ 1) (main_v16 : IVec S20x5 1) : IVec S_ 1 :=
  let main_c_5 : IVec S_ 1 := constantI S_ 1 1#1
  let main_v17 : IVec S_ 1 := (fun x v => Host.reduce IntOp.andi x v reducesTo_S20x5_S_d0_1 h_S_) main_v16 main_c_5
  let main_v18 : IVec S_ 1 := andi main_v13 main_v17
  let main_v19 : FVec F S5 .f32 := Host.absf main_arg6
  let main_cst_6 : FVec F S_ .f32 := constant S_ .f32 0x7F800000#32
  let main_v20 : FVec F S5 .f32 := broadcastInDim S5 ![] bcast_S_S5 main_cst_6
  let main_v21 : IVec S5 1 := cmpf .olt main_v19 main_v20
  let main_c_7 : IVec S_ 1 := constantI S_ 1 1#1
  let main_v22 : IVec S_ 1 := (fun x v => Host.reduce IntOp.andi x v reducesTo_S5_S_d0 h_S_) main_v21 main_c_7
  let main_v23 : IVec S_ 1 := andi main_v18 main_v22
  main_v23

def fn {F : FTy → Type} [FloatOps F] (main_arg0 : FVec F S200000x20 .f32) (main_arg1 : IVec S2x4000000 32) (main_arg2 : IVec S200000 32) (main_arg3 : FVec F S20x20 .f32) (main_arg4 : FVec F S20 .f32) (main_arg5 : FVec F S20x5 .f32) (main_arg6 : FVec F S5 .f32) : IVec S_ 1 :=
  let main_v0 : FVec F S200000x20 .f32 := Host.absf main_arg0
  let main_cst : FVec F S_ .f32 := constant S_ .f32 0x7F800000#32
  let main_v1 : FVec F S200000x20 .f32 := broadcastInDim S200000x20 ![] bcast_S_S200000x20 main_cst
  let main_v2 : IVec S200000x20 1 := cmpf .olt main_v0 main_v1
  let main_c : IVec S_ 1 := constantI S_ 1 1#1
  let main_v3 : IVec S_ 1 := (fun x v => Host.reduce IntOp.andi x v reducesTo_S200000x20_S_d0_1 h_S_) main_v2 main_c
  let main_v4 : FVec F S20x20 .f32 := Host.absf main_arg3
  let main_cst_0 : FVec F S_ .f32 := constant S_ .f32 0x7F800000#32
  let main_v5 : FVec F S20x20 .f32 := broadcastInDim S20x20 ![] bcast_S_S20x20 main_cst_0
  let main_v6 : IVec S20x20 1 := cmpf .olt main_v4 main_v5
  let main_c_1 : IVec S_ 1 := constantI S_ 1 1#1
  let main_v7 : IVec S_ 1 := (fun x v => Host.reduce IntOp.andi x v reducesTo_S20x20_S_d0_1 h_S_) main_v6 main_c_1
  let main_v8 : IVec S_ 1 := andi main_v3 main_v7
  let main_v9 : FVec F S20 .f32 := Host.absf main_arg4
  let main_cst_2 : FVec F S_ .f32 := constant S_ .f32 0x7F800000#32
  let main_v10 : FVec F S20 .f32 := broadcastInDim S20 ![] bcast_S_S20 main_cst_2
  let main_v11 : IVec S20 1 := cmpf .olt main_v9 main_v10
  let main_c_3 : IVec S_ 1 := constantI S_ 1 1#1
  let main_v12 : IVec S_ 1 := (fun x v => Host.reduce IntOp.andi x v reducesTo_S20_S_d0 h_S_) main_v11 main_c_3
  let main_v13 : IVec S_ 1 := andi main_v8 main_v12
  let main_v14 : FVec F S20x5 .f32 := Host.absf main_arg5
  let main_cst_4 : FVec F S_ .f32 := constant S_ .f32 0x7F800000#32
  let main_v15 : FVec F S20x5 .f32 := broadcastInDim S20x5 ![] bcast_S_S20x5 main_cst_4
  let main_v16 : IVec S20x5 1 := cmpf .olt main_v14 main_v15
  fn_part1 (F := F) main_arg6 main_v13 main_v16
-- ==== Kernel.lean ====
abbrev S200000x20 : Shape := ⟨2, ![200000, 20]⟩
abbrev S2x4000000 : Shape := ⟨2, ![2, 4000000]⟩
abbrev S200000 : Shape := ⟨1, ![200000]⟩
abbrev S20x20 : Shape := ⟨2, ![20, 20]⟩
abbrev S20 : Shape := ⟨1, ![20]⟩
abbrev S20x5 : Shape := ⟨2, ![20, 5]⟩
abbrev S5 : Shape := ⟨1, ![5]⟩
abbrev S1x4000000 : Shape := ⟨2, ![1, 4000000]⟩
abbrev S4000000 : Shape := ⟨1, ![4000000]⟩
abbrev S4200000 : Shape := ⟨1, ![4200000]⟩
abbrev S_ : Shape := ⟨0, ![]⟩
abbrev S4200000x1 : Shape := ⟨2, ![4200000, 1]⟩
abbrev S200000x1 : Shape := ⟨2, ![200000, 1]⟩
abbrev S4200000x20 : Shape := ⟨2, ![4200000, 20]⟩
abbrev S1x20 : Shape := ⟨2, ![1, 20]⟩
abbrev S40x1x5000 : Shape := ⟨3, ![40, 1, 5000]⟩
abbrev S2x512x20 : Shape := ⟨3, ![2, 512, 20]⟩
abbrev S2x512x1 : Shape := ⟨3, ![2, 512, 1]⟩
abbrev S5000x20 : Shape := ⟨2, ![5000, 20]⟩
abbrev S1x1x5000 : Shape := ⟨3, ![1, 1, 5000]⟩
abbrev S1x512x20 : Shape := ⟨3, ![1, 512, 20]⟩
abbrev S1x512x1 : Shape := ⟨3, ![1, 512, 1]⟩
abbrev S512x20 : Shape := ⟨2, ![512, 20]⟩
abbrev S512x1 : Shape := ⟨2, ![512, 1]⟩
abbrev S1x5000 : Shape := ⟨2, ![1, 5000]⟩
abbrev S512x5000 : Shape := ⟨2, ![512, 5000]⟩
abbrev S5000x1 : Shape := ⟨2, ![5000, 1]⟩
abbrev S1x5 : Shape := ⟨2, ![1, 5]⟩
abbrev S512x5 : Shape := ⟨2, ![512, 5]⟩
abbrev S512 : Shape := ⟨1, ![512]⟩

abbrev nBuf : Space → Nat
  | .hbm => 66
  | .vmem => 15
  | .smem => 0
  | _ => 0

abbrev bufTy : (tb : Table) → Fin (tcTables nBuf tb) → BufTy
  | .hbm, ⟨0, _⟩ => ⟨S200000x20, .f32⟩
  | .hbm, ⟨1, _⟩ => ⟨S2x4000000, .i32⟩
  | .hbm, ⟨2, _⟩ => ⟨S200000, .i32⟩
  | .hbm, ⟨3, _⟩ => ⟨S20x20, .f32⟩
  | .hbm, ⟨4, _⟩ => ⟨S20, .f32⟩
  | .hbm, ⟨5, _⟩ => ⟨S20x5, .f32⟩
  | .hbm, ⟨6, _⟩ => ⟨S5, .f32⟩
  | .hbm, ⟨7, _⟩ => ⟨S200000, .i32⟩
  | .hbm, ⟨8, _⟩ => ⟨S1x4000000, .i32⟩
  | .hbm, ⟨9, _⟩ => ⟨S4000000, .i32⟩
  | .hbm, ⟨10, _⟩ => ⟨S4200000, .i32⟩
  | .hbm, ⟨11, _⟩ => ⟨S1x4000000, .i32⟩
  | .hbm, ⟨12, _⟩ => ⟨S4000000, .i32⟩
  | .hbm, ⟨13, _⟩ => ⟨S4200000, .i32⟩
  | .hbm, ⟨14, _⟩ => ⟨S_, .f32⟩
  | .hbm, ⟨15, _⟩ => ⟨S4200000, .f32⟩
  | .hbm, ⟨16, _⟩ => ⟨S_, .f32⟩
  | .hbm, ⟨17, _⟩ => ⟨S200000, .f32⟩
  | .hbm, ⟨18, _⟩ => ⟨S4200000x1, .i32⟩
  | .hbm, ⟨19, _⟩ => ⟨S200000, .f32⟩
  | .hbm, ⟨20, _⟩ => ⟨S_, .f32⟩
  | .hbm, ⟨21, _⟩ => ⟨S200000, .f32⟩
  | .hbm, ⟨22, _⟩ => ⟨S200000, .i1⟩
  | .hbm, ⟨23, _⟩ => ⟨S200000, .f32⟩
  | .hbm, ⟨24, _⟩ => ⟨S_, .f32⟩
  | .hbm, ⟨25, _⟩ => ⟨S_, .f32⟩
  | .hbm, ⟨26, _⟩ => ⟨S200000, .f32⟩
  | .hbm, ⟨27, _⟩ => ⟨S200000, .f32⟩
  | .hbm, ⟨28, _⟩ => ⟨S200000x1, .f32⟩
  | .hbm, ⟨29, _⟩ => ⟨S200000x20, .f32⟩
  | .hbm, ⟨30, _⟩ => ⟨S200000x20, .f32⟩
  | .hbm, ⟨31, _⟩ => ⟨S_, .i32⟩
  | .hbm, ⟨32, _⟩ => ⟨S4200000, .i32⟩
  | .hbm, ⟨33, _⟩ => ⟨S4200000, .i1⟩
  | .hbm, ⟨34, _⟩ => ⟨S_, .i32⟩
  | .hbm, ⟨35, _⟩ => ⟨S4200000, .i32⟩
  | .hbm, ⟨36, _⟩ => ⟨S4200000, .i32⟩
  | .hbm, ⟨37, _⟩ => ⟨S4200000, .i32⟩
  | .hbm, ⟨38, _⟩ => ⟨S4200000x1, .i32⟩
  | .hbm, ⟨39, _⟩ => ⟨S4200000x20, .f32⟩
  | .hbm, ⟨40, _⟩ => ⟨S_, .i32⟩
  | .hbm, ⟨41, _⟩ => ⟨S4200000, .i32⟩
  | .hbm, ⟨42, _⟩ => ⟨S4200000, .i1⟩
  | .hbm, ⟨43, _⟩ => ⟨S_, .i32⟩
  | .hbm, ⟨44, _⟩ => ⟨S4200000, .i32⟩
  | .hbm, ⟨45, _⟩ => ⟨S4200000, .i32⟩
  | .hbm, ⟨46, _⟩ => ⟨S4200000, .i32⟩
  | .hbm, ⟨47, _⟩ => ⟨S4200000x1, .i32⟩
  | .hbm, ⟨48, _⟩ => ⟨S4200000, .f32⟩
  | .hbm, ⟨49, _⟩ => ⟨S4200000x1, .f32⟩
  | .hbm, ⟨50, _⟩ => ⟨S4200000x20, .f32⟩
  | .hbm, ⟨51, _⟩ => ⟨S4200000x20, .f32⟩
  | .hbm, ⟨52, _⟩ => ⟨S_, .f32⟩
  | .hbm, ⟨53, _⟩ => ⟨S200000x20, .f32⟩
  | .hbm, ⟨54, _⟩ => ⟨S4200000x1, .i32⟩
  | .hbm, ⟨55, _⟩ => ⟨S200000x20, .f32⟩
  | .hbm, ⟨56, _⟩ => ⟨S1x20, .f32⟩
  | .hbm, ⟨57, _⟩ => ⟨S40x1x5000, .i32⟩
  | .hbm, ⟨58, _⟩ => ⟨S2x512x20, .f32⟩
  | .hbm, ⟨59, _⟩ => ⟨S2x512x1, .f32⟩
  | .hbm, ⟨60, _⟩ => ⟨S_, .f32⟩
  | .hbm, ⟨61, _⟩ => ⟨S512x20, .f32⟩
  | .hbm, ⟨62, _⟩ => ⟨S_, .f32⟩
  | .hbm, ⟨63, _⟩ => ⟨S512x1, .f32⟩
  | .hbm, ⟨64, _⟩ => ⟨S1x5, .f32⟩
  | .hbm, ⟨65, _⟩ => ⟨S512x5, .f32⟩
  | .local _ .vmem, ⟨0, _⟩ => ⟨S5000x20, .f32⟩
  | .local _ .vmem, ⟨1, _⟩ => ⟨S5000x20, .f32⟩
  | .local _ .vmem, ⟨2, _⟩ => ⟨S20x20, .f32⟩
  | .local _ .vmem, ⟨3, _⟩ => ⟨S1x20, .f32⟩
  | .local _ .vmem, ⟨4, _⟩ => ⟨S1x1x5000, .i32⟩
  | .local _ .vmem, ⟨5, _⟩ => ⟨S1x1x5000, .i32⟩
  | .local _ .vmem, ⟨6, _⟩ => ⟨S1x512x20, .f32⟩
  | .local _ .vmem, ⟨7, _⟩ => ⟨S1x512x20, .f32⟩
  | .local _ .vmem, ⟨8, _⟩ => ⟨S1x512x1, .f32⟩
  | .local _ .vmem, ⟨9, _⟩ => ⟨S1x512x1, .f32⟩
  | .local _ .vmem, ⟨10, _⟩ => ⟨S512x20, .f32⟩
  | .local _ .vmem, ⟨11, _⟩ => ⟨S512x1, .f32⟩
  | .local _ .vmem, ⟨12, _⟩ => ⟨S20x5, .f32⟩
  | .local _ .vmem, ⟨13, _⟩ => ⟨S1x5, .f32⟩
  | .local _ .vmem, ⟨14, _⟩ => ⟨S512x5, .f32⟩
  | _, _ => ⟨S200000x20, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40_0 : Ref sig .tc := ⟨.hbm, 58, rfl⟩
abbrev main_v40_1 : Ref sig .tc := ⟨.hbm, 59, rfl⟩
abbrev main_cst_7 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem1_0 : DmaSem sig := 11
abbrev cc1_sem2_0 : DmaSem sig := 12
abbrev cc1_sem3_0 : DmaSem sig := 13
abbrev cc1_sem4_0 : DmaSem sig := 14

abbrev nD : Nat := 1
abbrev τ : Topo := Topo.v7x

variable {F : FTy → Type} [FloatOps F]

abbrev grid0 : Pipeline.Grid := ⟨2, ![2, 20], ![false, false]⟩

def cc0_transform_0 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.muli arg0 c20_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c20_i32 : BitVec 32 := 20#32
  let v0 : BitVec 32 := Scalar.muli arg0 c20_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5000x20 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S20x20 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x20 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x5000 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x20 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S512x20 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S512x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S20x5 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x5 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x5 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

class Facts₀ : Prop where
  slices_S2x4000000_S1x4000000_0_0 : S2x4000000.Slices ![0, 0] S1x4000000
  shapeCasts_S1x4000000_S4000000 : S1x4000000.ShapeCasts S4000000
  concatenates_S4000000_S200000_S4200000_d0 : Shape.Concatenates [S4000000, S200000] S4200000 0
  slices_S2x4000000_S1x4000000_1_0 : S2x4000000.Slices ![1, 0] S1x4000000
  bcast_S_S4200000 : S_.BroadcastsInDim S4200000 (![] : Fin 0 → Fin S4200000.rank)
  bcast_S_S200000 : S_.BroadcastsInDim S200000 (![] : Fin 0 → Fin S200000.rank)
  bcast_S4200000_S4200000x1_0 : S4200000.BroadcastsInDim S4200000x1 (![0] : Fin 1 → Fin S4200000x1.rank)
  bcast_S200000_S200000x1_0 : S200000.BroadcastsInDim S200000x1 (![0] : Fin 1 → Fin S200000x1.rank)
  bcast_S200000x1_S200000x20_0_1 : S200000x1.BroadcastsInDim S200000x20 (![0, 1] : Fin 2 → Fin S200000x20.rank)
  bcast_S4200000x1_S4200000x20_0_1 : S4200000x1.BroadcastsInDim S4200000x20 (![0, 1] : Fin 2 → Fin S4200000x20.rank)
  bcast_S_S200000x20 : S_.BroadcastsInDim S200000x20 (![] : Fin 0 → Fin S200000x20.rank)
  shapeCasts_S20_S1x20 : S20.ShapeCasts S1x20
  shapeCasts_S200000_S40x1x5000 : S200000.ShapeCasts S40x1x5000
  inb_S1x512x20_S1x512x20_0_0_0 : ∀ a, (![0, 0, 0] : Fin 3 → Nat) a + S1x512x20.size a ≤ S1x512x20.size a
  h_S1x512x20 : 0 < S1x512x20.numel
  shapeCasts_S1x512x20_S512x20 : S1x512x20.ShapeCasts S512x20
  shapeCasts_S512x20_S1x512x20 : S512x20.ShapeCasts S1x512x20
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  shapeCasts_S512x1_S1x512x1 : S512x1.ShapeCasts S1x512x1
  inb_S5000x20_S5000x20_0_0 : ∀ a, (![0, 0] : Fin 2 → Nat) a + S5000x20.size a ≤ S5000x20.size a
  h_S5000x20 : 0 < S5000x20.numel
  shapeCasts_S5000x20_S5000x20 : S5000x20.ShapeCasts S5000x20
  bitsLt_bf16_f32 : FTy.bits .bf16 < FTy.bits .f32
  inb_S20x20_S20x20_0_0 : ∀ a, (![0, 0] : Fin 2 → Nat) a + S20x20.size a ≤ S20x20.size a
  h_S20x20 : 0 < S20x20.numel
  inb_S1x20_S1x20_0_0 : ∀ a, (![0, 0] : Fin 2 → Nat) a + S1x20.size a ≤ S1x20.size a
  h_S1x20 : 0 < S1x20.numel
  shapeCasts_S1x20_S1x20 : S1x20.ShapeCasts S1x20
  broadcasts_S1x20_S5000x20 : S1x20.Broadcasts S5000x20
  inb_S1x1x5000_S1x1x5000_0_0_0 : ∀ a, (![0, 0, 0] : Fin 3 → Nat) a + S1x1x5000.size a ≤ S1x1x5000.size a
  h_S1x1x5000 : 0 < S1x1x5000.numel
  shapeCasts_S1x1x5000_S1x5000 : S1x1x5000.ShapeCasts S1x5000
  iota_S512x5000_d0_w32 : S512x5000.Iotas .tc 32 [0]
  broadcasts_S1x5000_S512x5000 : S1x5000.Broadcasts S512x5000
  natLt_1_32 : 1 < 32
  reducesTo_S2x512x20_S512x20_d0 : S2x512x20.ReducesTo [0] S512x20
  h_S_ : 0 < S_.numel
  reducesTo_S2x512x1_S512x1_d0 : S2x512x1.ReducesTo [0] S512x1
  shapeCasts_S5_S1x5 : S5.ShapeCasts S1x5
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x20_S512x20_0_0 : ∀ a, (![0, 0] : Fin 2 → Nat) a + S512x20.size a ≤ S512x20.size a
  h_S512x20 : 0 < S512x20.numel
  shapeCasts_S512x20_S512x20 : S512x20.ShapeCasts S512x20
  broadcasts_S512x1_S512x20 : S512x1.Broadcasts S512x20
  inb_S20x5_S20x5_0_0 : ∀ a, (![0, 0] : Fin 2 → Nat) a + S20x5.size a ≤ S20x5.size a
  h_S20x5 : 0 < S20x5.numel
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S512x5 : S1x5.Broadcasts S512x5
  reduces_S512x5_S512 : S512x5.Reduces [1] S512
  shapeCasts_S512_S512x1 : S512.ShapeCasts S512x1
  broadcasts_S512x1_S512x5 : S512x1.Broadcasts S512x5
  inb_S512x5_S512x5_0_0 : ∀ a, (![0, 0] : Fin 2 → Nat) a + S512x5.size a ≤ S512x5.size a
  h_S512x5 : 0 < S512x5.numel
  scatter_S200000_S4200000x1_S4200000_n_0_0_1_wf : ScatterDims.WF S200000 S4200000x1 S4200000 [] [0] [0] 1
  gather_S200000x20_S4200000x1_S4200000x20_1_0_n_n_0_1_120_wf : GatherDims.WF S200000x20 S4200000x1 S4200000x20 [1] [0] [] [0] [] 1 ![1, 20]
  gather_S200000_S4200000x1_S4200000_n_0_n_n_0_1_1_wf : GatherDims.WF S200000 S4200000x1 S4200000 [] [0] [] [0] [] 1 ![1]
  scatter_S200000x20_S4200000x1_S4200000x20_1_0_0_1_wf : ScatterDims.WF S200000x20 S4200000x1 S4200000x20 [1] [0] [0] 1
  dot_S5000x20_S20x20_S5000x20_1_0_0_1_n_n_wf : DotDims.WF S5000x20 S20x20 S5000x20 [1] [0] [0] [1] [] []
  dot_S512x5000_S5000x20_S512x20_1_0_0_1_n_n_wf : DotDims.WF S512x5000 S5000x20 S512x20 [1] [0] [0] [1] [] []
  dot_S512x5000_S5000x1_S512x1_1_0_0_1_n_n_wf : DotDims.WF S512x5000 S5000x1 S512x1 [1] [0] [0] [1] [] []
  dot_S512x20_S20x5_S512x5_1_0_0_1_n_n_wf : DotDims.WF S512x20 S20x5 S512x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x20.size a ≤ S200000x20.size a
  hwx0_0 : ∀ i : grid0.Coords, EltTy.bits .f32 = 32 ∨ (Rect.block (s := S200000x20) S5000x20.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S20x20.size a ≤ S20x20.size a
  hwx0_1 : ∀ i : grid0.Coords, EltTy.bits .f32 = 32 ∨ (Rect.block (s := S20x20) S20x20.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x20.size a ≤ S1x20.size a
  hwx0_2 : ∀ i : grid0.Coords, EltTy.bits .f32 = 32 ∨ (Rect.block (s := S1x20) S1x20.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x5000.size a ≤ S40x1x5000.size a
  hwx0_3 : ∀ i : grid0.Coords, EltTy.bits .i32 = 32 ∨ (Rect.block (s := S40x1x5000) S1x1x5000.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x20.size a ≤ S2x512x20.size a
  hwx0_4 : ∀ i : grid0.Coords, EltTy.bits .f32 = 32 ∨ (Rect.block (s := S2x512x20) S1x512x20.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1.size a ≤ S2x512x1.size a
  hwx0_5 : ∀ i : grid0.Coords, EltTy.bits .f32 = 32 ∨ (Rect.block (s := S2x512x1) S1x512x1.size (cc0_transform_5 i) (hinb0_5 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S512x20.size a ≤ S512x20.size a
  hwx1_0 : ∀ i : grid1.Coords, EltTy.bits .f32 = 32 ∨ (Rect.block (s := S512x20) S512x20.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x1.size a ≤ S512x1.size a
  hwx1_1 : ∀ i : grid1.Coords, EltTy.bits .f32 = 32 ∨ (Rect.block (s := S512x1) S512x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S20x5.size a ≤ S20x5.size a
  hwx1_2 : ∀ i : grid1.Coords, EltTy.bits .f32 = 32 ∨ (Rect.block (s := S20x5) S20x5.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x5.size a ≤ S1x5.size a
  hwx1_3 : ∀ i : grid1.Coords, EltTy.bits .f32 = 32 ∨ (Rect.block (s := S1x5) S1x5.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x5.size a ≤ S512x5.size a
  hwx1_4 : ∀ i : grid1.Coords, EltTy.bits .f32 = 32 ∨ (Rect.block (s := S512x5) S512x5.size (cc1_transform_4 i) (hinb1_4 i)).WholeWords (EltTy.packing .f32)

variable [Facts₀]

def scatter_S200000_S4200000x1_S4200000_n_0_0_1 : ScatterDims S200000 S4200000x1 S4200000 where
  updateWindowDims := []
  insertedWindowDims := [0]
  scatterDimsToOperandDims := [0]
  indexVectorDim := 1
  wf := scatter_S200000_S4200000x1_S4200000_n_0_0_1_wf
def gather_S200000x20_S4200000x1_S4200000x20_1_0_n_n_0_1_120 : GatherDims S200000x20 S4200000x1 S4200000x20 where
  offsetDims := [1]
  collapsedSliceDims := [0]
  operandBatchingDims := []
  startIndicesBatchingDims := []
  startIndexMap := [0]
  indexVectorDim := 1
  sliceSizes := ![1, 20]
  wf := gather_S200000x20_S4200000x1_S4200000x20_1_0_n_n_0_1_120_wf
def gather_S200000_S4200000x1_S4200000_n_0_n_n_0_1_1 : GatherDims S200000 S4200000x1 S4200000 where
  offsetDims := []
  collapsedSliceDims := [0]
  operandBatchingDims := []
  startIndicesBatchingDims := []
  startIndexMap := [0]
  indexVectorDim := 1
  sliceSizes := ![1]
  wf := gather_S200000_S4200000x1_S4200000_n_0_n_n_0_1_1_wf
def scatter_S200000x20_S4200000x1_S4200000x20_1_0_0_1 : ScatterDims S200000x20 S4200000x1 S4200000x20 where
  updateWindowDims := [1]
  insertedWindowDims := [0]
  scatterDimsToOperandDims := [0]
  indexVectorDim := 1
  wf := scatter_S200000x20_S4200000x1_S4200000x20_1_0_0_1_wf
def dot_S5000x20_S20x20_S5000x20_1_0_0_1_n_n : DotDims S5000x20 S20x20 S5000x20 where
  lhsContracting := [1]
  rhsContracting := [0]
  lhsNonContracting := [0]
  rhsNonContracting := [1]
  lhsBatch := []
  rhsBatch := []
  wf := dot_S5000x20_S20x20_S5000x20_1_0_0_1_n_n_wf
def dot_S512x5000_S5000x20_S512x20_1_0_0_1_n_n : DotDims S512x5000 S5000x20 S512x20 where
  lhsContracting := [1]
  rhsContracting := [0]
  lhsNonContracting := [0]
  rhsNonContracting := [1]
  lhsBatch := []
  rhsBatch := []
  wf := dot_S512x5000_S5000x20_S512x20_1_0_0_1_n_n_wf
def dot_S512x5000_S5000x1_S512x1_1_0_0_1_n_n : DotDims S512x5000 S5000x1 S512x1 where
  lhsContracting := [1]
  rhsContracting := [0]
  lhsNonContracting := [0]
  rhsNonContracting := [1]
  lhsBatch := []
  rhsBatch := []
  wf := dot_S512x5000_S5000x1_S512x1_1_0_0_1_n_n_wf
def dot_S512x20_S20x5_S512x5_1_0_0_1_n_n : DotDims S512x20 S20x5 S512x5 where
  lhsContracting := [1]
  rhsContracting := [0]
  lhsNonContracting := [0]
  rhsNonContracting := [1]
  lhsBatch := []
  rhsBatch := []
  wf := dot_S512x20_S20x5_S512x5_1_0_0_1_n_n_wf

abbrev win0_0 : Pipeline.Window sig grid0 :=
  Pipeline.Window.ofSpec (Memref.whole main_v37) S5000x20.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S20x20.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v38) S1x20.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v39) S1x1x5000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v40_0) S1x512x20.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v40_1) S1x512x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v41) S512x20.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v42) S512x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S20x5.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x5.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S512x5.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S200000x20 : Shape := ⟨2, ![200000, 20]⟩
abbrev S2x4000000 : Shape := ⟨2, ![2, 4000000]⟩
abbrev S200000 : Shape := ⟨1, ![200000]⟩
abbrev S20x20 : Shape := ⟨2, ![20, 20]⟩
abbrev S20 : Shape := ⟨1, ![20]⟩
abbrev S20x5 : Shape := ⟨2, ![20, 5]⟩
abbrev S5 : Shape := ⟨1, ![5]⟩
abbrev S1x4000000 : Shape := ⟨2, ![1, 4000000]⟩
abbrev S4000000 : Shape := ⟨1, ![4000000]⟩
abbrev S4200000 : Shape := ⟨1, ![4200000]⟩
abbrev S_ : Shape := ⟨0, ![]⟩
abbrev S4200000x1 : Shape := ⟨2, ![4200000, 1]⟩
abbrev S4200000x20 : Shape := ⟨2, ![4200000, 20]⟩
abbrev S1x20 : Shape := ⟨2, ![1, 20]⟩
abbrev S512x20 : Shape := ⟨2, ![512, 20]⟩
abbrev S200000x1 : Shape := ⟨2, ![200000, 1]⟩
abbrev S512 : Shape := ⟨1, ![512]⟩
abbrev S512x1 : Shape := ⟨2, ![512, 1]⟩
abbrev S512x5 : Shape := ⟨2, ![512, 5]⟩
abbrev S1x5 : Shape := ⟨2, ![1, 5]⟩

abbrev nBuf : Space → Nat
  | .hbm => 104
  | .vmem => 0
  | .smem => 0
  | _ => 0

abbrev bufTy : (tb : Table) → Fin (tcTables nBuf tb) → BufTy
  | .hbm, ⟨0, _⟩ => ⟨S200000x20, .f32⟩
  | .hbm, ⟨1, _⟩ => ⟨S2x4000000, .i32⟩
  | .hbm, ⟨2, _⟩ => ⟨S200000, .i32⟩
  | .hbm, ⟨3, _⟩ => ⟨S20x20, .f32⟩
  | .hbm, ⟨4, _⟩ => ⟨S20, .f32⟩
  | .hbm, ⟨5, _⟩ => ⟨S20x5, .f32⟩
  | .hbm, ⟨6, _⟩ => ⟨S5, .f32⟩
  | .hbm, ⟨7, _⟩ => ⟨S200000, .i32⟩
  | .hbm, ⟨8, _⟩ => ⟨S1x4000000, .i32⟩
  | .hbm, ⟨9, _⟩ => ⟨S4000000, .i32⟩
  | .hbm, ⟨10, _⟩ => ⟨S4200000, .i32⟩
  | .hbm, ⟨11, _⟩ => ⟨S1x4000000, .i32⟩
  | .hbm, ⟨12, _⟩ => ⟨S4000000, .i32⟩
  | .hbm, ⟨13, _⟩ => ⟨S4200000, .i32⟩
  | .hbm, ⟨14, _⟩ => ⟨S_, .f32⟩
  | .hbm, ⟨15, _⟩ => ⟨S4200000, .f32⟩
  | .hbm, ⟨16, _⟩ => ⟨S_, .f32⟩
  | .hbm, ⟨17, _⟩ => ⟨S200000, .f32⟩
  | .hbm, ⟨18, _⟩ => ⟨S4200000x1, .i32⟩
  | .hbm, ⟨19, _⟩ => ⟨S200000, .f32⟩
  | .hbm, ⟨20, _⟩ => ⟨S_, .f32⟩
  | .hbm, ⟨21, _⟩ => ⟨S200000, .f32⟩
  | .hbm, ⟨22, _⟩ => ⟨S200000, .i1⟩
  | .hbm, ⟨23, _⟩ => ⟨S200000, .f32⟩
  | .hbm, ⟨24, _⟩ => ⟨S_, .f32⟩
  | .hbm, ⟨25, _⟩ => ⟨S_, .f32⟩
  | .hbm, ⟨26, _⟩ => ⟨S200000, .f32⟩
  | .hbm, ⟨27, _⟩ => ⟨S200000, .f32⟩
  | .hbm, ⟨28, _⟩ => ⟨S_, .i32⟩
  | .hbm, ⟨29, _⟩ => ⟨S4200000, .i32⟩
  | .hbm, ⟨30, _⟩ => ⟨S4200000, .i1⟩
  | .hbm, ⟨31, _⟩ => ⟨S_, .i32⟩
  | .hbm, ⟨32, _⟩ => ⟨S4200000, .i32⟩
  | .hbm, ⟨33, _⟩ => ⟨S4200000, .i32⟩
  | .hbm, ⟨34, _⟩ => ⟨S4200000, .i32⟩
  | .hbm, ⟨35, _⟩ => ⟨S4200000x1, .i32⟩
  | .hbm, ⟨36, _⟩ => ⟨S4200000, .f32⟩
  | .hbm, ⟨37, _⟩ => ⟨S_, .i32⟩
  | .hbm, ⟨38, _⟩ => ⟨S4200000, .i32⟩
  | .hbm, ⟨39, _⟩ => ⟨S4200000, .i1⟩
  | .hbm, ⟨40, _⟩ => ⟨S_, .i32⟩
  | .hbm, ⟨41, _⟩ => ⟨S4200000, .i32⟩
  | .hbm, ⟨42, _⟩ => ⟨S4200000, .i32⟩
  | .hbm, ⟨43, _⟩ => ⟨S4200000, .i32⟩
  | .hbm, ⟨44, _⟩ => ⟨S4200000x1, .i32⟩
  | .hbm, ⟨45, _⟩ => ⟨S4200000, .f32⟩
  | .hbm, ⟨46, _⟩ => ⟨S4200000, .f32⟩
  | .hbm, ⟨47, _⟩ => ⟨S200000x20, .f32⟩
  | .hbm, ⟨48, _⟩ => ⟨S_, .i32⟩
  | .hbm, ⟨49, _⟩ => ⟨S4200000, .i32⟩
  | .hbm, ⟨50, _⟩ => ⟨S4200000, .i1⟩
  | .hbm, ⟨51, _⟩ => ⟨S_, .i32⟩
  | .hbm, ⟨52, _⟩ => ⟨S4200000, .i32⟩
  | .hbm, ⟨53, _⟩ => ⟨S4200000, .i32⟩
  | .hbm, ⟨54, _⟩ => ⟨S4200000, .i32⟩
  | .hbm, ⟨55, _⟩ => ⟨S4200000x1, .i32⟩
  | .hbm, ⟨56, _⟩ => ⟨S4200000x20, .f32⟩
  | .hbm, ⟨57, _⟩ => ⟨S4200000x1, .f32⟩
  | .hbm, ⟨58, _⟩ => ⟨S4200000x20, .f32⟩
  | .hbm, ⟨59, _⟩ => ⟨S4200000x20, .f32⟩
  | .hbm, ⟨60, _⟩ => ⟨S_, .f32⟩
  | .hbm, ⟨61, _⟩ => ⟨S200000x20, .f32⟩
  | .hbm, ⟨62, _⟩ => ⟨S4200000x1, .i32⟩
  | .hbm, ⟨63, _⟩ => ⟨S200000x20, .f32⟩
  | .hbm, ⟨64, _⟩ => ⟨S1x20, .f32⟩
  | .hbm, ⟨65, _⟩ => ⟨S200000x20, .f32⟩
  | .hbm, ⟨66, _⟩ => ⟨S200000x20, .f32⟩
  | .hbm, ⟨67, _⟩ => ⟨S_, .f32⟩
  | .hbm, ⟨68, _⟩ => ⟨S200000x20, .f32⟩
  | .hbm, ⟨69, _⟩ => ⟨S200000x20, .f32⟩
  | .hbm, ⟨70, _⟩ => ⟨S_, .f32⟩
  | .hbm, ⟨71, _⟩ => ⟨S512x20, .f32⟩
  | .hbm, ⟨72, _⟩ => ⟨S200000x1, .i32⟩
  | .hbm, ⟨73, _⟩ => ⟨S512x20, .f32⟩
  | .hbm, ⟨74, _⟩ => ⟨S_, .f32⟩
  | .hbm, ⟨75, _⟩ => ⟨S200000, .f32⟩
  | .hbm, ⟨76, _⟩ => ⟨S_, .f32⟩
  | .hbm, ⟨77, _⟩ => ⟨S512, .f32⟩
  | .hbm, ⟨78, _⟩ => ⟨S200000x1, .i32⟩
  | .hbm, ⟨79, _⟩ => ⟨S512, .f32⟩
  | .hbm, ⟨80, _⟩ => ⟨S_, .f32⟩
  | .hbm, ⟨81, _⟩ => ⟨S512, .f32⟩
  | .hbm, ⟨82, _⟩ => ⟨S512, .f32⟩
  | .hbm, ⟨83, _⟩ => ⟨S512x1, .f32⟩
  | .hbm, ⟨84, _⟩ => ⟨S512x20, .f32⟩
  | .hbm, ⟨85, _⟩ => ⟨S512x20, .f32⟩
  | .hbm, ⟨86, _⟩ => ⟨S512x5, .f32⟩
  | .hbm, ⟨87, _⟩ => ⟨S1x5, .f32⟩
  | .hbm, ⟨88, _⟩ => ⟨S512x5, .f32⟩
  | .hbm, ⟨89, _⟩ => ⟨S512x5, .f32⟩
  | .hbm, ⟨90, _⟩ => ⟨S_, .f32⟩
  | .hbm, ⟨91, _⟩ => ⟨S512, .f32⟩
  | .hbm, ⟨92, _⟩ => ⟨S_, .f32⟩
  | .hbm, ⟨93, _⟩ => ⟨S512, .f32⟩
  | .hbm, ⟨94, _⟩ => ⟨S512, .f32⟩
  | .hbm, ⟨95, _⟩ => ⟨S512x1, .f32⟩
  | .hbm, ⟨96, _⟩ => ⟨S512x5, .f32⟩
  | .hbm, ⟨97, _⟩ => ⟨S512x5, .f32⟩
  | .hbm, ⟨98, _⟩ => ⟨S512x5, .f32⟩
  | .hbm, ⟨99, _⟩ => ⟨S_, .f32⟩
  | .hbm, ⟨100, _⟩ => ⟨S512, .f32⟩
  | .hbm, ⟨101, _⟩ => ⟨S512x1, .f32⟩
  | .hbm, ⟨102, _⟩ => ⟨S512x5, .f32⟩
  | .hbm, ⟨103, _⟩ => ⟨S512x5, .f32⟩
  | _, _ => ⟨S200000x20, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call1_cst : Ref sig .tc := ⟨.hbm, 67, rfl⟩
abbrev main_call1_v0 : Ref sig .tc := ⟨.hbm, 68, rfl⟩
abbrev main_v47 : Ref sig .tc := ⟨.hbm, 69, rfl⟩
abbrev main_cst_9 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_10 : Ref sig .tc := ⟨.hbm, 74, rfl⟩
abbrev main_v51 : Ref sig .tc := ⟨.hbm, 75, rfl⟩
abbrev main_cst_11 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_12 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_13 : Ref sig .tc := ⟨.hbm, 90, rfl⟩
abbrev main_v64 : Ref sig .tc := ⟨.hbm, 91, rfl⟩
abbrev main_cst_14 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_15 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩

abbrev nD : Nat := 1
abbrev τ : Topo := Topo.v7x

variable {F : FTy → Type} [FloatOps F]

class Facts₀ : Prop where
  slices_S2x4000000_S1x4000000_0_0 : S2x4000000.Slices ![0, 0] S1x4000000
  shapeCasts_S1x4000000_S4000000 : S1x4000000.ShapeCasts S4000000
  concatenates_S4000000_S200000_S4200000_d0 : Shape.Concatenates [S4000000, S200000] S4200000 0
  slices_S2x4000000_S1x4000000_1_0 : S2x4000000.Slices ![1, 0] S1x4000000
  bcast_S_S4200000 : S_.BroadcastsInDim S4200000 (![] : Fin 0 → Fin S4200000.rank)
  bcast_S_S200000 : S_.BroadcastsInDim S200000 (![] : Fin 0 → Fin S200000.rank)
  bcast_S4200000_S4200000x1_0 : S4200000.BroadcastsInDim S4200000x1 (![0] : Fin 1 → Fin S4200000x1.rank)
  bcast_S4200000x1_S4200000x20_0_1 : S4200000x1.BroadcastsInDim S4200000x20 (![0, 1] : Fin 2 → Fin S4200000x20.rank)
  bcast_S_S200000x20 : S_.BroadcastsInDim S200000x20 (![] : Fin 0 → Fin S200000x20.rank)
  bcast_S20_S1x20_1 : S20.BroadcastsInDim S1x20 (![1] : Fin 1 → Fin S1x20.rank)
  bcast_S1x20_S200000x20_0_1 : S1x20.BroadcastsInDim S200000x20 (![0, 1] : Fin 2 → Fin S200000x20.rank)
  bcast_S_S512x20 : S_.BroadcastsInDim S512x20 (![] : Fin 0 → Fin S512x20.rank)
  bcast_S200000_S200000x1_0 : S200000.BroadcastsInDim S200000x1 (![0] : Fin 1 → Fin S200000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x20_0_1 : S512x1.BroadcastsInDim S512x20 (![0, 1] : Fin 2 → Fin S512x20.rank)
  bcast_S5_S1x5_1 : S5.BroadcastsInDim S1x5 (![1] : Fin 1 → Fin S1x5.rank)
  bcast_S1x5_S512x5_0_1 : S1x5.BroadcastsInDim S512x5 (![0, 1] : Fin 2 → Fin S512x5.rank)
  reducesTo_S512x5_S512_d1 : S512x5.ReducesTo [1] S512
  h_S_ : 0 < S_.numel
  bcast_S512x1_S512x5_0_1 : S512x1.BroadcastsInDim S512x5 (![0, 1] : Fin 2 → Fin S512x5.rank)
  scatter_S200000_S4200000x1_S4200000_n_0_0_1_wf : ScatterDims.WF S200000 S4200000x1 S4200000 [] [0] [0] 1
  gather_S200000_S4200000x1_S4200000_n_0_n_n_0_1_1_wf : GatherDims.WF S200000 S4200000x1 S4200000 [] [0] [] [0] [] 1 ![1]
  dot_S200000x20_S20x20_S200000x20_1_0_0_1_n_n_wf : DotDims.WF S200000x20 S20x20 S200000x20 [1] [0] [0] [1] [] []
  gather_S200000x20_S4200000x1_S4200000x20_1_0_n_n_0_1_120_wf : GatherDims.WF S200000x20 S4200000x1 S4200000x20 [1] [0] [] [0] [] 1 ![1, 20]
  scatter_S200000x20_S4200000x1_S4200000x20_1_0_0_1_wf : ScatterDims.WF S200000x20 S4200000x1 S4200000x20 [1] [0] [0] 1
  scatter_S512x20_S200000x1_S200000x20_1_0_0_1_wf : ScatterDims.WF S512x20 S200000x1 S200000x20 [1] [0] [0] 1
  scatter_S512_S200000x1_S200000_n_0_0_1_wf : ScatterDims.WF S512 S200000x1 S200000 [] [0] [0] 1
  dot_S512x20_S20x5_S512x5_1_0_0_1_n_n_wf : DotDims.WF S512x20 S20x5 S512x5 [1] [0] [0] [1] [] []

variable [Facts₀]

def scatter_S200000_S4200000x1_S4200000_n_0_0_1 : ScatterDims S200000 S4200000x1 S4200000 where
  updateWindowDims := []
  insertedWindowDims := [0]
  scatterDimsToOperandDims := [0]
  indexVectorDim := 1
  wf := scatter_S200000_S4200000x1_S4200000_n_0_0_1_wf
def gather_S200000_S4200000x1_S4200000_n_0_n_n_0_1_1 : GatherDims S200000 S4200000x1 S4200000 where
  offsetDims := []
  collapsedSliceDims := [0]
  operandBatchingDims := []
  startIndicesBatchingDims := []
  startIndexMap := [0]
  indexVectorDim := 1
  sliceSizes := ![1]
  wf := gather_S200000_S4200000x1_S4200000_n_0_n_n_0_1_1_wf
def dot_S200000x20_S20x20_S200000x20_1_0_0_1_n_n : DotDims S200000x20 S20x20 S200000x20 where
  lhsContracting := [1]
  rhsContracting := [0]
  lhsNonContracting := [0]
  rhsNonContracting := [1]
  lhsBatch := []
  rhsBatch := []
  wf := dot_S200000x20_S20x20_S200000x20_1_0_0_1_n_n_wf
def gather_S200000x20_S4200000x1_S4200000x20_1_0_n_n_0_1_120 : GatherDims S200000x20 S4200000x1 S4200000x20 where
  offsetDims := [1]
  collapsedSliceDims := [0]
  operandBatchingDims := []
  startIndicesBatchingDims := []
  startIndexMap := [0]
  indexVectorDim := 1
  sliceSizes := ![1, 20]
  wf := gather_S200000x20_S4200000x1_S4200000x20_1_0_n_n_0_1_120_wf
def scatter_S200000x20_S4200000x1_S4200000x20_1_0_0_1 : ScatterDims S200000x20 S4200000x1 S4200000x20 where
  updateWindowDims := [1]
  insertedWindowDims := [0]
  scatterDimsToOperandDims := [0]
  indexVectorDim := 1
  wf := scatter_S200000x20_S4200000x1_S4200000x20_1_0_0_1_wf
def scatter_S512x20_S200000x1_S200000x20_1_0_0_1 : ScatterDims S512x20 S200000x1 S200000x20 where
  updateWindowDims := [1]
  insertedWindowDims := [0]
  scatterDimsToOperandDims := [0]
  indexVectorDim := 1
  wf := scatter_S512x20_S200000x1_S200000x20_1_0_0_1_wf
def scatter_S512_S200000x1_S200000_n_0_0_1 : ScatterDims S512 S200000x1 S200000 where
  updateWindowDims := []
  insertedWindowDims := [0]
  scatterDimsToOperandDims := [0]
  indexVectorDim := 1
  wf := scatter_S512_S200000x1_S200000_n_0_0_1_wf
def dot_S512x20_S20x5_S512x5_1_0_0_1_n_n : DotDims S512x20 S20x5 S512x5 where
  lhsContracting := [1]
  rhsContracting := [0]
  lhsNonContracting := [0]
  rhsNonContracting := [1]
  lhsBatch := []
  rhsBatch := []
  wf := dot_S512x20_S20x5_S512x5_1_0_0_1_n_n_wf

class Facts : Prop extends Facts₀ where

variable [Facts]
-- ==== Proof.Spec.lean ====
/-
  The mathematics of the two programs, over plain finite index types and the extended reals.

  A graph convolution with symmetric degree normalisation, a ReLU, a mean pool per graph and a softmax head.
  Both programs share the edge lists (source and destination of every edge, self loops appended), the
  normalisation `dinv` per node, the clamped node a gather reads and the node a scatter-add lands on (or none,
  when the index is outside the table).  They differ in the ORDER of two linear steps:

    * one sums the scaled neighbour rows first and multiplies by the weight matrix afterwards (`aggK`, `hidOf`),
      the other multiplies every node's row by the weight matrix first and sums afterwards (`aggR`);
    * one pools by a one-hot matrix product per tile of 5000 nodes, accumulated over the twenty tiles of each of
      two slabs, and adds the slabs (`slabSum`, `slabCnt`); the other scatter-adds node rows onto their graph
      (`poolSum`, `poolCnt`).

  Over finite values the first pair agree by distributivity and an exchange of two finite sums; the second pair
  agree on all extended reals, a one-hot entry being 0 or 1 and the tiles partitioning the nodes.
-/
import Idealize.ShloMosaic.PureOps.Ideal
import Idealize.ShloMosaic.Lib.ValueIdx

noncomputable section

open scoped BigOperators

namespace Gcn

open Idealize.ShloMosaic Idealize.ShloMosaic.ValueIdx

/-! ## Index words -/

/-- A start word read signed and clamped into a table of `N` rows: the row a gather reads. -/
def clampTo (N : Nat) (hN : 0 < N) (w : BitVec 32) : Fin N := ⟨min w.toInt.toNat (N - 1), by omega⟩

/-- A start word read signed, as a row of a table of `N` rows, or none when it is outside: the row a scatter-add
    lands on, an update outside the table being dropped. -/
def inRange (N : Nat) (w : BitVec 32) : Option (Fin N) :=
  if h : 0 ≤ w.toInt ∧ w.toInt < (N : Int) then some ⟨w.toInt.toNat, by omega⟩ else none

/-- The node a gather reads for a start word. -/
abbrev clampNode (w : BitVec 32) : Fin 200000 := clampTo 200000 (by decide) w

/-- The node a scatter-add lands on for a start word, or none. -/
abbrev nodeOf (w : BitVec 32) : Option (Fin 200000) := inRange 200000 w

/-- The graph a scatter-add lands on for a graph-id word, or none. -/
abbrev graphOf (w : BitVec 32) : Option (Fin 512) := inRange 512 w

/-- A rank-2 array as a function of its two coordinates. -/
abbrev X2 {α : Type} {n0 n1 : Nat} (a : (⟨2, ![n0, n1]⟩ : Shape).Idx → α) : Fin n0 → Fin n1 → α := fun p q => a (ix2 p q)
/-- A rank-1 array as a function of its coordinate. -/
abbrev X1 {α : Type} {n : Nat} (a : (⟨1, ![n]⟩ : Shape).Idx → α) : Fin n → α := fun p => a (ix1 p)
/-- The node each entry of a column of start words makes a gather read. -/
abbrev srcOf {n : Nat} (col : (⟨2, ![n, 1]⟩ : Shape).Idx → BitVec 32) : Fin n → Fin 200000 :=
  fun e => clampNode (col (ix2 e (0 : Fin 1)))
/-- The node each entry of a column of start words makes a scatter-add land on. -/
abbrev tgtOf {n : Nat} (col : (⟨2, ![n, 1]⟩ : Shape).Idx → BitVec 32) : Fin n → Option (Fin 200000) :=
  fun e => nodeOf (col (ix2 e (0 : Fin 1)))

/-! ## The convolution, in the two orders -/

section Conv
variable (x : Fin 200000 → Fin 20 → EReal) (W : Fin 20 → Fin 20 → EReal) (b : Fin 20 → EReal)
  (dinv : Fin 200000 → EReal) (src dst : Fin 4200000 → Fin 200000) (tgt : Fin 4200000 → Option (Fin 200000))

/-- Aggregate first: the scaled source rows of the edges landing on node `n`, summed, feature `k`. -/
def aggK (n : Fin 200000) (k : Fin 20) : EReal :=
  ∑ e ∈ Finset.univ.filter (fun e => tgt e = some n), x (src e) k * dinv (src e) * dinv (dst e)

/-- The affine map and the ReLU on an aggregated row. -/
def hidOf (agg : Fin 200000 → Fin 20 → EReal) (n : Fin 200000) (j : Fin 20) : EReal :=
  max ((∑ k : Fin 20, agg n k * W k j) + b j) 0

/-- Transform first: the edges landing on node `n`, each the transformed source row scaled by the edge's norm. -/
def aggR (n : Fin 200000) (j : Fin 20) : EReal :=
  ∑ e ∈ Finset.univ.filter (fun e => tgt e = some n), (∑ k : Fin 20, x (src e) k * W k j) * (dinv (src e) * dinv (dst e))

/-- The bias and the ReLU on a transformed-and-aggregated row. -/
def hidR (n : Fin 200000) (j : Fin 20) : EReal := max (aggR x W dinv src dst tgt n j + b j) 0

end Conv

/-! ## The pool, in the two forms -/

/-- One entry of the one-hot matrix: graph `g` against a graph-id word. -/
def oneHot (g : Fin 512) (w : BitVec 32) : EReal := if BitVec.ofNat 32 g.val = w then 1 else 0

/-- Tile `u` of slab `cc`. -/
def tile (cc : Fin 2) (u : Fin 20) : Fin 40 := ⟨20 * cc.val + u.val, by have := cc.isLt; have := u.isLt; omega⟩
/-- Row `r` of tile `t` as a node. -/
def nodeAt (t : Fin 40) (r : Fin 5000) : Fin 200000 := ⟨5000 * t.val + r.val, by have := t.isLt; have := r.isLt; omega⟩

/-- A slab's pooled sums: the one-hot product of every tile of the slab, added up. -/
def slabSum (h : Fin 200000 → Fin 20 → EReal) (bt : Fin 40 → Fin 5000 → BitVec 32) (cc : Fin 2) (g : Fin 512) (j : Fin 20) : EReal :=
  ∑ u : Fin 20, ∑ r : Fin 5000, oneHot g (bt (tile cc u) r) * h (nodeAt (tile cc u) r) j
/-- A slab's node counts. -/
def slabCnt (bt : Fin 40 → Fin 5000 → BitVec 32) (cc : Fin 2) (g : Fin 512) : EReal :=
  ∑ u : Fin 20, ∑ r : Fin 5000, oneHot g (bt (tile cc u) r) * 1

/-- The scatter-add pool: the rows of the nodes whose graph id is `g`. -/
def poolSum (h : Fin 200000 → Fin 20 → EReal) (batch : Fin 200000 → BitVec 32) (g : Fin 512) (j : Fin 20) : EReal :=
  ∑ n ∈ Finset.univ.filter (fun n => graphOf (batch n) = some g), h n j
/-- The scatter-add count. -/
def poolCnt (batch : Fin 200000 → BitVec 32) (g : Fin 512) : EReal :=
  ∑ n ∈ Finset.univ.filter (fun n : Fin 200000 => graphOf (batch n) = some g), (1 : EReal)

end Gcn

end
-- ==== Proof.IdxLemmas.lean ====
/-
  A gather of rows (or of entries) at a column of start words, and a scatter-add of rows (or of entries) at a column
  of start words, read at an index: the dimension numbers that jnp's `x[idx]` and `segment_sum` lower to.
-/
import Idealize.ShloMosaic.PureOps.Ideal
import Idealize.ShloMosaic.Lib.ValueIdx
import Idealize.ShloMosaic.Lib.StableHlo.Predicate
import proofs.«417613_j4277787427600_3_alg».proof.Proof.Spec

noncomputable section

open scoped BigOperators

namespace Gcn.Idx

open Idealize.ShloMosaic Idealize.ShloMosaic.ValueIdx

/-- An entry of a list known to be a singleton is that singleton's element, whatever the position. -/
private theorem getElem_of_eq_singleton {α : Type} (l : List α) (a : α) (hl : l = [a]) (i : Nat) (h : i < l.length) :
    l[i] = a := by
  subst hl
  have hi : i = 0 := by simpa using h
  subst hi; rfl

/-- Row `e` of a gather of rows reads the table's row at the clamped start word, column by column. -/
theorem gather_rows {α : Type} {N C M w : Nat} (hN : 0 < N) (d : GatherDims ⟨2, ![N, C]⟩ ⟨2, ![M, 1]⟩ ⟨2, ![M, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hsl : d.sliceSizes = ![1, C])
    (x : (⟨2, ![N, C]⟩ : Shape).Idx → α) (idx : IVec ⟨2, ![M, 1]⟩ w) (e : Fin M) (k : Fin C) :
    Host.gather d x idx (ix2 e k)
      = x (ix2 (⟨min (idx (ix2 e (0 : Fin 1))).toInt.toNat (N - 1), by omega⟩ : Fin N) k) := by
  have hb : ∀ a : Fin 2, a ∉ d.operandBatchingDims := by intro a; rw [hob]; exact List.not_mem_nil
  -- axis 0 is collapsed and start-indexed: the clamped start word alone
  have h0 : (d.operandIdx (ix2 e k) idx (0 : Fin 2)).val = min (idx (ix2 e (0 : Fin 1))).toInt.toNat (N - 1) := by
    have hk : (0 : Fin 2) ∉ d.sKept := by rw [GatherDims.mem_sKept, hcoll]; simp
    have hm : (0 : Fin 2) ∈ d.startIndexMap := by rw [hsim]; exact List.mem_singleton.mpr rfl
    have hsl0 : d.sliceSizes 0 = 1 := by rw [hsl]; rfl
    simp only [GatherDims.operandIdx, GatherDims.batchCoord_eq_zero _ _ _ (hb _), GatherDims.offCoord_eq_zero _ _ _ hk,
      Nat.add_zero, GatherDims.start, dif_pos hm]
    show min (idx _).toInt.toNat (N - d.sliceSizes 0) = min (idx (ix2 e 0)).toInt.toNat (N - 1)
    rw [hsl0]
    congr 3
    congr 1
    funext b
    match b with
    | ⟨0, _⟩ =>
      -- the batch coordinate: the result's axis 0 is its one batch axis, reading the start words' axis 0
      unfold GatherDims.siIdx
      rw [dif_neg (by rw [hivd]; simp)]
      unfold GatherDims.siCoord
      apply Fin.ext
      simp only [Fin.val_cast]
      have hbd : d.batchDims = [0] := by
        show Shape.kept _ d.offsetDims = [0]
        rw [hoff]; rfl
      have key : ∀ X : Fin 2, X = 0 → ((ix2 e k : (⟨2, ![M, C]⟩ : Shape).Idx) X).val = e.val := by
        intro X hX; subst hX; rfl
      exact key _ (getElem_of_eq_singleton _ _ hbd _ _)
    | ⟨1, _⟩ =>
      unfold GatherDims.siIdx
      rw [dif_pos (by rw [hivd])]
      apply Fin.ext
      show List.idxOf (0 : Fin 2) d.startIndexMap = 0
      rw [hsim]; simp
  -- axis 1 is the offset axis: start 0, the result's column
  have h1 : (d.operandIdx (ix2 e k) idx (1 : Fin 2)).val = k.val := by
    have hm : (1 : Fin 2) ∉ d.startIndexMap := by rw [hsim]; simp
    have hk : (1 : Fin 2) ∈ d.sKept := by rw [GatherDims.mem_sKept, hcoll, hob]; simp
    simp only [GatherDims.operandIdx, GatherDims.batchCoord_eq_zero _ _ _ (hb _), GatherDims.start, dif_neg hm,
      Nat.add_zero, Nat.zero_add, GatherDims.offCoord, dif_pos hk]
    have key : ∀ X : Fin 2, X = 1 → ((ix2 e k : (⟨2, ![M, C]⟩ : Shape).Idx) X).val = k.val := by
      intro X hX; subst hX; rfl
    exact key _ (getElem_of_eq_singleton _ _ hoff _ _)
  unfold Host.gather
  congr 1
  funext a
  apply Fin.ext
  match a with
  | ⟨0, _⟩ => exact h0
  | ⟨1, _⟩ => exact h1

/-- Entry `e` of a gather of entries reads the table at the clamped start word. -/
theorem gather_vec {α : Type} {N M w : Nat} (hN : 0 < N) (d : GatherDims ⟨1, ![N]⟩ ⟨2, ![M, 1]⟩ ⟨1, ![M]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![M, 1]⟩ w) (e : Fin M) :
    Host.gather d x idx (ix1 e)
      = x (ix1 (⟨min (idx (ix2 e (0 : Fin 1))).toInt.toNat (N - 1), by omega⟩ : Fin N)) := by
  have h1 : (ix1 e : (⟨1, ![M]⟩ : Shape).Idx) = Shape.Idx.ofFin e := by
    funext a; match a with | ⟨0, _⟩ => rfl
  have h2 : (ix2 e (0 : Fin 1) : (⟨2, ![M, 1]⟩ : Shape).Idx) = StableHlo.Predicate.ixP e := by
    funext a; match a with | ⟨0, _⟩ => rfl | ⟨1, _⟩ => rfl
  rw [h1, StableHlo.Predicate.gather_take d hcoll hob hsim hivd x idx e hN]
  congr 1
  funext a
  match a with
  | ⟨0, _⟩ =>
    apply Fin.ext
    show min (idx (StableHlo.Predicate.ixP e)).toInt.toNat (N - 1) = min (idx (ix2 e 0)).toInt.toNat (N - 1)
    rw [h2]

/-- Two rank-2 indices agree exactly when their coordinates do. -/
private theorem ix2_eq_iff {n0 n1 : Nat} (a a' : Fin n0) (b b' : Fin n1) :
    (ix2 a b : (⟨2, ![n0, n1]⟩ : Shape).Idx) = ix2 a' b' ↔ a = a' ∧ b = b' := by
  constructor
  · intro h; exact ⟨congrFun h (0 : Fin 2), congrFun h (1 : Fin 2)⟩
  · rintro ⟨rfl, rfl⟩; rfl

/-- Two rank-1 indices agree exactly when their coordinates do. -/
private theorem ix1_eq_iff {n0 : Nat} (a a' : Fin n0) :
    (ix1 a : (⟨1, ![n0]⟩ : Shape).Idx) = ix1 a' ↔ a = a' := by
  constructor
  · intro h; exact congrFun h (0 : Fin 1)
  · rintro rfl; rfl

/-- A rank-1 index set is its coordinate range … -/
private def idxEquiv1 {n : Nat} : (⟨1, ![n]⟩ : Shape).Idx ≃ Fin n where
  toFun i := i 0
  invFun p := ix1 p
  left_inv i := (eq_ix1 i).symm
  right_inv _ := rfl
/-- … so a sum over it is the sum over the coordinate. -/
private theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-- Where update (e, k) of a scatter of rows lands: the row the start word names, column k; nowhere when the start
    word is outside the table. -/
theorem resultIdx_rows {N C M : Nat} (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1) (idx : IVec ⟨2, ![M, 1]⟩ 32) (e : Fin M) (k : Fin C) :
    d.resultIdx? (ix2 e k) idx = (Gcn.inRange N (idx (ix2 e (0 : Fin 1)))).map (fun n => ix2 n k) := by
  -- axis 0: the start word, no window coordinate (the axis is inserted)
  have hs0 : d.start (ix2 e k) idx (0 : Fin 2) = (idx (ix2 e (0 : Fin 1))).toInt := by
    have hm : (0 : Fin 2) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have hus : d.uScatter = [0] := by
        show Shape.kept _ d.updateWindowDims = [0]
        rw [huw]; rfl
      have key : ∀ X : Fin 2, X = 0 → ((ix2 e k : (⟨2, ![M, C]⟩ : Shape).Idx) X).val = e.val := by
        intro X hX; subst hX; rfl
      exact key _ (getElem_of_eq_singleton _ _ hus _ _)
    | ⟨1, _⟩ =>
      unfold ScatterDims.siIdx
      rw [dif_pos (by rw [hivd])]
      apply Fin.ext
      show List.idxOf (0 : Fin 2) d.scatterDimsToOperandDims = 0
      rw [hsd]; simp
  have hw0 : d.window (ix2 e k) (0 : Fin 2) = 0 := by
    have hk : (0 : Fin 2) ∉ d.sKept := by
      show (0 : Fin 2) ∉ Shape.kept _ d.insertedWindowDims
      rw [hiw]; simp [Shape.kept]
    unfold ScatterDims.window; rw [dif_neg hk]
  -- axis 1: no start word, the update's column
  have hs1 : d.start (ix2 e k) idx (1 : Fin 2) = 0 := by
    have hm : (1 : Fin 2) ∉ d.scatterDimsToOperandDims := by rw [hsd]; simp
    unfold ScatterDims.start; rw [dif_neg hm]
  have hw1 : d.window (ix2 e k) (1 : Fin 2) = k.val := by
    have hk : (1 : Fin 2) ∈ d.sKept := by
      show (1 : Fin 2) ∈ Shape.kept _ d.insertedWindowDims
      rw [hiw]; simp [Shape.kept]
    unfold ScatterDims.window; rw [dif_pos hk]
    have key : ∀ X : Fin 2, X = 1 → ((ix2 e k : (⟨2, ![M, C]⟩ : Shape).Idx) X).val = k.val := by
      intro X hX; subst hX; rfl
    exact key _ (getElem_of_eq_singleton _ _ huw _ _)
  unfold ScatterDims.resultIdx? Gcn.inRange
  by_cases hr : 0 ≤ (idx (ix2 e (0 : Fin 1))).toInt ∧ (idx (ix2 e (0 : Fin 1))).toInt < (N : Int)
  · have hall : ∀ a : Fin 2, 0 ≤ d.start (ix2 e k) idx a + (d.window (ix2 e k) a : Int) ∧
        d.start (ix2 e k) idx a + (d.window (ix2 e k) a : Int) < ((![N, C] a : Nat) : Int) := by
      intro a
      match a with
      | ⟨0, _⟩ =>
        show 0 ≤ d.start (ix2 e k) idx (0 : Fin 2) + (d.window (ix2 e k) (0 : Fin 2) : Int) ∧
          d.start (ix2 e k) idx (0 : Fin 2) + (d.window (ix2 e k) (0 : Fin 2) : Int) < (N : Int)
        rw [hs0, hw0]; simpa using hr
      | ⟨1, _⟩ =>
        show 0 ≤ d.start (ix2 e k) idx (1 : Fin 2) + (d.window (ix2 e k) (1 : Fin 2) : Int) ∧
          d.start (ix2 e k) idx (1 : Fin 2) + (d.window (ix2 e k) (1 : Fin 2) : Int) < (C : Int)
        rw [hs1, hw1]; have := k.isLt; omega
    rw [dif_pos hall, dif_pos hr, Option.map_some]
    congr 1
    funext a
    apply Fin.ext
    match a with
    | ⟨0, _⟩ =>
      show (d.start (ix2 e k) idx (0 : Fin 2) + (d.window (ix2 e k) (0 : Fin 2) : Int)).toNat = (idx (ix2 e (0 : Fin 1))).toInt.toNat
      rw [hs0, hw0]; simp
    | ⟨1, _⟩ =>
      show (d.start (ix2 e k) idx (1 : Fin 2) + (d.window (ix2 e k) (1 : Fin 2) : Int)).toNat = k.val
      rw [hs1, hw1]; simp
  · have hnall : ¬ ∀ a : Fin 2, 0 ≤ d.start (ix2 e k) idx a + (d.window (ix2 e k) a : Int) ∧
        d.start (ix2 e k) idx a + (d.window (ix2 e k) a : Int) < ((![N, C] a : Nat) : Int) := by
      intro h
      have h0 := h (0 : Fin 2)
      rw [hs0, hw0] at h0
      exact hr (by simpa using h0)
    rw [dif_neg hnall, dif_neg hr, Option.map_none]

/-- At the extended reals a scatter-add of rows leaves, at row `n` and column `k`, the operand's entry plus the
    column-`k` entries of the update rows whose start word names row `n`. -/
theorem scatterAdd_rows {N C M : Nat} (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (x : (⟨2, ![N, C]⟩ : Shape).Idx → EReal) (idx : IVec ⟨2, ![M, 1]⟩ 32) (upd : (⟨2, ![M, C]⟩ : Shape).Idx → EReal)
    (n : Fin N) (k : Fin C) :
    Ideal.hostScatterAdd d x idx upd (ix2 n k)
      = x (ix2 n k) + ∑ e ∈ Finset.univ.filter (fun e : Fin M => Gcn.inRange N (idx (ix2 e (0 : Fin 1))) = some n), upd (ix2 e k) := by
  have hiff : ∀ (e : Fin M) (k' : Fin C), d.resultIdx? (ix2 e k') idx = some (ix2 n k)
      ↔ (Gcn.inRange N (idx (ix2 e (0 : Fin 1))) = some n ∧ k' = k) := by
    intro e k'
    rw [resultIdx_rows d huw hiw hsd hivd idx e k']
    cases Gcn.inRange N (idx (ix2 e (0 : Fin 1))) with
    | none => simp
    | some m => simp only [Option.map_some, Option.some.injEq]; exact ix2_eq_iff m n k' k
  unfold Ideal.hostScatterAdd
  congr 1
  rw [Finset.sum_filter, sum_idx2, Finset.sum_filter]
  refine Finset.sum_congr rfl fun e _ => ?_
  simp only [hiff]
  by_cases hA : Gcn.inRange N (idx (ix2 e (0 : Fin 1))) = some n
  · simp [hA]
  · simp [hA]

/-- Where update e of a scatter of entries lands: the entry the start word names; nowhere when the start word is
    outside the table. -/
theorem resultIdx_vec {N M : Nat} (d : ScatterDims ⟨1, ![N]⟩ ⟨2, ![M, 1]⟩ ⟨1, ![M]⟩)
    (huw : d.updateWindowDims = []) (hiw : d.insertedWindowDims = [0]) (hsd : d.scatterDimsToOperandDims = [0])
    (hivd : d.indexVectorDim = 1) (idx : IVec ⟨2, ![M, 1]⟩ 32) (e : Fin M) :
    d.resultIdx? (ix1 e) idx = (Gcn.inRange N (idx (ix2 e (0 : Fin 1)))).map (fun n => ix1 n) := by
  -- the one axis: the start word, no window coordinate (the axis is inserted)
  have hs0 : d.start (ix1 e) idx (0 : Fin 1) = (idx (ix2 e (0 : Fin 1))).toInt := by
    have hm : (0 : Fin 1) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have key : ∀ X : Fin 1, ((ix1 e : (⟨1, ![M]⟩ : Shape).Idx) X).val = e.val := by
        intro X
        have hX : X = 0 := Subsingleton.elim _ _
        subst hX; rfl
      exact key _
    | ⟨1, _⟩ =>
      unfold ScatterDims.siIdx
      rw [dif_pos (by rw [hivd])]
      apply Fin.ext
      show List.idxOf (0 : Fin 1) d.scatterDimsToOperandDims = 0
      rw [hsd]; simp
  have hw0 : d.window (ix1 e) (0 : Fin 1) = 0 := by
    have hk : (0 : Fin 1) ∉ d.sKept := by
      show (0 : Fin 1) ∉ Shape.kept _ d.insertedWindowDims
      rw [hiw]; simp [Shape.kept]
    unfold ScatterDims.window; rw [dif_neg hk]
  unfold ScatterDims.resultIdx? Gcn.inRange
  by_cases hr : 0 ≤ (idx (ix2 e (0 : Fin 1))).toInt ∧ (idx (ix2 e (0 : Fin 1))).toInt < (N : Int)
  · have hall : ∀ a : Fin 1, 0 ≤ d.start (ix1 e) idx a + (d.window (ix1 e) a : Int) ∧
        d.start (ix1 e) idx a + (d.window (ix1 e) a : Int) < ((![N] a : Nat) : Int) := by
      intro a
      match a with
      | ⟨0, _⟩ =>
        show 0 ≤ d.start (ix1 e) idx (0 : Fin 1) + (d.window (ix1 e) (0 : Fin 1) : Int) ∧
          d.start (ix1 e) idx (0 : Fin 1) + (d.window (ix1 e) (0 : Fin 1) : Int) < (N : Int)
        rw [hs0, hw0]; simpa using hr
    rw [dif_pos hall, dif_pos hr, Option.map_some]
    congr 1
    funext a
    apply Fin.ext
    match a with
    | ⟨0, _⟩ =>
      show (d.start (ix1 e) idx (0 : Fin 1) + (d.window (ix1 e) (0 : Fin 1) : Int)).toNat = (idx (ix2 e (0 : Fin 1))).toInt.toNat
      rw [hs0, hw0]; simp
  · have hnall : ¬ ∀ a : Fin 1, 0 ≤ d.start (ix1 e) idx a + (d.window (ix1 e) a : Int) ∧
        d.start (ix1 e) idx a + (d.window (ix1 e) a : Int) < ((![N] a : Nat) : Int) := by
      intro h
      have h0 := h (0 : Fin 1)
      rw [hs0, hw0] at h0
      exact hr (by simpa using h0)
    rw [dif_neg hnall, dif_neg hr, Option.map_none]

/-- The same for a scatter-add of entries. -/
theorem scatterAdd_vec {N M : Nat} (d : ScatterDims ⟨1, ![N]⟩ ⟨2, ![M, 1]⟩ ⟨1, ![M]⟩)
    (huw : d.updateWindowDims = []) (hiw : d.insertedWindowDims = [0]) (hsd : d.scatterDimsToOperandDims = [0])
    (hivd : d.indexVectorDim = 1)
    (x : (⟨1, ![N]⟩ : Shape).Idx → EReal) (idx : IVec ⟨2, ![M, 1]⟩ 32) (upd : (⟨1, ![M]⟩ : Shape).Idx → EReal)
    (n : Fin N) :
    Ideal.hostScatterAdd d x idx upd (ix1 n)
      = x (ix1 n) + ∑ e ∈ Finset.univ.filter (fun e : Fin M => Gcn.inRange N (idx (ix2 e (0 : Fin 1))) = some n), upd (ix1 e) := by
  have hiff : ∀ e : Fin M, d.resultIdx? (ix1 e) idx = some (ix1 n)
      ↔ Gcn.inRange N (idx (ix2 e (0 : Fin 1))) = some n := by
    intro e
    rw [resultIdx_vec d huw hiw hsd hivd idx e]
    cases Gcn.inRange N (idx (ix2 e (0 : Fin 1))) with
    | none => simp
    | some m => simp only [Option.map_some, Option.some.injEq]; exact ix1_eq_iff m n
  unfold Ideal.hostScatterAdd
  congr 1
  rw [Finset.sum_filter, sum_idx1, Finset.sum_filter]
  refine Finset.sum_congr rfl fun e _ => ?_
  simp only [hiff]

end Gcn.Idx

end
-- ==== Proof.KShared.lean ====
/-
  The stages both programs compute from the edge list alone — the normalisation per node, the clamped source and
  destination columns and the raw destination column — are, in the aggregate-first program's memory before its
  first launch, the stages the transform-first program's read-back names.

  Each of the four buffers is written by one host operation of the three stretches that run before the first launch.
  Its contents are read back one operation at a time: an operation's result at its own buffer is its function of its
  operands' contents, and at any other buffer what was there.  What is left is the composition of the same
  operations, on the same edge list, that the other program's read-back names stage by stage; the two programs spell
  equal shapes and equal dimension records by constants of their own, which unfold to the same literals.  The
  comparison is made for any float family (nothing in it depends on the arithmetic) and then read at the idealized one.
-/
import proofs.«417613_j4277787427600_3_alg».proof.Proof.Gen.KernelIdeal.Frame
import proofs.«417613_j4277787427600_3_alg».proof.Proof.RefRead
import Idealize.ShloMosaic.Lib.StableHlo.Run

noncomputable section

namespace Cert.KernelIdeal.KV

open Cert.KernelIdeal Cert.KernelIdeal.Gen
open Idealize.ShloMosaic Idealize.ShloMosaic.TcCoe Idealize.SL.Sem
open Cert.ReferenceIdeal.ReadP (val_main_v14 val_main_v20 val_main_v27 val_main_v42)
-- the stages those four are composed of
open Cert.ReferenceIdeal.ReadP (val_main_v12 val_main_v13 val_main_call0_v1 val_main_call0_v0 val_main_cst_2 val_main_v11 val_main_cst_1 val_main_v10 val_main_v9 val_main_v8 val_main_cst_0 val_main_v7 val_main_cst val_main_v6 val_main_v5 val_main_v4 val_main_v0 val_main_v19 val_main_v18 val_main_v17 val_main_c_3 val_main_v16 val_main_v15 val_main_c val_main_v3 val_main_v2 val_main_v1 val_main_v26 val_main_v25 val_main_v24 val_main_c_5 val_main_v23 val_main_v22 val_main_c_4)

/-! ## For any float family -/

section Abstract

variable {F : FTy → Type} [FloatOps F]
variable (m : (ℓ : Loc nD τ sig) → Buf (Elt F) ℓ) (ρ : Dev nD → PrngReg)

/-- The edge list as the programs see it, for any float family. -/
abbrev eiF (c : Dev nD) : (⟨S2x4000000, .i32⟩ : BufTy).Contents (Elt F) := m ((c.tc : Thread nD τ).loc main_arg1)

set_option maxHeartbeats 1000000 in
/-- The normalisation per node: the degree is the scatter-add of ones onto the destination column, and the
    normalisation is its reciprocal square root where the degree is positive and zero elsewhere.  The select is an
    inlined function's operation: its operands and result pass through casts along equal buffer types, which are
    the identity. -/
theorem v14_eqF (c : Dev nD) :
    (V3 (F := F) m ρ c main_v14 : (⟨S200000, .f32⟩ : BufTy).Contents (Elt F)) = val_main_v14 (F := F) (eiF m c) := by
  show StableHlo.after hostOps0_2 (StableHlo.after hostOps0_1 (StableHlo.after hostOps0 _)) (Proc.devRef .tc main_v14) = _
  after_results
  simp only [StableHlo.TRef.ofBuf, StableHlo.TRef.toBuf, cast_eq]
  unfold val_main_v14 val_main_v12 val_main_v13 val_main_call0_v1 val_main_call0_v0 val_main_cst_2 val_main_v11
    val_main_cst_1 val_main_v10 val_main_v9 val_main_v8 val_main_cst_0 val_main_v7 val_main_cst val_main_v6 val_main_v5
    val_main_v4 val_main_v0
  rfl

set_option maxHeartbeats 1000000 in
/-- The source column: row 0 of the edge list with the self loops appended, a negative entry moved up by the
    number of nodes, as a column. -/
theorem v23_eqF (c : Dev nD) :
    (V3 (F := F) m ρ c main_v23 : (⟨S4200000x1, .i32⟩ : BufTy).Contents (Elt F)) = val_main_v20 (F := F) (eiF m c) := by
  show StableHlo.after hostOps0_2 (StableHlo.after hostOps0_1 (StableHlo.after hostOps0 _)) (Proc.devRef .tc main_v23) = _
  after_results
  unfold val_main_v20 val_main_v19 val_main_v18 val_main_v17 val_main_c_3 val_main_v16 val_main_v15 val_main_c
    val_main_v3 val_main_v2 val_main_v1 val_main_v0
  rfl

set_option maxHeartbeats 1000000 in
/-- The destination column: row 1 of the edge list with the self loops appended, a negative entry moved up by the
    number of nodes, as a column. -/
theorem v30_eqF (c : Dev nD) :
    (V3 (F := F) m ρ c main_v30 : (⟨S4200000x1, .i32⟩ : BufTy).Contents (Elt F)) = val_main_v27 (F := F) (eiF m c) := by
  show StableHlo.after hostOps0_2 (StableHlo.after hostOps0_1 (StableHlo.after hostOps0 _)) (Proc.devRef .tc main_v30) = _
  after_results
  unfold val_main_v27 val_main_v26 val_main_v25 val_main_v24 val_main_c_5 val_main_v23 val_main_v22 val_main_c_4
    val_main_v6 val_main_v5 val_main_v4 val_main_v0
  rfl

set_option maxHeartbeats 1000000 in
/-- The raw destination column: row 1 of the edge list with the self loops appended, as a column. -/
theorem v36_eqF (c : Dev nD) :
    (V3 (F := F) m ρ c main_v36 : (⟨S4200000x1, .i32⟩ : BufTy).Contents (Elt F)) = val_main_v42 (F := F) (eiF m c) := by
  show StableHlo.after hostOps0_2 (StableHlo.after hostOps0_1 (StableHlo.after hostOps0 _)) (Proc.devRef .tc main_v36) = _
  after_results
  unfold val_main_v42 val_main_v6 val_main_v5 val_main_v4 val_main_v0
  rfl

end Abstract

/-! ## At the idealized float family -/

variable (m : (ℓ : Loc nD τ sig) → Buf (Elt Ideal) ℓ) (ρ : Dev nD → PrngReg)

/-- The edge list as the programs see it. -/
abbrev ei (c : Dev nD) : (⟨2, ![2, 4000000]⟩ : Shape).Idx → BitVec 32 := m ((c.tc : Thread nD τ).loc main_arg1)

/-- The normalisation per node. -/
theorem v14_eq (c : Dev nD) :
    (V3 (F := Ideal) m ρ c main_v14 : S200000.Idx → EReal) = val_main_v14 (F := Ideal) (ei m c) :=
  v14_eqF (F := Ideal) m ρ c

/-- The source column, negative indices wrapped, as the gather of rows reads it. -/
theorem v23_eq (c : Dev nD) :
    (V3 (F := Ideal) m ρ c main_v23 : S4200000x1.Idx → BitVec 32) = val_main_v20 (F := Ideal) (ei m c) :=
  v23_eqF (F := Ideal) m ρ c

/-- The destination column, negative indices wrapped, as the gather of entries reads it. -/
theorem v30_eq (c : Dev nD) :
    (V3 (F := Ideal) m ρ c main_v30 : S4200000x1.Idx → BitVec 32) = val_main_v27 (F := Ideal) (ei m c) :=
  v30_eqF (F := Ideal) m ρ c

/-- The raw destination column, as the scatter-add reads it. -/
theorem v36_eq (c : Dev nD) :
    (V3 (F := Ideal) m ρ c main_v36 : S4200000x1.Idx → BitVec 32) = val_main_v42 (F := Ideal) (ei m c) :=
  v36_eqF (F := Ideal) m ρ c

end Cert.KernelIdeal.KV

end
-- ==== Proof.KHost0.lean ====
/-
  The host operations of the aggregate-first program before its first launch, read at an index.

  The last stretch of host operations computes the aggregated rows from five buffers: the table of node features,
  the normalisation per node, the two clamped columns of start words and the raw destination column.  The
  composition is named once (`aggTerm`), the stretch is shown to leave it in the buffer of the aggregated rows
  whatever contents it starts from (`stretch_v37`), and the term is read at a node and a feature as the sum over
  the edges landing on the node (`aggTerm_apply`).  The bias and the graph ids are reshapes of arguments, read
  through the row-major position.
-/
import proofs.«417613_j4277787427600_3_alg».proof.Proof.Gen.KernelIdeal.Frame
import proofs.«417613_j4277787427600_3_alg».proof.Proof.RefRead
import proofs.«417613_j4277787427600_3_alg».proof.Proof.Spec
import proofs.«417613_j4277787427600_3_alg».proof.Proof.IdxLemmas
import proofs.«417613_j4277787427600_3_alg».proof.Proof.KShared
import Idealize.ShloMosaic.Lib.Pipeline.Value
import Idealize.ShloMosaic.Lib.StableHlo.Run

noncomputable section

namespace Cert.KernelIdeal.KV

open Cert.KernelIdeal Cert.KernelIdeal.Gen
open Idealize.ShloMosaic Idealize.ShloMosaic.TcCoe Idealize.SL.Sem Idealize.ShloMosaic.ValueIdx
open Cert.ReferenceIdeal.ReadP (val_main_v14 val_main_v20 val_main_v27 val_main_v42)

/-! ## The last stretch of host operations, over any contents it starts from -/

section Stretch
variable {F : FTy → Type} [FloatOps F]

/-- The scatter-added rows as one term over the table, the normalisation and the three columns of start words:
    the table's rows scaled by the normalisation, gathered at the source column; the normalisation gathered at the
    destination column; their product row by row, scatter-added onto zero at the raw destination column. -/
def aggTerm (x0 : (⟨S200000x20, .f32⟩ : BufTy).Contents (Elt F)) (dinv : (⟨S200000, .f32⟩ : BufTy).Contents (Elt F))
    (cs cd cr : (⟨S4200000x1, .i32⟩ : BufTy).Contents (Elt F)) : (⟨S200000x20, .f32⟩ : BufTy).Contents (Elt F) :=
  Host.scatterAdd scatter_S200000x20_S4200000x1_S4200000x20_1_0_0_1
    (broadcastInDim S200000x20 ![] bcast_S_S200000x20 (constant S_ .f32 0x00000000#32))
    cr
    (mulf
      (Host.gather gather_S200000x20_S4200000x1_S4200000x20_1_0_n_n_0_1_120
        (mulf x0 (broadcastInDim S200000x20 ![0, 1] bcast_S200000x1_S200000x20_0_1
          (broadcastInDim S200000x1 ![0] bcast_S200000_S200000x1_0 dinv)))
        cs)
      (broadcastInDim S4200000x20 ![0, 1] bcast_S4200000x1_S4200000x20_0_1
        (broadcastInDim S4200000x1 ![0] bcast_S4200000_S4200000x1_0
          (Host.gather gather_S200000_S4200000x1_S4200000_n_0_n_n_0_1_1 dinv cd))))

/-- The buffer of the scatter-added rows after the stretch is that term over the five buffers it is computed from,
    each as the stretch leaves it. -/
theorem stretch_v37 (V2 : Valuation τ sig (Elt F)) :
    (StableHlo.after hostOps0_2 V2 (Proc.devRef .tc main_v37) : S200000x20.Idx → F .f32)
      = aggTerm (F := F) (StableHlo.after hostOps0_2 V2 (Proc.devRef .tc main_arg0))
          (StableHlo.after hostOps0_2 V2 (Proc.devRef .tc main_v14))
          (StableHlo.after hostOps0_2 V2 (Proc.devRef .tc main_v23))
          (StableHlo.after hostOps0_2 V2 (Proc.devRef .tc main_v30))
          (StableHlo.after hostOps0_2 V2 (Proc.devRef .tc main_v36)) := by
  unfold aggTerm
  after_results_simp

end Stretch

/-! ## Broadcasts read at an index -/

section Reads
variable {α : Type}

/-- A vector over the nodes as a one-column matrix reads the vector's entry. -/
theorem col200k_apply (y : S200000.Idx → α) (p : Fin 200000) (q : Fin 1) :
    broadcastInDim S200000x1 ![0] bcast_S200000_S200000x1_0 y (ix2 p q) = y (ix1 p) :=
  broadcastInDim_apply _ bcast_S200000_S200000x1_0 y (ix2 p q) (ix1 p) (fun a => match a with
    | ⟨0, _⟩ => by show p.val = if (200000 : Nat) = 1 then 0 else p.val; rw [if_neg (by decide)])

/-- A one-column matrix over the nodes repeated along twenty columns reads its column. -/
theorem row200k_apply (y : S200000x1.Idx → α) (p : Fin 200000) (k : Fin 20) :
    broadcastInDim S200000x20 ![0, 1] bcast_S200000x1_S200000x20_0_1 y (ix2 p k) = y (ix2 p (0 : Fin 1)) :=
  broadcastInDim_apply _ bcast_S200000x1_S200000x20_0_1 y (ix2 p k) (ix2 p (0 : Fin 1)) (fun a => match a with
    | ⟨0, _⟩ => by show p.val = if (200000 : Nat) = 1 then 0 else p.val; rw [if_neg (by decide)]
    | ⟨1, _⟩ => by show 0 = if (1 : Nat) = 1 then 0 else k.val; rw [if_pos rfl])

/-- A vector over the edges as a one-column matrix reads the vector's entry. -/
theorem col4200k_apply (y : S4200000.Idx → α) (e : Fin 4200000) (q : Fin 1) :
    broadcastInDim S4200000x1 ![0] bcast_S4200000_S4200000x1_0 y (ix2 e q) = y (ix1 e) :=
  broadcastInDim_apply _ bcast_S4200000_S4200000x1_0 y (ix2 e q) (ix1 e) (fun a => match a with
    | ⟨0, _⟩ => by show e.val = if (4200000 : Nat) = 1 then 0 else e.val; rw [if_neg (by decide)])

/-- A one-column matrix over the edges repeated along twenty columns reads its column. -/
theorem row4200k_apply (y : S4200000x1.Idx → α) (e : Fin 4200000) (k : Fin 20) :
    broadcastInDim S4200000x20 ![0, 1] bcast_S4200000x1_S4200000x20_0_1 y (ix2 e k) = y (ix2 e (0 : Fin 1)) :=
  broadcastInDim_apply _ bcast_S4200000x1_S4200000x20_0_1 y (ix2 e k) (ix2 e (0 : Fin 1)) (fun a => match a with
    | ⟨0, _⟩ => by show e.val = if (4200000 : Nat) = 1 then 0 else e.val; rw [if_neg (by decide)]
    | ⟨1, _⟩ => by show 0 = if (1 : Nat) = 1 then 0 else k.val; rw [if_pos rfl])

/-- A scalar repeated over the table of rows reads the scalar. -/
theorem splat200kx20_apply (y : S_.Idx → α) (i : S200000x20.Idx) :
    broadcastInDim S200000x20 ![] bcast_S_S200000x20 y i = y ix0 :=
  broadcastInDim_apply _ bcast_S_S200000x20 y i ix0 (fun a => a.elim0)

end Reads

/-! ## The term at a node and a feature -/

/-- At the extended reals the host's scatter-add is the ideal one: a definitional equality, stated over arbitrary
    shapes. -/
theorem scatterAdd_ideal {s si u : Shape} (d : ScatterDims s si u) (x : s.Idx → EReal) (idx : IVec si 32) (upd : u.Idx → EReal) :
    Host.scatterAdd (F := Ideal) (φ := .f32) d x idx upd = Ideal.hostScatterAdd d x idx upd := rfl

/-- The term at node `n`, feature `k`: zero plus the sum, over the edges whose raw destination word names `n`, of
    the source row's entry times the source's normalisation times the destination's normalisation — the source and
    the destination being the nodes the two gathers read, their start words clamped into the table. -/
theorem aggTerm_apply (x0 : S200000x20.Idx → EReal) (dinv : S200000.Idx → EReal) (cs cd cr : S4200000x1.Idx → BitVec 32)
    (n : Fin 200000) (k : Fin 20) :
    aggTerm (F := Ideal) x0 dinv cs cd cr (ix2 n k)
      = Gcn.aggK (Gcn.X2 x0) (Gcn.X1 dinv) (Gcn.srcOf cs) (Gcn.srcOf cd) (Gcn.tgtOf cr) n k := by
  unfold aggTerm
  rw [scatterAdd_ideal]
  rw [Gcn.Idx.scatterAdd_rows scatter_S200000x20_S4200000x1_S4200000x20_1_0_0_1 rfl rfl rfl rfl]
  rw [splat200kx20_apply, constant_apply, Ideal.ofBits_zero_f32, zero_add]
  unfold Gcn.aggK
  refine Finset.sum_congr rfl (fun e _ => ?_)
  rw [mulf_apply, row4200k_apply, col4200k_apply]
  rw [Gcn.Idx.gather_vec (by omega) gather_S200000_S4200000x1_S4200000_n_0_n_n_0_1_1 rfl rfl rfl rfl]
  rw [Gcn.Idx.gather_rows (by omega) gather_S200000x20_S4200000x1_S4200000x20_1_0_n_n_0_1_120 rfl rfl rfl rfl rfl rfl rfl]
  rw [mulf_apply, row200k_apply, col200k_apply]
  rfl

/-! ## The buffers the first launch finds -/

variable (m : (ℓ : Loc nD τ sig) → Buf (Elt Ideal) ℓ) (ρ : Dev nD → PrngReg)

/-- The table of node features is as launched: no host operation writes an argument. -/
theorem arg0_eq (c : Dev nD) : V3 (F := Ideal) m ρ c main_arg0 = m ((c.tc : Thread nD τ).loc main_arg0) := by
  show StableHlo.after hostOps0_2 (StableHlo.after hostOps0_1 (StableHlo.after hostOps0 (W0 m ρ c))) (Proc.devRef .tc main_arg0) = _
  after_results_simp

/-- The graph ids are as launched. -/
theorem arg2_eq (c : Dev nD) : V3 (F := Ideal) m ρ c main_arg2 = m ((c.tc : Thread nD τ).loc main_arg2) := by
  show StableHlo.after hostOps0_2 (StableHlo.after hostOps0_1 (StableHlo.after hostOps0 (W0 m ρ c))) (Proc.devRef .tc main_arg2) = _
  after_results_simp

/-- The bias is as launched. -/
theorem arg4_eq (c : Dev nD) : V3 (F := Ideal) m ρ c main_arg4 = m ((c.tc : Thread nD τ).loc main_arg4) := by
  show StableHlo.after hostOps0_2 (StableHlo.after hostOps0_1 (StableHlo.after hostOps0 (W0 m ρ c))) (Proc.devRef .tc main_arg4) = _
  after_results_simp

/-- The aggregated rows the first launch finds: at node `n`, feature `k`, the sum over the edges landing on `n` of the
    source row's entry scaled by both normalisations. -/
theorem v37_apply (c : Dev nD) (n : Fin 200000) (k : Fin 20) :
    (V3 (F := Ideal) m ρ c main_v37 : S200000x20.Idx → EReal) (ix2 n k)
      = Gcn.aggK (Gcn.X2 (m ((c.tc : Thread nD τ).loc main_arg0))) (Gcn.X1 (val_main_v14 (F := Ideal) (ei m c)))
          (Gcn.srcOf (val_main_v20 (F := Ideal) (ei m c))) (Gcn.srcOf (val_main_v27 (F := Ideal) (ei m c)))
          (Gcn.tgtOf (val_main_v42 (F := Ideal) (ei m c))) n k := by
  have h : (V3 (F := Ideal) m ρ c main_v37 : S200000x20.Idx → EReal)
      = aggTerm (F := Ideal) (V3 (F := Ideal) m ρ c main_arg0)
          (V3 (F := Ideal) m ρ c main_v14 : S200000.Idx → EReal)
          (V3 (F := Ideal) m ρ c main_v23 : S4200000x1.Idx → BitVec 32)
          (V3 (F := Ideal) m ρ c main_v30 : S4200000x1.Idx → BitVec 32)
          (V3 (F := Ideal) m ρ c main_v36 : S4200000x1.Idx → BitVec 32) :=
    stretch_v37 (F := Ideal) (W2 m ρ c)
  rw [h, v14_eq, v23_eq, v30_eq, v36_eq, arg0_eq, aggTerm_apply]

/-- The bias as a row. -/
theorem v38_apply (c : Dev nD) (j : Fin 20) :
    (V3 (F := Ideal) m ρ c main_v38 : S1x20.Idx → EReal) (ix2 (0 : Fin 1) j) = m ((c.tc : Thread nD τ).loc main_arg4) (ix1 j) := by
  have h : (V3 (F := Ideal) m ρ c main_v38 : S1x20.Idx → EReal)
      = shapeCast S1x20 (V3 (F := Ideal) m ρ c main_arg4 : S20.Idx → EReal) shapeCasts_S20_S1x20 := by
    show StableHlo.after hostOps0_2 (W2 m ρ c) (Proc.devRef .tc main_v38)
      = shapeCast S1x20 (StableHlo.after hostOps0_2 (W2 m ρ c) (Proc.devRef .tc main_arg4)) shapeCasts_S20_S1x20
    generalize W2 m ρ c = V2
    after_results_simp
    rfl
  rw [h, arg4_eq]
  exact shapeCast_apply _ shapeCasts_S20_S1x20 (ix2 (0 : Fin 1) j) (ix1 j)
    (by rewrite [Shape.rowMajor_val_two, Shape.rowMajor_val_one]; show j.val = 0 * 20 + j.val; omega)

/-- The graph ids tile by tile. -/
theorem v39_apply (c : Dev nD) (t : Fin 40) (r : Fin 5000) :
    (V3 (F := Ideal) m ρ c main_v39 : S40x1x5000.Idx → BitVec 32) (ix3 t (0 : Fin 1) r)
      = m ((c.tc : Thread nD τ).loc main_arg2) (ix1 (Gcn.nodeAt t r)) := by
  have h : (V3 (F := Ideal) m ρ c main_v39 : S40x1x5000.Idx → BitVec 32)
      = shapeCast S40x1x5000 (V3 (F := Ideal) m ρ c main_arg2 : S200000.Idx → BitVec 32) shapeCasts_S200000_S40x1x5000 := by
    show StableHlo.after hostOps0_2 (W2 m ρ c) (Proc.devRef .tc main_v39)
      = shapeCast S40x1x5000 (StableHlo.after hostOps0_2 (W2 m ρ c) (Proc.devRef .tc main_arg2)) shapeCasts_S200000_S40x1x5000
    generalize W2 m ρ c = V2
    after_results_simp
    rfl
  rw [h, arg2_eq]
  exact shapeCast_apply _ shapeCasts_S200000_S40x1x5000 (ix3 t (0 : Fin 1) r) (ix1 (Gcn.nodeAt t r))
    (by rewrite [Shape.rowMajor_val_three, Shape.rowMajor_val_one]
        show 5000 * t.val + r.val = (t.val * 1 + 0) * 5000 + r.val; omega)

/-- The weight matrix is as launched. -/
theorem arg3_eq (c : Dev nD) : V3 (F := Ideal) m ρ c main_arg3 = m ((c.tc : Thread nD τ).loc main_arg3) := by
  show StableHlo.after hostOps0_2 (StableHlo.after hostOps0_1 (StableHlo.after hostOps0 (W0 m ρ c))) (Proc.devRef .tc main_arg3) = _
  after_results_simp

end Cert.KernelIdeal.KV

end
-- ==== Proof.KR0Pay.lean ====
/-
  The pooling body's stores as values.  At a slab's first tile the body zeroes the resident output blocks and then
  adds the tile's one-hot products to the zeroes it reads back; at every other tile it adds them to what the
  tile before left.  At an index the product is a sum over the tile's 5000 rows of a one-hot entry times the hidden
  row (the affine map of the aggregated row, then the ReLU), and the count is the sum of the one-hot entries.
-/
import proofs.«417613_j4277787427600_3_alg».proof.Proof.Gen.KernelIdeal.Frame
import proofs.«417613_j4277787427600_3_alg».proof.Proof.Spec
import Idealize.ShloMosaic.Lib.Pipeline.Value
import Idealize.ShloMosaic.Lib.ValueLayout
import Idealize.ShloMosaic.Lib.IdealHost
import Idealize.ShloMosaic.PureOps.Ideal.Laws

noncomputable section

namespace Cert.KernelIdeal.KV

open Cert.KernelIdeal Cert.KernelIdeal.Gen
open Idealize.ShloMosaic Idealize.ShloMosaic.TcCoe Idealize.SL.Sem Idealize.ShloMosaic.ValueIdx

namespace R0Pay

/-- Every store and load of the body starts at the origin of its block: the offsets are all zero. -/
theorem hz3 : (![0, 0, 0] : Fin 3 → Nat) = fun _ => 0 := funext fun a => by fin_cases a <;> rfl
theorem hz2 : (![0, 0] : Fin 2 → Nat) = fun _ => 0 := funext fun a => by fin_cases a <;> rfl

end R0Pay

section Pieces
variable {F : FTy → Type} [FloatOps F]

open R0Pay

/-- A slab's first tile leaves, in the sums block, the tile's products added to the zero block. -/
theorem out0_A_4_eq (c : Dev nD) (i : grid0.Coords) (arg2 : Memref sig .tc .vmem S5000x20 .f32) (harg2 : arg2.IsWhole) (arg3 : Memref sig .tc .vmem S20x20 .f32) (harg3 : arg3.IsWhole) (arg4 : Memref sig .tc .vmem S1x20 .f32) (harg4 : arg4.IsWhole) (arg5 : Memref sig .tc .vmem S1x1x5000 .i32) (harg5 : arg5.IsWhole) (arg6 : Memref sig .tc .vmem S1x512x20 .f32) (harg6 : arg6.IsWhole) (arg7 : Memref sig .tc .vmem S1x512x1 .f32) (harg7 : arg7.IsWhole) (hc0 : cond0_0 i)
    (x0 : Vec F S5000x20 .f32) (x1 : Vec F S20x20 .f32) (x2 : Vec F S1x20 .f32) (x3 : Vec F S1x1x5000 .i32) :
    out0_A_4 c i arg2 harg2 arg3 harg3 arg4 harg4 arg5 harg5 arg6 harg6 arg7 harg7 hc0 x0 x1 x2 x3 = k0_pay6 x0 x1 x2 x3 (k0_pay2 (F := F)) := by
  -- the zero store is covered by the later store, whose payload read the zero block back
  unfold out0_A_4
  rw [View.read_writes_eq_canon _ _ _ (cover0_A_4 c i arg2 harg2 arg3 harg3 arg4 harg4 arg5 harg5 arg6 harg6 arg7 harg7 hc0 x0 x1 x2 x3)]
  unfold kernelRun0_A
  dsimp only
  sl_unfold_words
  rw [View.canon_cons_unit_zero (S := S1x512x20) hz3, View.readCov_unit_zero (S := S1x512x20) _ hz3]
  simp only [View.readAt_eq_ld, harg2.read_unread, harg3.read_unread, harg4.read_unread, harg5.read_unread,
    View.ld_unit_zero (S := S5000x20) hz2, View.ld_unit_zero (S := S20x20) hz2, View.ld_unit_zero (S := S1x20) hz2,
    View.ld_unit_zero (S := S1x1x5000) hz3, View.ld_unit_zero (S := S1x512x20) hz3]

/-- A slab's first tile leaves, in the counts block, the tile's counts added to the zero block. -/
theorem out0_A_5_eq (c : Dev nD) (i : grid0.Coords) (arg2 : Memref sig .tc .vmem S5000x20 .f32) (harg2 : arg2.IsWhole) (arg3 : Memref sig .tc .vmem S20x20 .f32) (harg3 : arg3.IsWhole) (arg4 : Memref sig .tc .vmem S1x20 .f32) (harg4 : arg4.IsWhole) (arg5 : Memref sig .tc .vmem S1x1x5000 .i32) (harg5 : arg5.IsWhole) (arg6 : Memref sig .tc .vmem S1x512x20 .f32) (harg6 : arg6.IsWhole) (arg7 : Memref sig .tc .vmem S1x512x1 .f32) (harg7 : arg7.IsWhole) (hc0 : cond0_0 i)
    (x0 : Vec F S5000x20 .f32) (x1 : Vec F S20x20 .f32) (x2 : Vec F S1x20 .f32) (x3 : Vec F S1x1x5000 .i32) :
    out0_A_5 c i arg2 harg2 arg3 harg3 arg4 harg4 arg5 harg5 arg6 harg6 arg7 harg7 hc0 x0 x1 x2 x3 = k0_pay1 (k0_pay5 x3) (k0_pay3 (F := F)) := by
  unfold out0_A_5
  rw [View.read_writes_eq_canon _ _ _ (cover0_A_5 c i arg2 harg2 arg3 harg3 arg4 harg4 arg5 harg5 arg6 harg6 arg7 harg7 hc0 x0 x1 x2 x3)]
  unfold kernelRun0_A
  dsimp only
  sl_unfold_words
  rw [View.canon_cons_unit_zero (S := S1x512x1) hz3, View.readCov_unit_zero (S := S1x512x1) _ hz3]
  simp only [View.readAt_eq_ld, harg5.read_unread,
    View.ld_unit_zero (S := S1x1x5000) hz3, View.ld_unit_zero (S := S1x512x1) hz3]

/-- Any other tile leaves, in the sums block, its products added to what the block held. -/
theorem out0_B_4_eq (c : Dev nD) (i : grid0.Coords) (arg2 : Memref sig .tc .vmem S5000x20 .f32) (harg2 : arg2.IsWhole) (arg3 : Memref sig .tc .vmem S20x20 .f32) (harg3 : arg3.IsWhole) (arg4 : Memref sig .tc .vmem S1x20 .f32) (harg4 : arg4.IsWhole) (arg5 : Memref sig .tc .vmem S1x1x5000 .i32) (harg5 : arg5.IsWhole) (arg6 : Memref sig .tc .vmem S1x512x20 .f32) (harg6 : arg6.IsWhole) (arg7 : Memref sig .tc .vmem S1x512x1 .f32) (harg7 : arg7.IsWhole) (hc0 : ¬cond0_0 i)
    (x0 : Vec F S5000x20 .f32) (x1 : Vec F S20x20 .f32) (x2 : Vec F S1x20 .f32) (x3 : Vec F S1x1x5000 .i32)
    (xo4 : Vec F S1x512x20 .f32) (xo5 : Vec F S1x512x1 .f32) :
    out0_B_4 c i arg2 harg2 arg3 harg3 arg4 harg4 arg5 harg5 arg6 harg6 arg7 harg7 hc0 x0 x1 x2 x3 xo4 xo5 = k0_pay6 x0 x1 x2 x3 xo4 := by
  -- one store covers the block; its payload read every input block and the running sums whole
  unfold out0_B_4
  rw [View.read_writes_eq_canon _ _ _ (cover0_B_4 c i arg2 harg2 arg3 harg3 arg4 harg4 arg5 harg5 arg6 harg6 arg7 harg7 hc0 x0 x1 x2 x3 xo4 xo5)]
  unfold kernelRun0_B
  dsimp only
  sl_unfold_words
  rw [View.canon_unit_zero hz3]
  simp only [View.readAt_eq_ld, harg2.read_unread, harg3.read_unread, harg4.read_unread, harg5.read_unread, harg6.read_unread,
    View.ld_unit_zero (S := S5000x20) hz2, View.ld_unit_zero (S := S20x20) hz2, View.ld_unit_zero (S := S1x20) hz2,
    View.ld_unit_zero (S := S1x1x5000) hz3, View.ld_unit_zero (S := S1x512x20) hz3]

/-- Any other tile leaves, in the counts block, its counts added to what the block held. -/
theorem out0_B_5_eq (c : Dev nD) (i : grid0.Coords) (arg2 : Memref sig .tc .vmem S5000x20 .f32) (harg2 : arg2.IsWhole) (arg3 : Memref sig .tc .vmem S20x20 .f32) (harg3 : arg3.IsWhole) (arg4 : Memref sig .tc .vmem S1x20 .f32) (harg4 : arg4.IsWhole) (arg5 : Memref sig .tc .vmem S1x1x5000 .i32) (harg5 : arg5.IsWhole) (arg6 : Memref sig .tc .vmem S1x512x20 .f32) (harg6 : arg6.IsWhole) (arg7 : Memref sig .tc .vmem S1x512x1 .f32) (harg7 : arg7.IsWhole) (hc0 : ¬cond0_0 i)
    (x0 : Vec F S5000x20 .f32) (x1 : Vec F S20x20 .f32) (x2 : Vec F S1x20 .f32) (x3 : Vec F S1x1x5000 .i32)
    (xo4 : Vec F S1x512x20 .f32) (xo5 : Vec F S1x512x1 .f32) :
    out0_B_5 c i arg2 harg2 arg3 harg3 arg4 harg4 arg5 harg5 arg6 harg6 arg7 harg7 hc0 x0 x1 x2 x3 xo4 xo5 = k0_pay1 (k0_pay5 x3) xo5 := by
  unfold out0_B_5
  rw [View.read_writes_eq_canon _ _ _ (cover0_B_5 c i arg2 harg2 arg3 harg3 arg4 harg4 arg5 harg5 arg6 harg6 arg7 harg7 hc0 x0 x1 x2 x3 xo4 xo5)]
  unfold kernelRun0_B
  dsimp only
  sl_unfold_words
  rw [View.canon_unit_zero hz3]
  simp only [View.readAt_eq_ld, harg5.read_unread, harg7.read_unread,
    View.ld_unit_zero (S := S1x1x5000) hz3, View.ld_unit_zero (S := S1x512x1) hz3]

end Pieces

/-! ## The stored values at an index, over the extended reals -/

namespace R0Pay

/-- The comparison of two words, widened and read as a signed integer, is 1 when they agree and 0 otherwise. -/
theorem oneHot_word (a w : BitVec 32) :
    FloatOps.sitofp (F := Ideal) .f32 ((IntOp.cmpi .eq a w).setWidth 32) = (if a = w then 1 else 0 : EReal) := by
  show ((((IntOp.cmpi .eq a w).setWidth 32).toInt : ℝ) : EReal) = _
  by_cases h : a = w
  · rw [if_pos h, show IntOp.cmpi .eq a w = 1#1 from by simp [IntOp.cmpi, h]]
    simp
  · have hb : (a == w) = false := beq_eq_false_iff_ne.mpr h
    rw [if_neg h, show IntOp.cmpi .eq a w = 0#1 from by simp [IntOp.cmpi, hb]]
    simp

/-! ### The three products at an index

Each contracts one axis: the left operand's columns against the right operand's rows.  The contraction index is
its one coordinate, so the sum over it is a sum over that coordinate, and the operand indices are (row, k) and (k, column). -/

theorem lhs_lin_0 (i : S5000x20.Idx) (q : dot_S5000x20_S20x20_S5000x20_1_0_0_1_n_n.contr.Idx) :
    (dot_S5000x20_S20x20_S5000x20_1_0_0_1_n_n.lhsIdx i q 0).val = (i 0).val := by
  unfold DotDims.lhsIdx
  rw [dif_neg (show ¬(0 : Fin S5000x20.rank) ∈ dot_S5000x20_S20x20_S5000x20_1_0_0_1_n_n.lhsBatch by decide), dif_pos (show (0 : Fin S5000x20.rank) ∈ dot_S5000x20_S20x20_S5000x20_1_0_0_1_n_n.lhsNonContracting by decide)]
  rfl
theorem lhs_lin_1 (i : S5000x20.Idx) (q : dot_S5000x20_S20x20_S5000x20_1_0_0_1_n_n.contr.Idx) :
    (dot_S5000x20_S20x20_S5000x20_1_0_0_1_n_n.lhsIdx i q 1).val = (q ⟨0, by decide⟩).val :=
  dot_S5000x20_S20x20_S5000x20_1_0_0_1_n_n.lhsIdx_val_of_single rfl i q
theorem rhs_lin_0 (i : S5000x20.Idx) (q : dot_S5000x20_S20x20_S5000x20_1_0_0_1_n_n.contr.Idx) :
    (dot_S5000x20_S20x20_S5000x20_1_0_0_1_n_n.rhsIdx i q 0).val = (q ⟨0, by decide⟩).val :=
  dot_S5000x20_S20x20_S5000x20_1_0_0_1_n_n.rhsIdx_val_of_single rfl i q
theorem rhs_lin_1 (i : S5000x20.Idx) (q : dot_S5000x20_S20x20_S5000x20_1_0_0_1_n_n.contr.Idx) :
    (dot_S5000x20_S20x20_S5000x20_1_0_0_1_n_n.rhsIdx i q 1).val = (i 1).val := by
  unfold DotDims.rhsIdx
  rw [dif_neg (show ¬(1 : Fin S20x20.rank) ∈ dot_S5000x20_S20x20_S5000x20_1_0_0_1_n_n.rhsBatch by decide), dif_pos (show (1 : Fin S20x20.rank) ∈ dot_S5000x20_S20x20_S5000x20_1_0_0_1_n_n.rhsNonContracting by decide)]
  rfl

/-- A tile's rows times the weight matrix: entry (r, j) sums the row's twenty features against column j. -/
theorem mm_lin_apply (A : FVec Ideal S5000x20 .bf16) (B : FVec Ideal S20x20 .bf16) (p : Fin 5000) (q : Fin 20) :
    matmul dot_S5000x20_S20x20_S5000x20_1_0_0_1_n_n none A B (constant (F := Ideal) S5000x20 .f32 0x00000000#32) (ix2 p q)
      = ∑ k : Fin 20, A (ix2 p k) * B (ix2 k q) := by
  simp only [matmul]
  rw [Ideal.matmul_constant_zero_apply, ← Equiv.sum_comp (contrEquiv1 dot_S5000x20_S20x20_S5000x20_1_0_0_1_n_n 20 rfl rfl).symm]
  refine Finset.sum_congr rfl fun k _ => ?_
  have hk := contrEquiv1_symm_val dot_S5000x20_S20x20_S5000x20_1_0_0_1_n_n 20 rfl rfl k
  have el : dot_S5000x20_S20x20_S5000x20_1_0_0_1_n_n.lhsIdx (ix2 p q) ((contrEquiv1 dot_S5000x20_S20x20_S5000x20_1_0_0_1_n_n 20 rfl rfl).symm k) = ix2 p k := funext fun a => Fin.ext (by
    match a with
    | ⟨0, _⟩ => exact lhs_lin_0 _ _
    | ⟨1, _⟩ => exact (lhs_lin_1 _ _).trans hk)
  have er : dot_S5000x20_S20x20_S5000x20_1_0_0_1_n_n.rhsIdx (ix2 p q) ((contrEquiv1 dot_S5000x20_S20x20_S5000x20_1_0_0_1_n_n 20 rfl rfl).symm k) = ix2 k q := funext fun a => Fin.ext (by
    match a with
    | ⟨0, _⟩ => exact (rhs_lin_0 _ _).trans hk
    | ⟨1, _⟩ => exact rhs_lin_1 _ _)
  rw [el, er]

theorem lhs_pool_0 (i : S512x20.Idx) (q : dot_S512x5000_S5000x20_S512x20_1_0_0_1_n_n.contr.Idx) :
    (dot_S512x5000_S5000x20_S512x20_1_0_0_1_n_n.lhsIdx i q 0).val = (i 0).val := by
  unfold DotDims.lhsIdx
  rw [dif_neg (show ¬(0 : Fin S512x5000.rank) ∈ dot_S512x5000_S5000x20_S512x20_1_0_0_1_n_n.lhsBatch by decide), dif_pos (show (0 : Fin S512x5000.rank) ∈ dot_S512x5000_S5000x20_S512x20_1_0_0_1_n_n.lhsNonContracting by decide)]
  rfl
theorem lhs_pool_1 (i : S512x20.Idx) (q : dot_S512x5000_S5000x20_S512x20_1_0_0_1_n_n.contr.Idx) :
    (dot_S512x5000_S5000x20_S512x20_1_0_0_1_n_n.lhsIdx i q 1).val = (q ⟨0, by decide⟩).val :=
  dot_S512x5000_S5000x20_S512x20_1_0_0_1_n_n.lhsIdx_val_of_single rfl i q
theorem rhs_pool_0 (i : S512x20.Idx) (q : dot_S512x5000_S5000x20_S512x20_1_0_0_1_n_n.contr.Idx) :
    (dot_S512x5000_S5000x20_S512x20_1_0_0_1_n_n.rhsIdx i q 0).val = (q ⟨0, by decide⟩).val :=
  dot_S512x5000_S5000x20_S512x20_1_0_0_1_n_n.rhsIdx_val_of_single rfl i q
theorem rhs_pool_1 (i : S512x20.Idx) (q : dot_S512x5000_S5000x20_S512x20_1_0_0_1_n_n.contr.Idx) :
    (dot_S512x5000_S5000x20_S512x20_1_0_0_1_n_n.rhsIdx i q 1).val = (i 1).val := by
  unfold DotDims.rhsIdx
  rw [dif_neg (show ¬(1 : Fin S5000x20.rank) ∈ dot_S512x5000_S5000x20_S512x20_1_0_0_1_n_n.rhsBatch by decide), dif_pos (show (1 : Fin S5000x20.rank) ∈ dot_S512x5000_S5000x20_S512x20_1_0_0_1_n_n.rhsNonContracting by decide)]
  rfl

/-- The one-hot matrix times the tile's hidden rows: entry (g, j) sums over the tile's 5000 rows. -/
theorem mm_pool_apply (A : FVec Ideal S512x5000 .bf16) (B : FVec Ideal S5000x20 .bf16) (p : Fin 512) (q : Fin 20) :
    matmul dot_S512x5000_S5000x20_S512x20_1_0_0_1_n_n none A B (constant (F := Ideal) S512x20 .f32 0x00000000#32) (ix2 p q)
      = ∑ k : Fin 5000, A (ix2 p k) * B (ix2 k q) := by
  simp only [matmul]
  rw [Ideal.matmul_constant_zero_apply, ← Equiv.sum_comp (contrEquiv1 dot_S512x5000_S5000x20_S512x20_1_0_0_1_n_n 5000 rfl rfl).symm]
  refine Finset.sum_congr rfl fun k _ => ?_
  have hk := contrEquiv1_symm_val dot_S512x5000_S5000x20_S512x20_1_0_0_1_n_n 5000 rfl rfl k
  have el : dot_S512x5000_S5000x20_S512x20_1_0_0_1_n_n.lhsIdx (ix2 p q) ((contrEquiv1 dot_S512x5000_S5000x20_S512x20_1_0_0_1_n_n 5000 rfl rfl).symm k) = ix2 p k := funext fun a => Fin.ext (by
    match a with
    | ⟨0, _⟩ => exact lhs_pool_0 _ _
    | ⟨1, _⟩ => exact (lhs_pool_1 _ _).trans hk)
  have er : dot_S512x5000_S5000x20_S512x20_1_0_0_1_n_n.rhsIdx (ix2 p q) ((contrEquiv1 dot_S512x5000_S5000x20_S512x20_1_0_0_1_n_n 5000 rfl rfl).symm k) = ix2 k q := funext fun a => Fin.ext (by
    match a with
    | ⟨0, _⟩ => exact (rhs_pool_0 _ _).trans hk
    | ⟨1, _⟩ => exact rhs_pool_1 _ _)
  rw [el, er]

theorem lhs_cnt_0 (i : S512x1.Idx) (q : dot_S512x5000_S5000x1_S512x1_1_0_0_1_n_n.contr.Idx) :
    (dot_S512x5000_S5000x1_S512x1_1_0_0_1_n_n.lhsIdx i q 0).val = (i 0).val := by
  unfold DotDims.lhsIdx
  rw [dif_neg (show ¬(0 : Fin S512x5000.rank) ∈ dot_S512x5000_S5000x1_S512x1_1_0_0_1_n_n.lhsBatch by decide), dif_pos (show (0 : Fin S512x5000.rank) ∈ dot_S512x5000_S5000x1_S512x1_1_0_0_1_n_n.lhsNonContracting by decide)]
  rfl
theorem lhs_cnt_1 (i : S512x1.Idx) (q : dot_S512x5000_S5000x1_S512x1_1_0_0_1_n_n.contr.Idx) :
    (dot_S512x5000_S5000x1_S512x1_1_0_0_1_n_n.lhsIdx i q 1).val = (q ⟨0, by decide⟩).val :=
  dot_S512x5000_S5000x1_S512x1_1_0_0_1_n_n.lhsIdx_val_of_single rfl i q
theorem rhs_cnt_0 (i : S512x1.Idx) (q : dot_S512x5000_S5000x1_S512x1_1_0_0_1_n_n.contr.Idx) :
    (dot_S512x5000_S5000x1_S512x1_1_0_0_1_n_n.rhsIdx i q 0).val = (q ⟨0, by decide⟩).val :=
  dot_S512x5000_S5000x1_S512x1_1_0_0_1_n_n.rhsIdx_val_of_single rfl i q
theorem rhs_cnt_1 (i : S512x1.Idx) (q : dot_S512x5000_S5000x1_S512x1_1_0_0_1_n_n.contr.Idx) :
    (dot_S512x5000_S5000x1_S512x1_1_0_0_1_n_n.rhsIdx i q 1).val = (i 1).val := by
  unfold DotDims.rhsIdx
  rw [dif_neg (show ¬(1 : Fin S5000x1.rank) ∈ dot_S512x5000_S5000x1_S512x1_1_0_0_1_n_n.rhsBatch by decide), dif_pos (show (1 : Fin S5000x1.rank) ∈ dot_S512x5000_S5000x1_S512x1_1_0_0_1_n_n.rhsNonContracting by decide)]
  rfl

/-- The one-hot matrix times a column: entry (g, 0) sums over the tile's 5000 rows. -/
theorem mm_cnt_apply (A : FVec Ideal S512x5000 .bf16) (B : FVec Ideal S5000x1 .bf16) (p : Fin 512) (q : Fin 1) :
    matmul dot_S512x5000_S5000x1_S512x1_1_0_0_1_n_n none A B (constant (F := Ideal) S512x1 .f32 0x00000000#32) (ix2 p q)
      = ∑ k : Fin 5000, A (ix2 p k) * B (ix2 k q) := by
  simp only [matmul]
  rw [Ideal.matmul_constant_zero_apply, ← Equiv.sum_comp (contrEquiv1 dot_S512x5000_S5000x1_S512x1_1_0_0_1_n_n 5000 rfl rfl).symm]
  refine Finset.sum_congr rfl fun k _ => ?_
  have hk := contrEquiv1_symm_val dot_S512x5000_S5000x1_S512x1_1_0_0_1_n_n 5000 rfl rfl k
  have el : dot_S512x5000_S5000x1_S512x1_1_0_0_1_n_n.lhsIdx (ix2 p q) ((contrEquiv1 dot_S512x5000_S5000x1_S512x1_1_0_0_1_n_n 5000 rfl rfl).symm k) = ix2 p k := funext fun a => Fin.ext (by
    match a with
    | ⟨0, _⟩ => exact lhs_cnt_0 _ _
    | ⟨1, _⟩ => exact (lhs_cnt_1 _ _).trans hk)
  have er : dot_S512x5000_S5000x1_S512x1_1_0_0_1_n_n.rhsIdx (ix2 p q) ((contrEquiv1 dot_S512x5000_S5000x1_S512x1_1_0_0_1_n_n 5000 rfl rfl).symm k) = ix2 k q := funext fun a => Fin.ext (by
    match a with
    | ⟨0, _⟩ => exact (rhs_cnt_0 _ _).trans hk
    | ⟨1, _⟩ => exact rhs_cnt_1 _ _)
  rw [el, er]

/-- The one-hot matrix of a tile: entry (g, r) compares graph g with row r's graph-id word. -/
theorem pay4_apply (x3 : S1x1x5000.Idx → BitVec 32) (g : Fin 512) (r : Fin 5000) :
    k0_pay4 (F := Ideal) x3 (ix2 g r) = Gcn.oneHot g (x3 (ix3 (0 : Fin 1) (0 : Fin 1) r)) := by
  unfold k0_pay4
  -- the conversions act entry by entry; the row index runs down axis 0, the graph-id row is repeated along it
  show FloatOps.sitofp (F := Ideal) .f32
      ((IntOp.cmpi .eq (iota .tc S512x5000 32 [0] iota_S512x5000_d0_w32 (ix2 g r))
        (broadcastTo S512x5000 (shapeCast S1x5000 x3 shapeCasts_S1x1x5000_S1x5000) broadcasts_S1x5000_S512x5000 (ix2 g r))).setWidth 32) = _
  rw [iota_single_apply, broadcastTo_1b_ab_apply, shapeCast_1ab_ab_apply]
  exact oneHot_word _ _

end R0Pay

open R0Pay

/-- The zero block of sums. -/
theorem pay2_apply (y : S1x512x20.Idx) : k0_pay2 (F := Ideal) y = (0 : EReal) := by
  show Ideal.ofBits .f32 0x00000000#32 = 0
  exact Ideal.ofBits_zero_f32
/-- The zero block of counts. -/
theorem pay3_apply (y : S1x512x1.Idx) : k0_pay3 (F := Ideal) y = (0 : EReal) := by
  show Ideal.ofBits .f32 0x00000000#32 = 0
  exact Ideal.ofBits_zero_f32

/-- The sums block after a tile: what it held plus, over the tile's rows, the one-hot entry times the hidden row. -/
theorem pay6_apply (x0 : S5000x20.Idx → EReal) (x1 : S20x20.Idx → EReal) (x2 : S1x20.Idx → EReal) (x3 : S1x1x5000.Idx → BitVec 32)
    (acc : S1x512x20.Idx → EReal) (g : Fin 512) (j : Fin 20) :
    k0_pay6 (F := Ideal) x0 x1 x2 x3 acc (ix3 (0 : Fin 1) g j)
      = acc (ix3 (0 : Fin 1) g j)
        + ∑ r : Fin 5000, Gcn.oneHot g (x3 (ix3 (0 : Fin 1) (0 : Fin 1) r))
            * max ((∑ k : Fin 20, x0 (ix2 r k) * x1 (ix2 k j)) + x2 (ix2 (0 : Fin 1) j)) 0 := by
  unfold k0_pay6
  -- the leading unit axis comes off and goes back on; the block is the old block plus the pooling product
  refine (shapeCast_ab_1ab_apply _ _ (0 : Fin 1) g j).trans ?_
  refine (addf_apply _ _ _).trans ?_
  refine congrArg₂ (· + ·) (shapeCast_1ab_ab_apply _ _ g j) ((mm_pool_apply _ _ g j).trans ?_)
  refine Finset.sum_congr rfl fun r _ => ?_
  refine congrArg₂ (· * ·) (pay4_apply x3 g r) ?_
  -- the hidden row: narrowing changes nothing over the extended reals; the ReLU is a maximum with zero
  refine (truncf_apply (φ := .f32) (ψ := .bf16) _ bitsLt_bf16_f32 (ix2 r j)).trans ?_
  refine (maximumf_apply _ _ _).trans ?_
  refine congrArg₂ max ((addf_apply _ _ _).trans ?_) Ideal.ofBits_zero_f32
  refine congrArg₂ (· + ·) ((mm_lin_apply _ _ r j).trans ?_) ((broadcastTo_1b_ab_apply _ _ r j).trans ?_)
  · refine Finset.sum_congr rfl fun k _ => ?_
    show shapeCast S5000x20 x0 shapeCasts_S5000x20_S5000x20 (ix2 r k) * x1 (ix2 k j) = _
    rw [shapeCast_self]
  · rw [shapeCast_self]

/-- The counts block after a tile: what it held plus the tile's one-hot entries. -/
theorem pay1_apply_cnt (x3 : S1x1x5000.Idx → BitVec 32) (acc : S1x512x1.Idx → EReal) (g : Fin 512) :
    k0_pay1 (F := Ideal) (k0_pay5 (F := Ideal) x3) acc (ix3 (0 : Fin 1) g (0 : Fin 1))
      = acc (ix3 (0 : Fin 1) g (0 : Fin 1)) + ∑ r : Fin 5000, Gcn.oneHot g (x3 (ix3 (0 : Fin 1) (0 : Fin 1) r)) * 1 := by
  unfold k0_pay1 k0_pay5
  -- the counting product multiplies the one-hot matrix by a column of ones
  refine (shapeCast_ab_1ab_apply _ _ (0 : Fin 1) g (0 : Fin 1)).trans ?_
  refine (addf_apply _ _ _).trans ?_
  refine congrArg₂ (· + ·) (shapeCast_1ab_ab_apply _ _ g (0 : Fin 1)) ((mm_cnt_apply _ _ g (0 : Fin 1)).trans ?_)
  refine Finset.sum_congr rfl fun r _ => ?_
  exact congrArg₂ (· * ·) (pay4_apply x3 g r) Ideal.ofBits_one_bf16

end Cert.KernelIdeal.KV

end
-- ==== Proof.KRegion0.lean ====
/-
  What the pooling launch leaves in its two result arrays: slab by slab, the one-hot products of the slab's twenty
  tiles accumulated in the resident output block.

  A point of the launch is a tile of 5000 nodes; twenty consecutive tiles make a slab.  At a slab's first tile the
  resident blocks are reset and receive the tile's product and count; at each later tile they receive the tile's
  product and count added to what they held.  So after tile `s` of a slab the blocks hold the sum of the products of
  tiles `0 … s` of that slab (by induction on the point), and the block written back after the slab's last tile is the
  slab's whole sum.  The two write-backs (one per slab) cover the result arrays.
-/
import proofs.«417613_j4277787427600_3_alg».proof.Proof.Gen.KernelIdeal.Frame
import proofs.«417613_j4277787427600_3_alg».proof.Proof.Spec
import proofs.«417613_j4277787427600_3_alg».proof.Proof.KR0Pay
import Idealize.ShloMosaic.Lib.Pipeline.Value

noncomputable section

open scoped BigOperators

namespace Cert.KernelIdeal.KV

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

namespace Pool

/-- The arrays the pooling launch reads, at their literal types. -/
abbrev aggArr (c : Dev nD) : S200000x20.Idx → EReal := V c main_v37
abbrev wArr (c : Dev nD) : S20x20.Idx → EReal := V c main_arg3
abbrev bArr (c : Dev nD) : S1x20.Idx → EReal := V c main_v38
abbrev btArr (c : Dev nD) : S40x1x5000.Idx → BitVec 32 := V c main_v39

/-- The blocks of the four input windows at a point, at their literal types. -/
abbrev blkAgg (c : Dev nD) (t : Fin cfg0.N) : S5000x20.Idx → EReal := iblk0 V c 0 t
abbrev blkW (c : Dev nD) (t : Fin cfg0.N) : S20x20.Idx → EReal := iblk0 V c 1 t
abbrev blkB (c : Dev nD) (t : Fin cfg0.N) : S1x20.Idx → EReal := iblk0 V c 2 t
abbrev blkBt (c : Dev nD) (t : Fin cfg0.N) : S1x1x5000.Idx → BitVec 32 := iblk0 V c 3 t

/-- The windows' block indices at a point: the node rows and the graph ids move with the tile, the weights and the
    bias stay, the two outputs move with the slab. -/
theorem idx_facts : ∀ t : Fin cfg0.N, win0_0.index t 0 = t.val ∧ win0_0.index t 1 = 0
    ∧ win0_1.index t 0 = 0 ∧ win0_1.index t 1 = 0 ∧ win0_2.index t 0 = 0 ∧ win0_2.index t 1 = 0
    ∧ win0_3.index t 0 = t.val ∧ win0_3.index t 1 = 0 ∧ win0_3.index t 2 = 0
    ∧ win0_4.index t 0 = t.val / 20 ∧ win0_4.index t 1 = 0 ∧ win0_4.index t 2 = 0
    ∧ win0_5.index t 0 = t.val / 20 ∧ win0_5.index t 1 = 0 ∧ win0_5.index t 2 = 0 :=
  (by decide +kernel : ∀ t : Fin grid0.N, _)

/-- Row `r` of the tile's block of aggregated rows is row `5000 t + r` of the array. -/
theorem blkAgg_apply (c : Dev nD) (t : Fin cfg0.N) (r : Fin 5000) (k : Fin 20) (n : Fin 200000)
    (hn : n.val = 5000 * t.val + r.val) :
    blkAgg V c t (ix2 r k) = aggArr V c (ix2 n k) := by
  obtain ⟨e0, e1, -⟩ := idx_facts t
  unfold blkAgg iblk0
  rw [View.read_apply]
  show V c main_v37 _ = V c main_v37 _
  congr 1
  funext a
  apply Fin.ext
  match a with
  | ⟨0, _⟩ => show win0_0.index t 0 * 5000 + 1 * r.val = n.val; rw [e0, hn]; omega
  | ⟨1, _⟩ => show win0_0.index t 1 * 20 + 1 * k.val = k.val; rw [e1]; omega

/-- Entry `r` of the tile's block of graph ids is entry `(t, 0, r)` of the array. -/
theorem blkBt_apply (c : Dev nD) (t : Fin cfg0.N) (r : Fin 5000) (t' : Fin 40) (ht : t'.val = t.val) :
    blkBt V c t (ix3 (0 : Fin 1) (0 : Fin 1) r) = btArr V c (ix3 t' (0 : Fin 1) r) := by
  obtain ⟨-, -, -, -, -, -, e0, e1, e2, -⟩ := idx_facts t
  unfold blkBt iblk0
  rw [View.read_apply]
  show V c main_v39 _ = V c main_v39 _
  congr 1
  funext a
  apply Fin.ext
  match a with
  | ⟨0, _⟩ => show win0_3.index t 0 * 1 + 1 * 0 = t'.val; rw [e0, ht]; omega
  | ⟨1, _⟩ => show win0_3.index t 1 * 1 + 1 * 0 = 0; rw [e1]
  | ⟨2, _⟩ => show win0_3.index t 2 * 5000 + 1 * r.val = r.val; rw [e2]; omega

/-- The weights' block is the whole weight matrix at every point. -/
theorem blkW_apply (c : Dev nD) (t : Fin cfg0.N) (k j : Fin 20) :
    blkW V c t (ix2 k j) = wArr V c (ix2 k j) := by
  obtain ⟨-, -, e0, e1, -⟩ := idx_facts t
  unfold blkW iblk0
  rw [View.read_apply]
  show V c main_arg3 _ = V c main_arg3 _
  congr 1
  funext a
  apply Fin.ext
  match a with
  | ⟨0, _⟩ => show win0_1.index t 0 * 20 + 1 * k.val = k.val; rw [e0]; omega
  | ⟨1, _⟩ => show win0_1.index t 1 * 20 + 1 * j.val = j.val; rw [e1]; omega

/-- The bias block is the whole bias row at every point. -/
theorem blkB_apply (c : Dev nD) (t : Fin cfg0.N) (j : Fin 20) :
    blkB V c t (ix2 (0 : Fin 1) j) = bArr V c (ix2 (0 : Fin 1) j) := by
  obtain ⟨-, -, -, -, e0, e1, -⟩ := idx_facts t
  unfold blkB iblk0
  rw [View.read_apply]
  show V c main_v38 _ = V c main_v38 _
  congr 1
  funext a
  apply Fin.ext
  match a with
  | ⟨0, _⟩ => show win0_2.index t 0 * 1 + 1 * 0 = 0; rw [e0]
  | ⟨1, _⟩ => show win0_2.index t 1 * 20 + 1 * j.val = j.val; rw [e1]; omega

/-! ## One tile's contribution -/

section Step
variable (agg : Fin 200000 → Fin 20 → EReal) (W : Fin 20 → Fin 20 → EReal) (b : Fin 20 → EReal) (bt : Fin 40 → Fin 5000 → BitVec 32)

/-- Tile `t`'s one-hot product at graph `g`, feature `j`. -/
def tileSum (t : Fin 40) (g : Fin 512) (j : Fin 20) : EReal :=
  ∑ r : Fin 5000, Gcn.oneHot g (bt t r) * Gcn.hidOf W b agg (Gcn.nodeAt t r) j
/-- Tile `t`'s node count at graph `g`. -/
def tileCnt (t : Fin 40) (g : Fin 512) : EReal := ∑ r : Fin 5000, Gcn.oneHot g (bt t r) * 1

/-- The product at a natural number (zero past the last tile). -/
def tileSumN (n : ℕ) (g : Fin 512) (j : Fin 20) : EReal := if h : n < 40 then tileSum agg W b bt ⟨n, h⟩ g j else 0
/-- The count at a natural number (zero past the last tile). -/
def tileCntN (n : ℕ) (g : Fin 512) : EReal := if h : n < 40 then tileCnt bt ⟨n, h⟩ g else 0

/-- The sums block after a tile whose blocks are the tile's rows: what it held plus the tile's product. -/
theorem pay6_tile (x0 : S5000x20.Idx → EReal) (x1 : S20x20.Idx → EReal) (x2 : S1x20.Idx → EReal) (x3 : S1x1x5000.Idx → BitVec 32)
    (acc : S1x512x20.Idx → EReal) (t : Fin 40) (g : Fin 512) (j : Fin 20)
    (h0 : ∀ r k, x0 (ix2 r k) = agg (Gcn.nodeAt t r) k) (h1 : ∀ k j, x1 (ix2 k j) = W k j)
    (h2 : ∀ j, x2 (ix2 (0 : Fin 1) j) = b j) (h3 : ∀ r, x3 (ix3 (0 : Fin 1) (0 : Fin 1) r) = bt t r) :
    k0_pay6 (F := Ideal) x0 x1 x2 x3 acc (ix3 (0 : Fin 1) g j) = acc (ix3 (0 : Fin 1) g j) + tileSum agg W b bt t g j := by
  rw [pay6_apply]
  unfold tileSum Gcn.hidOf
  simp only [h0, h1, h2, h3]

/-- The counts block after a tile: what it held plus the tile's count. -/
theorem pay1_tile (x3 : S1x1x5000.Idx → BitVec 32) (acc : S1x512x1.Idx → EReal) (t : Fin 40) (g : Fin 512)
    (h3 : ∀ r, x3 (ix3 (0 : Fin 1) (0 : Fin 1) r) = bt t r) :
    k0_pay1 (F := Ideal) (k0_pay5 (F := Ideal) x3) acc (ix3 (0 : Fin 1) g (0 : Fin 1))
      = acc (ix3 (0 : Fin 1) g (0 : Fin 1)) + tileCnt bt t g := by
  rw [pay1_apply_cnt]
  unfold tileCnt
  simp only [h3]

end Step

/-! ## The arrays by coordinates -/

abbrev aggF (c : Dev nD) : Fin 200000 → Fin 20 → EReal := Gcn.X2 (V c main_v37 : S200000x20.Idx → EReal)
abbrev wF (c : Dev nD) : Fin 20 → Fin 20 → EReal := Gcn.X2 (V c main_arg3 : S20x20.Idx → EReal)
abbrev bF (c : Dev nD) : Fin 20 → EReal := fun j => (V c main_v38 : S1x20.Idx → EReal) (ix2 (0 : Fin 1) j)
abbrev btF (c : Dev nD) : Fin 40 → Fin 5000 → BitVec 32 := fun t r => (V c main_v39 : S40x1x5000.Idx → BitVec 32) (ix3 t (0 : Fin 1) r)

/-- A point of the launch as a tile. -/
abbrev tileOf (t : Fin cfg0.N) : Fin 40 := ⟨t.val, lt_of_lt_of_eq t.isLt (show cfg0.N = 40 from N_0)⟩

/-! ## One point of the launch -/

/-- A slab's first tile leaves its own product. -/
theorem first_4 (c : Dev nD) (t : Fin cfg0.N) (h0 : t.val % 20 = 0) (g : Fin 512) (j : Fin 20) :
    ((outsAt0 V c t.val t.isLt).1 : S1x512x20.Idx → EReal) (ix3 (0 : Fin 1) g j)
      = tileSum (aggF V c) (wF V c) (bF V c) (btF V c) (tileOf t) g j := by
  rw [outsAt0_A V c t h0]
  dsimp only
  refine (congrFun (out0_A_4_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (blkAgg V c t) (blkW V c t) (blkB V c t) (blkBt V c t)) (ix3 (0 : Fin 1) g j)).trans ?_
  refine (pay6_tile (aggF V c) (wF V c) (bF V c) (btF V c) (blkAgg V c t) (blkW V c t) (blkB V c t) (blkBt V c t) (k0_pay2 (F := Ideal)) (tileOf t) g j
    (fun r k => blkAgg_apply V c t r k (Gcn.nodeAt (tileOf t) r) rfl) (fun k j => blkW_apply V c t k j) (fun j => blkB_apply V c t j)
    (fun r => blkBt_apply V c t r (tileOf t) rfl)).trans ?_
  rw [pay2_apply, zero_add]

/-- A slab's first tile leaves its own count. -/
theorem first_5 (c : Dev nD) (t : Fin cfg0.N) (h0 : t.val % 20 = 0) (g : Fin 512) :
    ((outsAt0 V c t.val t.isLt).2 : S1x512x1.Idx → EReal) (ix3 (0 : Fin 1) g (0 : Fin 1))
      = tileCnt (btF V c) (tileOf t) g := by
  rw [outsAt0_A V c t h0]
  dsimp only
  refine (congrFun (out0_A_5_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (blkAgg V c t) (blkW V c t) (blkB V c t) (blkBt V c t)) (ix3 (0 : Fin 1) g (0 : Fin 1))).trans ?_
  refine (pay1_tile (btF V c) (blkBt V c t) (k0_pay3 (F := Ideal)) (tileOf t) g
    (fun r => blkBt_apply V c t r (tileOf t) rfl)).trans ?_
  rw [pay3_apply, zero_add]

/-- Any other tile adds its product to what the tile before left. -/
theorem next_4 (c : Dev nD) (t : Fin cfg0.N) (h0 : ¬t.val % 20 = 0) (g : Fin 512) (j : Fin 20) :
    ((outsAt0 V c t.val t.isLt).1 : S1x512x20.Idx → EReal) (ix3 (0 : Fin 1) g j)
      = ((outsAt0 V c (t.val - 1) (Nat.lt_of_le_of_lt (Nat.sub_le _ _) t.isLt)).1 : S1x512x20.Idx → EReal) (ix3 (0 : Fin 1) g j)
        + tileSum (aggF V c) (wF V c) (bF V c) (btF V c) (tileOf t) g j := by
  rw [outsAt0_B V c t h0]
  dsimp only
  refine (congrFun (out0_B_4_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (blkAgg V c t) (blkW V c t) (blkB V c t) (blkBt V c t) (outsAt0 V c (t.val - 1) (Nat.lt_of_le_of_lt (Nat.sub_le _ _) t.isLt)).1 (outsAt0 V c (t.val - 1) (Nat.lt_of_le_of_lt (Nat.sub_le _ _) t.isLt)).2) (ix3 (0 : Fin 1) g j)).trans ?_
  exact pay6_tile (aggF V c) (wF V c) (bF V c) (btF V c) (blkAgg V c t) (blkW V c t) (blkB V c t) (blkBt V c t) (outsAt0 V c (t.val - 1) (Nat.lt_of_le_of_lt (Nat.sub_le _ _) t.isLt)).1 (tileOf t) g j
    (fun r k => blkAgg_apply V c t r k (Gcn.nodeAt (tileOf t) r) rfl) (fun k j => blkW_apply V c t k j) (fun j => blkB_apply V c t j)
    (fun r => blkBt_apply V c t r (tileOf t) rfl)

/-- Any other tile adds its count to what the tile before left. -/
theorem next_5 (c : Dev nD) (t : Fin cfg0.N) (h0 : ¬t.val % 20 = 0) (g : Fin 512) :
    ((outsAt0 V c t.val t.isLt).2 : S1x512x1.Idx → EReal) (ix3 (0 : Fin 1) g (0 : Fin 1))
      = ((outsAt0 V c (t.val - 1) (Nat.lt_of_le_of_lt (Nat.sub_le _ _) t.isLt)).2 : S1x512x1.Idx → EReal) (ix3 (0 : Fin 1) g (0 : Fin 1))
        + tileCnt (btF V c) (tileOf t) g := by
  rw [outsAt0_B V c t h0]
  dsimp only
  refine (congrFun (out0_B_5_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (blkAgg V c t) (blkW V c t) (blkB V c t) (blkBt V c t) (outsAt0 V c (t.val - 1) (Nat.lt_of_le_of_lt (Nat.sub_le _ _) t.isLt)).1 (outsAt0 V c (t.val - 1) (Nat.lt_of_le_of_lt (Nat.sub_le _ _) t.isLt)).2) (ix3 (0 : Fin 1) g (0 : Fin 1))).trans ?_
  exact pay1_tile (btF V c) (blkBt V c t) (outsAt0 V c (t.val - 1) (Nat.lt_of_le_of_lt (Nat.sub_le _ _) t.isLt)).2 (tileOf t) g
    (fun r => blkBt_apply V c t r (tileOf t) rfl)

/-! ## The running sums -/

/-- At a point of the launch the product by number is the tile's. -/
theorem tileSumN_of (c : Dev nD) (t : Fin cfg0.N) (g : Fin 512) (j : Fin 20) :
    tileSumN (aggF V c) (wF V c) (bF V c) (btF V c) t.val g j = tileSum (aggF V c) (wF V c) (bF V c) (btF V c) (tileOf t) g j := by
  unfold tileSumN
  rw [dif_pos (tileOf t).isLt]
/-- At a point of the launch the count by number is the tile's. -/
theorem tileCntN_of (c : Dev nD) (t : Fin cfg0.N) (g : Fin 512) :
    tileCntN (btF V c) t.val g = tileCnt (btF V c) (tileOf t) g := by
  unfold tileCntN
  rw [dif_pos (tileOf t).isLt]

/-- After point `n`, tile `n % 20` of slab `n / 20`, the sums block holds the products of the slab's tiles so far. -/
theorem running_4 (c : Dev nD) (g : Fin 512) (j : Fin 20) : ∀ (n : ℕ) (hn : n < cfg0.N),
    ((outsAt0 V c n hn).1 : S1x512x20.Idx → EReal) (ix3 (0 : Fin 1) g j)
      = ∑ u ∈ Finset.range (n % 20 + 1), tileSumN (aggF V c) (wF V c) (bF V c) (btF V c) (20 * (n / 20) + u) g j
  | 0, hn => by
    rw [first_4 V c ⟨0, hn⟩ rfl g j, ← tileSumN_of V c ⟨0, hn⟩ g j]
    simp
  | n + 1, hn => by
    by_cases h0 : (n + 1) % 20 = 0
    · rw [first_4 V c ⟨n + 1, hn⟩ h0 g j, ← tileSumN_of V c ⟨n + 1, hn⟩ g j, h0, Finset.sum_range_one]
      congr 1
      show n + 1 = 20 * ((n + 1) / 20) + 0
      omega
    · rw [next_4 V c ⟨n + 1, hn⟩ h0 g j, ← tileSumN_of V c ⟨n + 1, hn⟩ g j]
      show ((outsAt0 V c n _).1 : S1x512x20.Idx → EReal) (ix3 (0 : Fin 1) g j) + _ = _
      rw [running_4 c g j n (Nat.lt_of_succ_lt hn)]
      have e1 : (n + 1) % 20 = n % 20 + 1 := by omega
      have e2 : (n + 1) / 20 = n / 20 := by omega
      rw [e1, e2, Finset.sum_range_succ (n := n % 20 + 1)]
      congr 2
      show n + 1 = 20 * (n / 20) + (n % 20 + 1)
      omega

/-- After point `n` the counts block holds the counts of the slab's tiles so far. -/
theorem running_5 (c : Dev nD) (g : Fin 512) : ∀ (n : ℕ) (hn : n < cfg0.N),
    ((outsAt0 V c n hn).2 : S1x512x1.Idx → EReal) (ix3 (0 : Fin 1) g (0 : Fin 1))
      = ∑ u ∈ Finset.range (n % 20 + 1), tileCntN (btF V c) (20 * (n / 20) + u) g
  | 0, hn => by
    rw [first_5 V c ⟨0, hn⟩ rfl g, ← tileCntN_of V c ⟨0, hn⟩ g]
    simp
  | n + 1, hn => by
    by_cases h0 : (n + 1) % 20 = 0
    · rw [first_5 V c ⟨n + 1, hn⟩ h0 g, ← tileCntN_of V c ⟨n + 1, hn⟩ g, h0, Finset.sum_range_one]
      congr 1
      show n + 1 = 20 * ((n + 1) / 20) + 0
      omega
    · rw [next_5 V c ⟨n + 1, hn⟩ h0 g, ← tileCntN_of V c ⟨n + 1, hn⟩ g]
      show ((outsAt0 V c n _).2 : S1x512x1.Idx → EReal) (ix3 (0 : Fin 1) g (0 : Fin 1)) + _ = _
      rw [running_5 c g n (Nat.lt_of_succ_lt hn)]
      have e1 : (n + 1) % 20 = n % 20 + 1 := by omega
      have e2 : (n + 1) / 20 = n / 20 := by omega
      rw [e1, e2, Finset.sum_range_succ (n := n % 20 + 1)]
      congr 2
      show n + 1 = 20 * (n / 20) + (n % 20 + 1)
      omega

/-! ## A slab's last tile -/

/-- After a slab's last tile the sums block holds the slab's pooled sums. -/
theorem slab_4 (c : Dev nD) (t : Fin cfg0.N) (h19 : t.val % 20 = 19) (cc : Fin 2) (hcc : cc.val = t.val / 20) (g : Fin 512) (j : Fin 20) :
    ((outsAt0 V c t.val t.isLt).1 : S1x512x20.Idx → EReal) (ix3 (0 : Fin 1) g j)
      = Gcn.slabSum (Gcn.hidOf (wF V c) (bF V c) (aggF V c)) (btF V c) cc g j := by
  rw [running_4 V c g j t.val t.isLt, h19, Finset.sum_range]
  unfold Gcn.slabSum
  refine Finset.sum_congr rfl fun u _ => ?_
  unfold tileSumN
  have hlt : 20 * (t.val / 20) + u.val < 40 := by have := cc.isLt; have := u.isLt; omega
  rw [dif_pos hlt]
  unfold tileSum
  have e : (⟨20 * (t.val / 20) + u.val, hlt⟩ : Fin 40) = Gcn.tile cc u := Fin.ext (by show _ = 20 * cc.val + u.val; rw [hcc])
  rw [e]

/-- After a slab's last tile the counts block holds the slab's node counts. -/
theorem slab_5 (c : Dev nD) (t : Fin cfg0.N) (h19 : t.val % 20 = 19) (cc : Fin 2) (hcc : cc.val = t.val / 20) (g : Fin 512) :
    ((outsAt0 V c t.val t.isLt).2 : S1x512x1.Idx → EReal) (ix3 (0 : Fin 1) g (0 : Fin 1))
      = Gcn.slabCnt (btF V c) cc g := by
  rw [running_5 V c g t.val t.isLt, h19, Finset.sum_range]
  unfold Gcn.slabCnt
  refine Finset.sum_congr rfl fun u _ => ?_
  unfold tileCntN
  have hlt : 20 * (t.val / 20) + u.val < 40 := by have := cc.isLt; have := u.isLt; omega
  rw [dif_pos hlt]
  unfold tileCnt
  have e : (⟨20 * (t.val / 20) + u.val, hlt⟩ : Fin 40) = Gcn.tile cc u := Fin.ext (by show _ = 20 * cc.val + u.val; rw [hcc])
  rw [e]

/-! ## From the blocks to the arrays -/

/-- The two result arrays as functions of the whole index. -/
abbrev sumArr (c : Dev nD) : S2x512x20.Idx → EReal :=
  fun i => Gcn.slabSum (Gcn.hidOf (wF V c) (bF V c) (aggF V c)) (btF V c) (i 0) (i 1) (i 2)
abbrev cntArr (c : Dev nD) : S2x512x1.Idx → EReal :=
  fun i => Gcn.slabCnt (btF V c) (i 0) (i 1)

/-- What a slab's last tile writes back is the slab's block of the pooled sums. -/
theorem flushed_4 (c : Dev nD) (t : Fin cfg0.N) (hf : (cfg0.win 4).flush t = true) :
    (dat0 V c).flushed 4 t = ((cfg0.win 4).blk t).view.read (Elt Ideal) (sumArr V c) := by
  have h19 : t.val % 20 = 19 := (flush0_4 t).mp hf
  have hN : t.val < 40 := lt_of_lt_of_eq t.isLt (show cfg0.N = 40 from N_0)
  obtain ⟨-, -, -, -, -, -, -, -, -, e0, e1, e2, -⟩ := idx_facts t
  show (cfg0.win 4).cut (grid0.coords t) ((dat0 V c).after 4 t) = _
  rw [after0_4]
  have key : ∀ y : S1x512x20.Idx, ((outsAt0 V c t.val t.isLt).1 : S1x512x20.Idx → EReal) y
      = sumArr V c (((cfg0.win 4).blk t).view.emb y) := by
    intro y
    obtain ⟨a, g, j, rfl⟩ : ∃ a g j, y = ix3 a g j := ⟨_, _, _, eq_ix3 y⟩
    obtain rfl : a = 0 := Subsingleton.elim _ _
    have e : ((cfg0.win 4).blk t).view.emb (ix3 (0 : Fin 1) g j) = ix3 (⟨t.val / 20, by omega⟩ : Fin 2) g j := by
      funext a; apply Fin.ext
      match a with
      | ⟨0, _⟩ => show win0_4.index t 0 * 1 + 1 * 0 = t.val / 20; rw [e0]; omega
      | ⟨1, _⟩ => show win0_4.index t 1 * 512 + 1 * g.val = g.val; rw [e1]; omega
      | ⟨2, _⟩ => show win0_4.index t 2 * 20 + 1 * j.val = j.val; rw [e2]; omega
    rw [e]
    exact slab_4 V c t h19 ⟨t.val / 20, by omega⟩ rfl g j
  funext y
  rw [View.read_apply]
  exact key y

/-- What a slab's last tile writes back is the slab's block of the node counts. -/
theorem flushed_5 (c : Dev nD) (t : Fin cfg0.N) (hf : (cfg0.win 5).flush t = true) :
    (dat0 V c).flushed 5 t = ((cfg0.win 5).blk t).view.read (Elt Ideal) (cntArr V c) := by
  have h19 : t.val % 20 = 19 := (flush0_5 t).mp hf
  have hN : t.val < 40 := lt_of_lt_of_eq t.isLt (show cfg0.N = 40 from N_0)
  obtain ⟨-, -, -, -, -, -, -, -, -, -, -, -, e0, e1, e2⟩ := idx_facts t
  show (cfg0.win 5).cut (grid0.coords t) ((dat0 V c).after 5 t) = _
  rw [after0_5]
  have key : ∀ y : S1x512x1.Idx, ((outsAt0 V c t.val t.isLt).2 : S1x512x1.Idx → EReal) y
      = cntArr V c (((cfg0.win 5).blk t).view.emb y) := by
    intro y
    obtain ⟨a, g, j, rfl⟩ : ∃ a g j, y = ix3 a g j := ⟨_, _, _, eq_ix3 y⟩
    obtain rfl : a = 0 := Subsingleton.elim _ _
    obtain rfl : j = 0 := Subsingleton.elim _ _
    have e : ((cfg0.win 5).blk t).view.emb (ix3 (0 : Fin 1) g (0 : Fin 1)) = ix3 (⟨t.val / 20, by omega⟩ : Fin 2) g (0 : Fin 1) := by
      funext a; apply Fin.ext
      match a with
      | ⟨0, _⟩ => show win0_5.index t 0 * 1 + 1 * 0 = t.val / 20; rw [e0]; omega
      | ⟨1, _⟩ => show win0_5.index t 1 * 512 + 1 * g.val = g.val; rw [e1]; omega
      | ⟨2, _⟩ => show win0_5.index t 2 * 1 + 1 * 0 = 0; rw [e2]
    rw [e]
    exact slab_5 V c t h19 ⟨t.val / 20, by omega⟩ rfl g
  funext y
  rw [View.read_apply]
  exact key y

/-- The last tile of slab `cc`. -/
abbrev lastOf (cc : Fin 2) : Fin cfg0.N := ⟨20 * cc.val + 19, by rw [show cfg0.N = 40 from N_0]; have := cc.isLt; omega⟩

/-- Every index of the sums array lies in the block its slab's last tile writes back. -/
theorem cover_4 (i : S2x512x20.Idx) :
    ∃ t : Fin cfg0.N, (cfg0.win 4).flush t = true ∧ i ∈ ((cfg0.win 4).blk t).view.set := by
  have h0 : (i 0 : Nat) < 2 := (i 0).isLt
  have h1 : (i 1 : Nat) < 512 := (i 1).isLt
  have h2 : (i 2 : Nat) < 20 := (i 2).isLt
  refine ⟨lastOf (i 0), (flush0_4 _).mpr (by show (20 * (i 0).val + 19) % 20 = 19; omega), ?_⟩
  obtain ⟨-, -, -, -, -, -, -, -, -, e0, e1, e2, -⟩ := idx_facts (lastOf (i 0))
  have ediv : (lastOf (i 0)).val / 20 = (i 0).val := by show (20 * (i 0).val + 19) / 20 = _; omega
  show i ∈ ((View.whole main_v40_0).slice (win0_4.rect (lastOf (i 0)))).set
  rw [View.set_slice_whole, Rect.mem_set_unit]
  intro a
  match a with
  | ⟨0, _⟩ => show win0_4.index (lastOf (i 0)) 0 * 1 ≤ (i 0 : Nat) ∧ (i 0 : Nat) < win0_4.index (lastOf (i 0)) 0 * 1 + 1
              rw [e0, ediv]; omega
  | ⟨1, _⟩ => show win0_4.index (lastOf (i 0)) 1 * 512 ≤ (i 1 : Nat) ∧ (i 1 : Nat) < win0_4.index (lastOf (i 0)) 1 * 512 + 512
              rw [e1]; omega
  | ⟨2, _⟩ => show win0_4.index (lastOf (i 0)) 2 * 20 ≤ (i 2 : Nat) ∧ (i 2 : Nat) < win0_4.index (lastOf (i 0)) 2 * 20 + 20
              rw [e2]; omega

/-- Every index of the counts array lies in the block its slab's last tile writes back. -/
theorem cover_5 (i : S2x512x1.Idx) :
    ∃ t : Fin cfg0.N, (cfg0.win 5).flush t = true ∧ i ∈ ((cfg0.win 5).blk t).view.set := by
  have h0 : (i 0 : Nat) < 2 := (i 0).isLt
  have h1 : (i 1 : Nat) < 512 := (i 1).isLt
  have h2 : (i 2 : Nat) < 1 := (i 2).isLt
  refine ⟨lastOf (i 0), (flush0_5 _).mpr (by show (20 * (i 0).val + 19) % 20 = 19; omega), ?_⟩
  obtain ⟨-, -, -, -, -, -, -, -, -, -, -, -, e0, e1, e2⟩ := idx_facts (lastOf (i 0))
  have ediv : (lastOf (i 0)).val / 20 = (i 0).val := by show (20 * (i 0).val + 19) / 20 = _; omega
  show i ∈ ((View.whole main_v40_1).slice (win0_5.rect (lastOf (i 0)))).set
  rw [View.set_slice_whole, Rect.mem_set_unit]
  intro a
  match a with
  | ⟨0, _⟩ => show win0_5.index (lastOf (i 0)) 0 * 1 ≤ (i 0 : Nat) ∧ (i 0 : Nat) < win0_5.index (lastOf (i 0)) 0 * 1 + 1
              rw [e0, ediv]; omega
  | ⟨1, _⟩ => show win0_5.index (lastOf (i 0)) 1 * 512 ≤ (i 1 : Nat) ∧ (i 1 : Nat) < win0_5.index (lastOf (i 0)) 1 * 512 + 512
              rw [e1]; omega
  | ⟨2, _⟩ => show win0_5.index (lastOf (i 0)) 2 * 1 ≤ (i 2 : Nat) ∧ (i 2 : Nat) < win0_5.index (lastOf (i 0)) 2 * 1 + 1
              rw [e2]; omega

end Pool

/-! ## The two result arrays -/

open Pool

/-- The pooled sums of slab `cc`: graph `g`, feature `j`. -/
theorem arr0_4 (c : Dev nD) (cc : Fin 2) (g : Fin 512) (j : Fin 20) :
    ((dat0 (F := Ideal) V c).arrAt 4 cfg0.N : S2x512x20.Idx → EReal) (ix3 cc g j)
      = Gcn.slabSum
          (Gcn.hidOf (Gcn.X2 (V c main_arg3 : S20x20.Idx → EReal)) (fun j => (V c main_v38 : S1x20.Idx → EReal) (ix2 (0 : Fin 1) j))
            (Gcn.X2 (V c main_v37 : S200000x20.Idx → EReal)))
          (fun t r => (V c main_v39 : S40x1x5000.Idx → BitVec 32) (ix3 t (0 : Fin 1) r)) cc g j :=
  congrFun ((dat0 (F := Ideal) V c).arrAt_eq_of_cover 4 (sumArr V c) (flushed_4 V c) cover_4) (ix3 cc g j)

/-- The node counts of slab `cc`: graph `g`. -/
theorem arr0_5 (c : Dev nD) (cc : Fin 2) (g : Fin 512) :
    ((dat0 (F := Ideal) V c).arrAt 5 cfg0.N : S2x512x1.Idx → EReal) (ix3 cc g (0 : Fin 1))
      = Gcn.slabCnt (fun t r => (V c main_v39 : S40x1x5000.Idx → BitVec 32) (ix3 t (0 : Fin 1) r)) cc g :=
  congrFun ((dat0 (F := Ideal) V c).arrAt_eq_of_cover 5 (cntArr V c) (flushed_5 V c) cover_5) (ix3 cc g (0 : Fin 1))

end Cert.KernelIdeal.KV

end
-- ==== Proof.KHost1.lean ====
/-
  Between the two launches the slabs are added; the head launch then stores its one block, the whole result.
-/
import proofs.«417613_j4277787427600_3_alg».proof.Proof.Gen.KernelIdeal.Frame
import proofs.«417613_j4277787427600_3_alg».proof.Proof.Spec
import Idealize.ShloMosaic.PureOps.Ideal.Laws
import Idealize.ShloMosaic.Lib.ValueLayout

noncomputable section

namespace Cert.KernelIdeal.KV

open Cert.KernelIdeal Cert.KernelIdeal.Gen
open Idealize.ShloMosaic Idealize.ShloMosaic.TcCoe Idealize.SL.Sem Idealize.ShloMosaic.ValueIdx
open Idealize.ShloMosaic.Pipeline (Dat)

section Host
variable (m : (ℓ : Loc nD τ sig) → Buf (Elt Ideal) ℓ) (ρ : Dev nD → PrngReg)

/-- The first launch's result arrays at its exit are what its pipeline leaves. -/
theorem V4_v40_0 (c : Dev nD) : V4 (F := Ideal) m ρ c main_v40_0 = (dat0 (F := Ideal) (V3 m ρ) c).arrAt 4 cfg0.N :=
  W4_arr (F := Ideal) m ρ c 4
theorem V4_v40_1 (c : Dev nD) : V4 (F := Ideal) m ρ c main_v40_1 = (dat0 (F := Ideal) (V3 m ρ) c).arrAt 5 cfg0.N :=
  W4_arr (F := Ideal) m ρ c 5

/-- The pooled sums the head launch finds: the two slabs added. -/
theorem v41_apply (c : Dev nD) (g : Fin 512) (j : Fin 20) :
    (V5 (F := Ideal) m ρ c main_v41 : S512x20.Idx → EReal) (ix2 g j)
      = @Finset.sum (Fin 2) EReal _ Finset.univ (fun cc => (V4 (F := Ideal) m ρ c main_v40_0 : S2x512x20.Idx → EReal) (ix3 cc g j)) := by
  have e : (V5 (F := Ideal) m ρ c main_v41 : S512x20.Idx → EReal)
      = Host.reduceAdd (F := Ideal) (V4 (F := Ideal) m ρ c main_v40_0 : S2x512x20.Idx → EReal)
          (constant (F := Ideal) S_ .f32 0x00000000#32) reducesTo_S2x512x20_S512x20_d0 h_S_ := by
    show StableHlo.after hostOps1 _ (Proc.devRef .tc main_v41) = _
    after_results
  rw [e]
  show Ideal.hostReduceAdd reducesTo_S2x512x20_S512x20_d0 _ _ (ix2 g j) = _
  refine (Ideal.hostReduceAdd_single reducesTo_S2x512x20_S512x20_d0 (by decide) _ _ _).trans ?_
  show Ideal.ofBits .f32 0x00000000#32 + _ = _
  rw [Ideal.ofBits_zero_f32, zero_add]
  refine Finset.sum_congr rfl fun k _ => congrArg (V4 (F := Ideal) m ρ c main_v40_0 : S2x512x20.Idx → EReal) ?_
  funext d
  match d with
  | ⟨0, _⟩ => rfl
  | ⟨1, _⟩ => rfl
  | ⟨2, _⟩ => rfl
/-- The node counts the head launch finds: the two slabs added. -/
theorem v42_apply (c : Dev nD) (g : Fin 512) :
    (V5 (F := Ideal) m ρ c main_v42 : S512x1.Idx → EReal) (ix2 g (0 : Fin 1))
      = @Finset.sum (Fin 2) EReal _ Finset.univ (fun cc => (V4 (F := Ideal) m ρ c main_v40_1 : S2x512x1.Idx → EReal) (ix3 cc g (0 : Fin 1))) := by
  have e : (V5 (F := Ideal) m ρ c main_v42 : S512x1.Idx → EReal)
      = Host.reduceAdd (F := Ideal) (V4 (F := Ideal) m ρ c main_v40_1 : S2x512x1.Idx → EReal)
          (constant (F := Ideal) S_ .f32 0x00000000#32) reducesTo_S2x512x1_S512x1_d0 h_S_ := by
    show StableHlo.after hostOps1 _ (Proc.devRef .tc main_v42) = _
    after_results
  rw [e]
  show Ideal.hostReduceAdd reducesTo_S2x512x1_S512x1_d0 _ _ (ix2 g (0 : Fin 1)) = _
  refine (Ideal.hostReduceAdd_single reducesTo_S2x512x1_S512x1_d0 (by decide) _ _ _).trans ?_
  show Ideal.ofBits .f32 0x00000000#32 + _ = _
  rw [Ideal.ofBits_zero_f32, zero_add]
  refine Finset.sum_congr rfl fun k _ => congrArg (V4 (F := Ideal) m ρ c main_v40_1 : S2x512x1.Idx → EReal) ?_
  funext d
  match d with
  | ⟨0, _⟩ => rfl
  | ⟨1, _⟩ => rfl
  | ⟨2, _⟩ => rfl
/-- The output bias is as launched when the first launch ends: nothing before it writes an argument. -/
private theorem W4_arg6 (c : Dev nD) : W4 (F := Ideal) m ρ c (Proc.devRef .tc main_arg6) = m ((c.tc : Thread nD τ).loc main_arg6) := by
  have h5 : W5 (F := Ideal) m ρ c (Proc.devRef .tc main_arg6) = W4 (F := Ideal) m ρ c (Proc.devRef .tc main_arg6) := by
    show StableHlo.after hostOps1 _ (Proc.devRef .tc main_arg6) = _
    after_results
  exact h5.symm.trans ((W6_of_ne (F := Ideal) m ρ c main_arg6 (by decide)).symm.trans (W6_main_arg6 (F := Ideal) m ρ c))
/-- The output bias as a row. -/
theorem v43_apply (c : Dev nD) (o : Fin 5) :
    (V5 (F := Ideal) m ρ c main_v43 : S1x5.Idx → EReal) (ix2 (0 : Fin 1) o) = m ((c.tc : Thread nD τ).loc main_arg6) (ix1 o) := by
  have e : (V5 (F := Ideal) m ρ c main_v43 : S1x5.Idx → EReal)
      = shapeCast S1x5 (W4 (F := Ideal) m ρ c (Proc.devRef .tc main_arg6) : S5.Idx → EReal) shapeCasts_S5_S1x5 := by
    show StableHlo.after hostOps1 _ (Proc.devRef .tc main_v43) = _
    after_results
    rfl
  rw [e, W4_arg6]
  exact shapeCast_a_1a_apply _ _ _ _
/-- The output weights are as launched. -/
theorem arg5_eq (c : Dev nD) : V5 (F := Ideal) m ρ c main_arg5 = m ((c.tc : Thread nD τ).loc main_arg5) :=
  (((W6_arr (F := Ideal) m ρ c 2).trans (((dat1 (F := Ideal) (V5 m ρ) c).arrAt_in 2 rfl _).trans
    (A_eq1 (F := Ideal) (V5 m ρ) c 2))).symm).trans (W6_main_arg5 (F := Ideal) m ρ c)

/-- The program's result at the last boundary is what the head launch's pipeline leaves. -/
theorem W6_v44 (c : Dev nD) : W6 (F := Ideal) m ρ c (Proc.devRef .tc main_v44) = (dat1 (F := Ideal) (V5 m ρ) c).arrAt 4 cfg1.N :=
  W6_arr (F := Ideal) m ρ c 4

end Host

end Cert.KernelIdeal.KV

end
-- ==== Proof.KRegion1.lean ====
/-
  The head launch has one point and every window's block is its whole array: its result array ends at the body's one
  stored value of the whole input arrays.
-/
import proofs.«417613_j4277787427600_3_alg».proof.Proof.Gen.KernelIdeal.Frame
import Idealize.ShloMosaic.Lib.Pipeline.Value
import Idealize.ShloMosaic.PureOps.Ideal
import Idealize.ShloMosaic.Lib.ValueIdx

noncomputable section

namespace Cert.KernelIdeal.KV

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The two zero offsets of a whole-array rectangle, however spelt. -/
theorem hz1 : (![0, 0] : Fin 2 → Nat) = fun _ => 0 := funext fun a => by fin_cases a <;> rfl

/-! ## Every input block at the one point is its whole array -/

/-- The pooled sums' block is the whole array. -/
theorem iblk1_0_eq (c : Dev nD) (t : Fin cfg1.N) : (iblk1 (F := Ideal) V c 0 t : S512x20.Idx → EReal) = V c main_v41 := by
  obtain rfl : t = t1_0 := fin_N1 t
  have hz' : (fun a => win1_0.index t1_0 a * main_v41.ty.shape.size a) = fun _ => 0 := funext fun a => by fin_cases a <;> decide
  exact Memref.read_access_unit_zero (Elt Ideal) main_v41 hz' (fun a => by rw [congrFun hz' a]; simp) (V c main_v41)

/-- The node counts' block is the whole array. -/
theorem iblk1_1_eq (c : Dev nD) (t : Fin cfg1.N) : (iblk1 (F := Ideal) V c 1 t : S512x1.Idx → EReal) = V c main_v42 := by
  obtain rfl : t = t1_0 := fin_N1 t
  have hz' : (fun a => win1_1.index t1_0 a * main_v42.ty.shape.size a) = fun _ => 0 := funext fun a => by fin_cases a <;> decide
  exact Memref.read_access_unit_zero (Elt Ideal) main_v42 hz' (fun a => by rw [congrFun hz' a]; simp) (V c main_v42)

/-- The output weights' block is the whole array. -/
theorem iblk1_2_eq (c : Dev nD) (t : Fin cfg1.N) : (iblk1 (F := Ideal) V c 2 t : S20x5.Idx → EReal) = V c main_arg5 := by
  obtain rfl : t = t1_0 := fin_N1 t
  have hz' : (fun a => win1_2.index t1_0 a * main_arg5.ty.shape.size a) = fun _ => 0 := funext fun a => by fin_cases a <;> decide
  exact Memref.read_access_unit_zero (Elt Ideal) main_arg5 hz' (fun a => by rw [congrFun hz' a]; simp) (V c main_arg5)

/-- The output bias row's block is the whole array. -/
theorem iblk1_3_eq (c : Dev nD) (t : Fin cfg1.N) : (iblk1 (F := Ideal) V c 3 t : S1x5.Idx → EReal) = V c main_v43 := by
  obtain rfl : t = t1_0 := fin_N1 t
  have hz' : (fun a => win1_3.index t1_0 a * main_v43.ty.shape.size a) = fun _ => 0 := funext fun a => by fin_cases a <;> decide
  exact Memref.read_access_unit_zero (Elt Ideal) main_v43 hz' (fun a => by rw [congrFun hz' a]; simp) (V c main_v43)

/-! ## The result array -/

/-- The body's one stored value of the whole input arrays, as contents of the result array. -/
abbrev result1 (c : Dev nD) : Buf (Elt Ideal) ((c : Thread nD τ).loc main_v44) :=
  k1_pay1 (F := Ideal) (V c main_v42 : S512x1.Idx → EReal) (V c main_v41 : S512x20.Idx → EReal)
    (V c main_arg5 : S20x5.Idx → EReal) (V c main_v43 : S1x5.Idx → EReal)

/-- What the body leaves in the result window's buffer: one store through the whole buffer, of the payload of loads
    through the whole input buffers, each holding its whole array. -/
theorem out1_4_eq (c : Dev nD) (t : Fin cfg1.N) :
    out1_4 (F := Ideal) (iblk1 V c 0 t) (iblk1 V c 1 t) (iblk1 V c 2 t) (iblk1 V c 3 t) = result1 V c := by
  unfold out1_4
  rw [View.canon_unit_zero hz1]
  simp only [View.ld_unit_zero (S := S512x20) hz1, View.ld_unit_zero (S := S512x1) hz1, View.ld_unit_zero (S := S20x5) hz1,
    View.ld_unit_zero (S := S1x5) hz1]
  rw [iblk1_0_eq V c t, iblk1_1_eq V c t, iblk1_2_eq V c t, iblk1_3_eq V c t]

/-- The one write-back writes it: block (0, 0) of the result array read through zero offsets is the array. -/
theorem flushed1_4_eq (c : Dev nD) (t : Fin cfg1.N) (hf : (cfg1.win 4).flush t = true) :
    (dat1 (F := Ideal) V c).flushed 4 t = ((cfg1.win 4).blk t).view.read (Elt Ideal) (result1 V c) := by
  obtain rfl : t = t1_0 := fin_N1 t
  show (cfg1.win 4).cut (grid1.coords t1_0) ((dat1 (F := Ideal) V c).after 4 t1_0) = _
  rw [after1_4, out1_4_eq]
  have hz' : (fun a => win1_4.index t1_0 a * main_v44.ty.shape.size a) = fun _ => 0 := funext fun a => by fin_cases a <;> decide
  exact (Memref.read_access_unit_zero (Elt Ideal) main_v44 hz' (fun a => by rw [congrFun hz' a]; simp) (result1 V c)).symm

/-- The result array after the launch: the body's stored value of the node counts, the pooled sums, the output
    weights and the output bias row as the launch finds them. -/
theorem arr1_4 (c : Dev nD) :
    ((dat1 (F := Ideal) V c).arrAt 4 cfg1.N : S512x5.Idx → EReal)
      = k1_pay1 (F := Ideal) (V c main_v42 : S512x1.Idx → EReal) (V c main_v41 : S512x20.Idx → EReal)
          (V c main_arg5 : S20x5.Idx → EReal) (V c main_v43 : S1x5.Idx → EReal) :=
  (dat1 (F := Ideal) V c).arrAt_eq_of_cover 4 (result1 V c) (flushed1_4_eq V c) fun i =>
    ⟨t1_0, flush1_4 t1_0, by
      show i ∈ ((View.whole main_v44).slice (win1_4.rect t1_0)).set
      rw [View.set_slice_whole, Rect.mem_set_unit]
      intro a
      have h0 : (i 0 : Nat) < 512 := (i 0).isLt
      have h1 : (i 1 : Nat) < 5 := (i 1).isLt
      match a with
      | ⟨0, _⟩ =>
        show win1_4.index t1_0 0 * win1_4.size 0 ≤ (i 0 : Nat)
          ∧ (i 0 : Nat) < win1_4.index t1_0 0 * win1_4.size 0 + win1_4.xsize (grid1.coords t1_0) 0
        rw [show win1_4.index t1_0 0 * win1_4.size 0 = 0 from by decide +kernel,
          show win1_4.xsize (grid1.coords t1_0) 0 = 512 from by decide +kernel]
        omega
      | ⟨1, _⟩ =>
        show win1_4.index t1_0 1 * win1_4.size 1 ≤ (i 1 : Nat)
          ∧ (i 1 : Nat) < win1_4.index t1_0 1 * win1_4.size 1 + win1_4.xsize (grid1.coords t1_0) 1
        rw [show win1_4.index t1_0 1 * win1_4.size 1 = 0 from by decide +kernel,
          show win1_4.xsize (grid1.coords t1_0) 1 = 5 from by decide +kernel]
        omega⟩

end Cert.KernelIdeal.KV

end
-- ==== Proof.SpecFinal.lean ====
/-
  The head of the network on one graph: the mean of the pooled rows, the affine map to five logits, and the softmax
  with the row maximum subtracted.
-/
import Idealize.ShloMosaic.PureOps.Ideal

noncomputable section

open scoped BigOperators

namespace Gcn

open Idealize.ShloMosaic

/-- Class `o`'s probability for graph `g`: the pooled sums divided by the node count (at least one), through the output
    layer, then `exp (logit - max) / Σ exp (logit - max)` over the five classes. -/
def finalOut (sums : Fin 512 → Fin 20 → EReal) (cnts : Fin 512 → EReal) (Wo : Fin 20 → Fin 5 → EReal) (bo : Fin 5 → EReal)
    (g : Fin 512) (o : Fin 5) : EReal :=
  let logit : Fin 5 → EReal := fun o' => (∑ j : Fin 20, Ideal.div (sums g j) (max (cnts g) 1) * Wo j o') + bo o'
  let mx : EReal := Finset.univ.fold max ⊥ logit
  let e : Fin 5 → EReal := fun o' => Ideal.exp (logit o' - mx)
  Ideal.div (e o) (∑ o' : Fin 5, e o')

end Gcn

end
-- ==== Proof.KFinal.lean ====
/-
  The head launch's stored value at an index is the head of the network on the pooled sums and counts.
-/
import proofs.«417613_j4277787427600_3_alg».proof.Proof.Gen.KernelIdeal.Skeleton
import proofs.«417613_j4277787427600_3_alg».proof.Proof.Spec
import proofs.«417613_j4277787427600_3_alg».proof.Proof.SpecFinal
import Idealize.ShloMosaic.PureOps.Ideal.Laws
import Idealize.ShloMosaic.Lib.Pipeline.Value
import Idealize.ShloMosaic.Lib.ValueLayout

noncomputable section

namespace Cert.KernelIdeal.KV

open Cert.KernelIdeal Cert.KernelIdeal.Gen
open Idealize.ShloMosaic Idealize.ShloMosaic.TcCoe Idealize.ShloMosaic.ValueIdx

namespace Final

/-! ## Two layout forms a row reduction with kept dimensions goes through -/

/-- An [a] array cast to [a, 1] reads, at (p, u), the operand at p, whatever the unit coordinate u. -/
theorem shapeCast_a_a1_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An [a, 1] array broadcast to [a, b] reads, at (p, c), the operand's one column at p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two constant words -/

/-- The word of one is one. -/
theorem ofBits_one_f32 : Ideal.ofBits .f32 0x3F800000#32 = 1 := by simp [Ideal.ofBits, Ideal.ieee, -EReal.coe_mul]; norm_num

/-- The word of minus infinity is the bottom element. -/
theorem ofBits_neginf_f32 : Ideal.ofBits .f32 0xFF800000#32 = ⊥ := by simp [Ideal.ofBits, Ideal.ieee]

/-! ## The body in two parts: the logits, and the softmax of a matrix of logits along its rows -/

/-- The logits: the pooled rows divided by the counts (at least one), times the output weights, plus the bias row. -/
def logitsV (v0 : FVec Ideal S512x1 .f32) (v4 : FVec Ideal S512x20 .f32) (v9 : FVec Ideal S20x5 .f32) (v12 : FVec Ideal S1x5 .f32) :
    FVec Ideal S512x5 .f32 :=
  addf
    (matmul dot_S512x20_S20x5_S512x5_1_0_0_1_n_n none
      (truncf .bf16
        (divf (shapeCast S512x20 v4 shapeCasts_S512x20_S512x20)
          (broadcastTo S512x20
            (maximumf (shapeCast S512x1 v0 shapeCasts_S512x1_S512x1) (broadcast S512x1 (Scalar.ofBits .f32 0x3F800000#32)))
            broadcasts_S512x1_S512x20))
        bitsLt_bf16_f32)
      (truncf .bf16 v9 bitsLt_bf16_f32) (constant S512x5 .f32 0x00000000#32))
    (broadcastTo S512x5 (shapeCast S1x5 v12 shapeCasts_S1x5_S1x5) broadcasts_S1x5_S512x5)

/-- The row maximum of a matrix of logits, kept as a column and spread back over the row. -/
def rowMaxV (L : FVec Ideal S512x5 .f32) : FVec Ideal S512x5 .f32 :=
  broadcastTo S512x5
    (shapeCast S512x1 (multiReduction .maximumf [1] S512 L 0xFF800000#32 reduces_S512x5_S512 (.inl rfl) rfl) shapeCasts_S512_S512x1)
    broadcasts_S512x1_S512x5

/-- The row sum of a matrix, kept as a column and spread back over the row. -/
def rowSumV (E : FVec Ideal S512x5 .f32) : FVec Ideal S512x5 .f32 :=
  broadcastTo S512x5
    (shapeCast S512x1 (multiReduction .add [1] S512 E 0x00000000#32 reduces_S512x5_S512 (.inl rfl) rfl) shapeCasts_S512_S512x1)
    broadcasts_S512x1_S512x5

/-- The softmax along the rows, the row maximum subtracted first. -/
def softmaxV (L : FVec Ideal S512x5 .f32) : FVec Ideal S512x5 .f32 :=
  divf (exp (subf L (rowMaxV L))) (rowSumV (exp (subf L (rowMaxV L))))

/-- The body's stored value is the softmax of the logits. -/
theorem pay1_eq (v0 : S512x1.Idx → EReal) (v4 : S512x20.Idx → EReal) (v9 : S20x5.Idx → EReal) (v12 : S1x5.Idx → EReal) :
    k1_pay1 (F := Ideal) v0 v4 v9 v12 = softmaxV (logitsV v0 v4 v9 v12) := rfl

/-! ## The matrix product's operand indices -/

theorem lhs_0 (i : S512x5.Idx) (q : dot_S512x20_S20x5_S512x5_1_0_0_1_n_n.contr.Idx) :
    (dot_S512x20_S20x5_S512x5_1_0_0_1_n_n.lhsIdx i q 0).val = (i 0).val := by
  unfold DotDims.lhsIdx
  rw [dif_neg (show ¬(0 : Fin S512x20.rank) ∈ dot_S512x20_S20x5_S512x5_1_0_0_1_n_n.lhsBatch by decide), dif_pos (show (0 : Fin S512x20.rank) ∈ dot_S512x20_S20x5_S512x5_1_0_0_1_n_n.lhsNonContracting by decide)]
  rfl
theorem lhs_1 (i : S512x5.Idx) (q : dot_S512x20_S20x5_S512x5_1_0_0_1_n_n.contr.Idx) :
    (dot_S512x20_S20x5_S512x5_1_0_0_1_n_n.lhsIdx i q 1).val = (q ⟨0, by decide⟩).val :=
  dot_S512x20_S20x5_S512x5_1_0_0_1_n_n.lhsIdx_val_of_single rfl i q
theorem rhs_0 (i : S512x5.Idx) (q : dot_S512x20_S20x5_S512x5_1_0_0_1_n_n.contr.Idx) :
    (dot_S512x20_S20x5_S512x5_1_0_0_1_n_n.rhsIdx i q 0).val = (q ⟨0, by decide⟩).val :=
  dot_S512x20_S20x5_S512x5_1_0_0_1_n_n.rhsIdx_val_of_single rfl i q
theorem rhs_1 (i : S512x5.Idx) (q : dot_S512x20_S20x5_S512x5_1_0_0_1_n_n.contr.Idx) :
    (dot_S512x20_S20x5_S512x5_1_0_0_1_n_n.rhsIdx i q 1).val = (i 1).val := by
  unfold DotDims.rhsIdx
  rw [dif_neg (show ¬(1 : Fin S20x5.rank) ∈ dot_S512x20_S20x5_S512x5_1_0_0_1_n_n.rhsBatch by decide), dif_pos (show (1 : Fin S20x5.rank) ∈ dot_S512x20_S20x5_S512x5_1_0_0_1_n_n.rhsNonContracting by decide)]
  rfl

/-- The logits at graph g and class o. -/
theorem logitsV_apply (v0 : S512x1.Idx → EReal) (v4 : S512x20.Idx → EReal) (v9 : S20x5.Idx → EReal) (v12 : S1x5.Idx → EReal)
    (g : Fin 512) (o : Fin 5) :
    logitsV v0 v4 v9 v12 (ix2 g o)
      = (∑ j : Fin 20, Ideal.div (v4 (ix2 g j)) (max (v0 (ix2 g (0 : Fin 1))) 1) * v9 (ix2 j o)) + v12 (ix2 (0 : Fin 1) o) := by
  unfold logitsV
  simp only [shapeCast_self]
  rw [addf_apply, broadcastTo_1b_ab_apply]
  refine congrArg (· + v12 (ix2 (0 : Fin 1) o)) ?_
  simp only [matmul]
  rw [Ideal.matmul_constant_zero_apply, ← Equiv.sum_comp (ValueIdx.contrEquiv1 dot_S512x20_S20x5_S512x5_1_0_0_1_n_n 20 rfl rfl).symm]
  refine Finset.sum_congr rfl fun k _ => ?_
  have hk := ValueIdx.contrEquiv1_symm_val dot_S512x20_S20x5_S512x5_1_0_0_1_n_n 20 rfl rfl k
  have el : dot_S512x20_S20x5_S512x5_1_0_0_1_n_n.lhsIdx (ix2 g o) ((ValueIdx.contrEquiv1 dot_S512x20_S20x5_S512x5_1_0_0_1_n_n 20 rfl rfl).symm k) = ix2 g k := funext fun a => Fin.ext (by
    match a with
    | ⟨0, _⟩ => exact lhs_0 _ _
    | ⟨1, _⟩ => exact (lhs_1 _ _).trans hk)
  have er : dot_S512x20_S20x5_S512x5_1_0_0_1_n_n.rhsIdx (ix2 g o) ((ValueIdx.contrEquiv1 dot_S512x20_S20x5_S512x5_1_0_0_1_n_n 20 rfl rfl).symm k) = ix2 k o := funext fun a => Fin.ext (by
    match a with
    | ⟨0, _⟩ => exact (rhs_0 _ _).trans hk
    | ⟨1, _⟩ => exact rhs_1 _ _)
  rw [el, er, truncf_apply, truncf_apply, divf_apply, broadcastTo_a1_ab_apply, maximumf_apply, broadcast_apply]
  rw [Ideal.ofBits_def, ofBits_one_f32]

/-! ## The two row reductions at an index -/

/-- The reduced row index g with class k put back is (g, k). -/
theorem lift_row (h : S512x5.Reduces [1] S512) (g : Fin 512) (k : Fin (S512x5.size 1)) :
    h.lift (ix1 g) k = ix2 g (⟨k.val, k.isLt⟩ : Fin 5) := by
  funext c; apply Fin.ext
  match c with
  | ⟨0, _⟩ => rfl
  | ⟨1, _⟩ => rfl

/-- The row maximum read anywhere on row g: the fold of max over the row, from the bottom element. -/
theorem rowMaxV_apply (L : S512x5.Idx → EReal) (g : Fin 512) (o : Fin 5) :
    rowMaxV L (ix2 g o) = Finset.univ.fold max ⊥ (fun o' : Fin 5 => L (ix2 g o')) := by
  unfold rowMaxV
  rw [broadcastTo_a1_ab_apply, shapeCast_a_a1_apply]
  refine (Ideal.multiReduction_maximumf_single L _ reduces_S512x5_S512 _ _ (ix1 g)).trans ?_
  rw [Ideal.ofBits_def, ofBits_neginf_f32]
  exact congrArg (fun f => Finset.fold max ⊥ f (Finset.univ : Finset (Fin 5))) (funext fun k => congrArg L (lift_row _ g k))

/-- The row sum read anywhere on row g: the sum over the row. -/
theorem rowSumV_apply (E : S512x5.Idx → EReal) (g : Fin 512) (o : Fin 5) :
    rowSumV E (ix2 g o) = ∑ o' : Fin 5, E (ix2 g o') := by
  unfold rowSumV
  rw [broadcastTo_a1_ab_apply, shapeCast_a_a1_apply]
  refine (Ideal.multiReduction_add_single E _ reduces_S512x5_S512 _ _ (ix1 g)).trans ?_
  exact Finset.sum_congr rfl fun k _ => congrArg E (lift_row _ g k)

/-- The exponential of a matrix at an index. -/
theorem exp_apply {s : Shape} {φ : FTy} (a : FVec Ideal s φ) (i : s.Idx) : exp a i = Ideal.exp (a i) := rfl

end Final

open Final in
/-- The body's one stored value, read at graph g and class o. -/
theorem pay1_apply (v0 : S512x1.Idx → EReal) (v4 : S512x20.Idx → EReal) (v9 : S20x5.Idx → EReal) (v12 : S1x5.Idx → EReal)
    (g : Fin 512) (o : Fin 5) :
    k1_pay1 (F := Ideal) v0 v4 v9 v12 (ix2 g o)
      = Gcn.finalOut (Gcn.X2 v4) (fun g => v0 (ix2 g (0 : Fin 1))) (Gcn.X2 v9) (fun o => v12 (ix2 (0 : Fin 1) o)) g o := by
  rw [pay1_eq]
  unfold softmaxV
  rw [divf_apply, rowSumV_apply]
  simp only [exp_apply, subf_apply, rowMaxV_apply, logitsV_apply]
  rfl

end Cert.KernelIdeal.KV

end
-- ==== Proof.Algebra.lean ====
/-
  The two orders of the convolution agree on finite values, and the two forms of the pool agree always.
-/
import proofs.«417613_j4277787427600_3_alg».proof.Proof.Spec

noncomputable section

open scoped BigOperators

namespace Gcn

/-! ## Finite sums of reals inside the extended reals -/

/-- The coercion of the reals into the extended reals commutes with finite sums. -/
private theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Aggregating the scaled source rows and then applying the weight matrix is applying the weight matrix to every
    source row and then aggregating, when the features, the weights and the normalisations are finite:
    `Σ_k (Σ_e x_e,k · a_e · b_e) · W_k,j = Σ_e (Σ_k x_e,k · W_k,j) · (a_e · b_e)` over the reals. -/
theorem hid_eq (x : Fin 200000 → Fin 20 → EReal) (W : Fin 20 → Fin 20 → EReal) (b : Fin 20 → EReal)
    (dinv : Fin 200000 → EReal) (src dst : Fin 4200000 → Fin 200000) (tgt : Fin 4200000 → Option (Fin 200000))
    (hx : ∀ n k, ∃ r : ℝ, x n k = (r : EReal)) (hW : ∀ k j, ∃ r : ℝ, W k j = (r : EReal))
    (hd : ∀ n, ∃ r : ℝ, dinv n = (r : EReal)) (n : Fin 200000) (j : Fin 20) :
    hidOf W b (aggK x dinv src dst tgt) n j = hidR x W b dinv src dst tgt n j := by
  choose xr hxr using hx
  choose Wr hWr using hW
  choose dr hdr using hd
  -- the linear part, before the bias and the ReLU
  have key : (∑ k : Fin 20, aggK x dinv src dst tgt n k * W k j) = aggR x W dinv src dst tgt n j := by
    unfold aggK aggR
    simp only [hxr, hWr, hdr]
    -- every product and every finite sum of finite values is the coercion of a real
    simp only [← EReal.coe_mul, ← coe_sum]
    rw [EReal.coe_eq_coe_iff]
    -- over the reals: distribute, exchange the two sums, and compare edge by edge
    simp only [Finset.sum_mul]
    rw [Finset.sum_comm]
    refine Finset.sum_congr rfl (fun e _ => ?_)
    refine Finset.sum_congr rfl (fun k _ => ?_)
    ring
  unfold hidOf hidR
  rw [key]

/-! ## The one-hot entry as a membership test -/

/-- A graph number below 512, written as a 32-bit word, reads back signed as itself. -/
private theorem toInt_ofNat_graph (g : Fin 512) : (BitVec.ofNat 32 g.val).toInt = (g.val : Int) := by
  have hg := g.isLt
  rw [BitVec.toInt_eq_toNat_cond, BitVec.toNat_ofNat]
  have : g.val % 2 ^ 32 = g.val := Nat.mod_eq_of_lt (by omega)
  rw [this]
  split <;> omega

/-- The one-hot entry of graph `g` against a word is 1 exactly when the word, read signed, is the graph `g`. -/
private theorem oneHot_eq (g : Fin 512) (w : BitVec 32) :
    oneHot g w = if graphOf w = some g then 1 else 0 := by
  have hg := g.isLt
  have hiff : BitVec.ofNat 32 g.val = w ↔ graphOf w = some g := by
    constructor
    · intro h
      subst h
      show inRange 512 _ = some g
      unfold inRange
      have hv := toInt_ofNat_graph g
      have hcond : 0 ≤ (BitVec.ofNat 32 g.val).toInt ∧ (BitVec.ofNat 32 g.val).toInt < ((512 : Nat) : Int) := by
        rw [hv]; omega
      rw [dif_pos hcond]
      refine congrArg some (Fin.ext ?_)
      show (BitVec.ofNat 32 g.val).toInt.toNat = g.val
      rw [hv]; omega
    · intro h
      have h' : inRange 512 w = some g := h
      unfold inRange at h'
      split at h'
      · rename_i hr
        have hv : w.toInt.toNat = g.val := congrArg Fin.val (Option.some.inj h')
        apply BitVec.eq_of_toInt_eq
        rw [toInt_ofNat_graph]
        omega
      · exact absurd h' (by simp)
  unfold oneHot
  by_cases hc : BitVec.ofNat 32 g.val = w
  · rw [if_pos hc, if_pos (hiff.mp hc)]
  · rw [if_neg hc, if_neg (fun h => hc (hiff.mpr h))]

/-! ## The forty tiles partition the nodes -/

/-- Slab, tile within the slab and row within the tile, against the node: `n ↦ (n / 100000, (n / 5000) % 20, n % 5000)`. -/
private def tileEquiv : (Fin 2 × Fin 20) × Fin 5000 ≃ Fin 200000 where
  toFun p := nodeAt (tile p.1.1 p.1.2) p.2
  invFun n := ((⟨n.val / 100000, by have := n.isLt; omega⟩, ⟨(n.val / 5000) % 20, by omega⟩), ⟨n.val % 5000, by omega⟩)
  left_inv := by
    rintro ⟨⟨cc, u⟩, r⟩
    have := cc.isLt; have := u.isLt; have := r.isLt
    simp only [nodeAt, tile, Prod.mk.injEq, Fin.ext_iff]
    omega
  right_inv := by
    intro n
    have := n.isLt
    simp only [nodeAt, tile, Fin.ext_iff]
    omega

/-- A sum over the rows of the tiles of the slabs is a sum over the nodes. -/
private theorem sum_tiles {M : Type} [AddCommMonoid M] (F : Fin 200000 → M) :
    ∑ cc : Fin 2, ∑ u : Fin 20, ∑ r : Fin 5000, F (nodeAt (tile cc u) r) = ∑ n : Fin 200000, F n := by
  calc ∑ cc : Fin 2, ∑ u : Fin 20, ∑ r : Fin 5000, F (nodeAt (tile cc u) r)
      = ∑ p : (Fin 2 × Fin 20) × Fin 5000, F (tileEquiv p) := by
        rw [Fintype.sum_prod_type, Fintype.sum_prod_type]; rfl
    _ = ∑ n : Fin 200000, F n := Equiv.sum_comp tileEquiv F

/-- The one-hot products of the forty tiles, added slab by slab, are the sum over the nodes of each graph. -/
theorem pool_eq (h : Fin 200000 → Fin 20 → EReal) (batch : Fin 200000 → BitVec 32) (g : Fin 512) (j : Fin 20) :
    ∑ cc : Fin 2, slabSum h (fun t r => batch (nodeAt t r)) cc g j = poolSum h batch g j := by
  unfold slabSum poolSum
  -- a one-hot entry is 0 or 1, and in the extended reals `0 * a = 0` and `1 * a = a` for every `a`
  simp only [oneHot_eq, ite_mul, one_mul, zero_mul]
  refine (sum_tiles (fun n => if graphOf (batch n) = some g then h n j else 0)).trans ?_
  rw [Finset.sum_filter]

/-- The same for the counts. -/
theorem cnt_eq (batch : Fin 200000 → BitVec 32) (g : Fin 512) :
    ∑ cc : Fin 2, slabCnt (fun t r => batch (nodeAt t r)) cc g = poolCnt batch g := by
  unfold slabCnt poolCnt
  simp only [oneHot_eq, mul_one]
  refine (sum_tiles (fun n => if graphOf (batch n) = some g then (1 : EReal) else 0)).trans ?_
  rw [Finset.sum_filter]

end Gcn

end
-- ==== Proof.DinvReal.lean ====
/-
  The normalisation is a finite number at every node: where the degree is positive it is its inverse square root,
  elsewhere zero.
-/
import proofs.«417613_j4277787427600_3_alg».proof.Proof.RefRead
import proofs.«417613_j4277787427600_3_alg».proof.Proof.Spec

noncomputable section

namespace Cert.ReferenceIdeal.RV

open Cert.ReferenceIdeal Cert.ReferenceIdeal.Gen Cert.ReferenceIdeal.ReadP
open Idealize.ShloMosaic Idealize.ShloMosaic.TcCoe Idealize.ShloMosaic.ValueIdx

/-- For every extended real `d`, `select (d > 0) (rsqrt d) 0` is a real number: `0` when `d` is `⊥`, `⊤` (whose inverse
    square root is `0`) or a real `≤ 0`, and `(√d)⁻¹` when `d` is a positive real. -/
theorem select_rsqrt_real (d : EReal) :
    ∃ r : ℝ, Scalar.select (Ideal.cmp .ogt d (0 : EReal)) (Ideal.rsqrt d) (0 : EReal) = (r : EReal) := by
  induction d using EReal.rec with
  | bot =>
    have hc : Ideal.cmp .ogt (⊥ : EReal) (0 : EReal) = 0#1 := by simp [Ideal.cmp]
    rw [hc, select_zero]
    exact ⟨0, rfl⟩
  | top =>
    have hc : Ideal.cmp .ogt (⊤ : EReal) (0 : EReal) = 1#1 := by simp [Ideal.cmp]
    rw [hc, select_one]
    exact ⟨0, rfl⟩
  | coe x =>
    by_cases hx : 0 < x
    · have hc : Ideal.cmp .ogt ((x : ℝ) : EReal) (0 : EReal) = 1#1 := by
        simp [Ideal.cmp, hx]
      rw [hc, select_one]
      refine ⟨(Real.sqrt x)⁻¹, ?_⟩
      show (if x < 0 then (⊥ : EReal) else if x = 0 then ⊤ else (((Real.sqrt x)⁻¹ : ℝ) : EReal)) = _
      rw [if_neg (not_lt.mpr hx.le), if_neg hx.ne']
    · have hc : Ideal.cmp .ogt ((x : ℝ) : EReal) (0 : EReal) = 0#1 := by
        simp [Ideal.cmp, hx]
      rw [hc, select_zero]
      exact ⟨0, rfl⟩

/-- `select (deg > 0) (rsqrt deg) 0` is a real number whatever the degree. -/
theorem dinv_real (x1 : S2x4000000.Idx → BitVec 32) (n : Fin 200000) :
    ∃ r : ℝ, val_main_v14 (F := Ideal) x1 (ix1 n) = (r : EReal) := by
  rw [val_main_v14_apply, val_main_v12_apply, val_main_v13_apply, val_main_call0_v1_apply, val_main_call0_v0_apply,
    val_main_cst_2_apply, val_main_v11_apply, val_main_cst_1_apply]
  generalize val_main_v10 (F := Ideal) x1 (ix1 n) = d
  -- the zero word is the extended real 0; the comparison and the inverse square root are the extended reals' own
  have hz : (FloatOps.ofBits (F := Ideal) .f32 0x00000000#32 : EReal) = 0 := Ideal.ofBits_zero_f32
  rw [hz]
  exact select_rsqrt_real d

end Cert.ReferenceIdeal.RV

end
-- ==== Proof.KValue.lean ====
/-
  The aggregate-first program's result, index by index, in the transform-first program's form.

  The result buffer ends at what the head launch's pipeline leaves: the head of the network on the two slabs'
  pooled sums and counts added; each slab's sums are the one-hot products of its tiles over the hidden rows, the
  hidden rows the affine map and ReLU of the aggregated rows.  On finite features and weights the hidden rows are
  those of the transform-first order, and the tiles' products are the scatter-add pool.
-/
import proofs.«417613_j4277787427600_3_alg».proof.Proof.KFrame
import proofs.«417613_j4277787427600_3_alg».proof.Proof.KHost0
import proofs.«417613_j4277787427600_3_alg».proof.Proof.KRegion0
import proofs.«417613_j4277787427600_3_alg».proof.Proof.KHost1
import proofs.«417613_j4277787427600_3_alg».proof.Proof.KRegion1
import proofs.«417613_j4277787427600_3_alg».proof.Proof.KFinal
import proofs.«417613_j4277787427600_3_alg».proof.Proof.Algebra
import proofs.«417613_j4277787427600_3_alg».proof.Proof.DinvReal

noncomputable section

namespace Cert.KernelIdeal.KV

open Cert.KernelIdeal Cert.KernelIdeal.Gen
open Idealize.ShloMosaic Idealize.ShloMosaic.TcCoe Idealize.SL.Sem Idealize.ShloMosaic.ValueIdx
open Cert.ReferenceIdeal.ReadP (val_main_v14 val_main_v20 val_main_v27 val_main_v42)

variable (m : (ℓ : Loc nD τ sig) → Buf (Elt Ideal) ℓ) (ρ : Dev nD → PrngReg)

/-- The hidden layer in the transform-first form, as a function of the launch memory. -/
abbrev hidden (c : Dev nD) : Fin 200000 → Fin 20 → EReal :=
  Gcn.hidR (Gcn.X2 (m ((c.tc : Thread nD τ).loc main_arg0))) (Gcn.X2 (m ((c.tc : Thread nD τ).loc main_arg3)))
    (Gcn.X1 (m ((c.tc : Thread nD τ).loc main_arg4))) (Gcn.X1 (val_main_v14 (F := Ideal) (ei m c)))
    (Gcn.srcOf (val_main_v20 (F := Ideal) (ei m c))) (Gcn.srcOf (val_main_v27 (F := Ideal) (ei m c)))
    (Gcn.tgtOf (val_main_v42 (F := Ideal) (ei m c)))

/-- The pooled sums the head launch finds are the scatter-add pool of the hidden rows. -/
theorem sums_apply (hx : ∀ (c : Dev nD) i, ∃ r : ℝ, m ((c.tc : Thread nD τ).loc main_arg0) i = (r : EReal))
    (hW : ∀ (c : Dev nD) i, ∃ r : ℝ, m ((c.tc : Thread nD τ).loc main_arg3) i = (r : EReal)) (c : Dev nD) (g : Fin 512) (j : Fin 20) :
    (V5 (F := Ideal) m ρ c main_v41 : S512x20.Idx → EReal) (ix2 g j)
      = Gcn.poolSum (hidden m c) (Gcn.X1 (m ((c.tc : Thread nD τ).loc main_arg2))) g j := by
  show @Eq EReal _ _
  rw [v41_apply, V4_v40_0]
  refine Eq.trans ?_ (Gcn.pool_eq (hidden m c) (Gcn.X1 (m ((c.tc : Thread nD τ).loc main_arg2))) g j)
  refine Finset.sum_congr rfl fun cc _ => ?_
  rw [arr0_4 (V3 m ρ) c cc g j]
  unfold Gcn.slabSum
  refine Finset.sum_congr rfl fun u _ => Finset.sum_congr rfl fun r _ => ?_
  dsimp only
  rw [v39_apply m ρ c (Gcn.tile cc u) r]
  refine congrArg _ ?_
  have hh := Gcn.hid_eq (Gcn.X2 (m ((c.tc : Thread nD τ).loc main_arg0))) (Gcn.X2 (m ((c.tc : Thread nD τ).loc main_arg3)))
    (Gcn.X1 (m ((c.tc : Thread nD τ).loc main_arg4))) (Gcn.X1 (val_main_v14 (F := Ideal) (ei m c)))
    (Gcn.srcOf (val_main_v20 (F := Ideal) (ei m c))) (Gcn.srcOf (val_main_v27 (F := Ideal) (ei m c)))
    (Gcn.tgtOf (val_main_v42 (F := Ideal) (ei m c)))
    (fun n k => hx c _) (fun k j => hW c _) (fun n => Cert.ReferenceIdeal.RV.dinv_real _ n) (Gcn.nodeAt (Gcn.tile cc u) r) j
  have e37 : Gcn.X2 (V3 (F := Ideal) m ρ c main_v37 : S200000x20.Idx → EReal)
      = Gcn.aggK (Gcn.X2 (m ((c.tc : Thread nD τ).loc main_arg0))) (Gcn.X1 (val_main_v14 (F := Ideal) (ei m c)))
          (Gcn.srcOf (val_main_v20 (F := Ideal) (ei m c))) (Gcn.srcOf (val_main_v27 (F := Ideal) (ei m c)))
          (Gcn.tgtOf (val_main_v42 (F := Ideal) (ei m c))) :=
    funext fun n => funext fun k => v37_apply m ρ c n k
  have e38 : (fun j => (V3 (F := Ideal) m ρ c main_v38 : S1x20.Idx → EReal) (ix2 (0 : Fin 1) j))
      = Gcn.X1 (m ((c.tc : Thread nD τ).loc main_arg4)) :=
    funext fun j => v38_apply m ρ c j
  rw [e37, e38, arg3_eq m ρ c]
  exact hh

/-- The node counts the head launch finds are the scatter-add counts. -/
theorem cnts_apply (c : Dev nD) (g : Fin 512) :
    (V5 (F := Ideal) m ρ c main_v42 : S512x1.Idx → EReal) (ix2 g (0 : Fin 1))
      = Gcn.poolCnt (Gcn.X1 (m ((c.tc : Thread nD τ).loc main_arg2))) g := by
  show @Eq EReal _ _
  rw [v42_apply, V4_v40_1]
  refine Eq.trans ?_ (Gcn.cnt_eq (Gcn.X1 (m ((c.tc : Thread nD τ).loc main_arg2))) g)
  refine Finset.sum_congr rfl fun cc _ => ?_
  rw [arr0_5 (V3 m ρ) c cc g]
  unfold Gcn.slabCnt
  refine Finset.sum_congr rfl fun u _ => Finset.sum_congr rfl fun r _ => ?_
  dsimp only
  rw [v39_apply m ρ c (Gcn.tile cc u) r]

/-- The result at graph `g`, class `o`. -/
theorem result_apply (hx : ∀ (c : Dev nD) i, ∃ r : ℝ, m ((c.tc : Thread nD τ).loc main_arg0) i = (r : EReal))
    (hW : ∀ (c : Dev nD) i, ∃ r : ℝ, m ((c.tc : Thread nD τ).loc main_arg3) i = (r : EReal)) (c : Dev nD) (g : Fin 512) (o : Fin 5) :
    (W6 (F := Ideal) m ρ c (Proc.devRef .tc main_v44) : S512x5.Idx → EReal) (ix2 g o)
      = Gcn.finalOut (Gcn.poolSum (hidden m c) (Gcn.X1 (m ((c.tc : Thread nD τ).loc main_arg2))))
          (Gcn.poolCnt (Gcn.X1 (m ((c.tc : Thread nD τ).loc main_arg2))))
          (Gcn.X2 (m ((c.tc : Thread nD τ).loc main_arg5))) (Gcn.X1 (m ((c.tc : Thread nD τ).loc main_arg6))) g o := by
  show @Eq EReal _ _
  rw [W6_v44, arr1_4 (V5 m ρ) c, pay1_apply]
  have e1 : Gcn.X2 (V5 (F := Ideal) m ρ c main_v41 : S512x20.Idx → EReal)
      = Gcn.poolSum (hidden m c) (Gcn.X1 (m ((c.tc : Thread nD τ).loc main_arg2))) :=
    funext fun g' => funext fun j' => sums_apply m ρ hx hW c g' j'
  have e2 : (fun g' => (V5 (F := Ideal) m ρ c main_v42 : S512x1.Idx → EReal) (ix2 g' (0 : Fin 1)))
      = Gcn.poolCnt (Gcn.X1 (m ((c.tc : Thread nD τ).loc main_arg2))) :=
    funext fun g' => cnts_apply m ρ c g'
  have e3 : (fun o' => (V5 (F := Ideal) m ρ c main_v43 : S1x5.Idx → EReal) (ix2 (0 : Fin 1) o'))
      = Gcn.X1 (m ((c.tc : Thread nD τ).loc main_arg6)) :=
    funext fun o' => v43_apply m ρ c o'
  rw [e1, e2, e3, arg5_eq m ρ c]

end Cert.KernelIdeal.KV

end
-- ==== Proof.RConv.lean ====
/-
  The transform-first program's convolution, ReLU and scatter-add pool, read at an index.
-/
import proofs.«417613_j4277787427600_3_alg».proof.Proof.RefRead
import proofs.«417613_j4277787427600_3_alg».proof.Proof.Spec
import proofs.«417613_j4277787427600_3_alg».proof.Proof.IdxLemmas

noncomputable section

namespace Cert.ReferenceIdeal.RV

open Cert.ReferenceIdeal Cert.ReferenceIdeal.Gen Cert.ReferenceIdeal.ReadP
open Idealize.ShloMosaic Idealize.ShloMosaic.TcCoe Idealize.ShloMosaic.ValueIdx

/-- The two start columns made from the source list are one function of the edge list. -/
theorem v36_eq_v20 (x1 : S2x4000000.Idx → BitVec 32) :
    val_main_v36 (F := Ideal) x1 = val_main_v20 (F := Ideal) x1 := rfl

/-- The normalisation gathered at the source column: entry e reads the clamped source node. -/
theorem v21_at (x1 : S2x4000000.Idx → BitVec 32) (e : Fin 4200000) :
    val_main_v21 (F := Ideal) x1 (ix1 e)
      = val_main_v14 (F := Ideal) x1 (ix1 (Gcn.clampNode (val_main_v20 (F := Ideal) x1 (ix2 e (0 : Fin 1))))) := by
  unfold val_main_v21
  exact Gcn.Idx.gather_vec (by decide) _ rfl rfl rfl rfl _ _ e

/-- The normalisation gathered at the destination column. -/
theorem v28_at (x1 : S2x4000000.Idx → BitVec 32) (e : Fin 4200000) :
    val_main_v28 (F := Ideal) x1 (ix1 e)
      = val_main_v14 (F := Ideal) x1 (ix1 (Gcn.clampNode (val_main_v27 (F := Ideal) x1 (ix2 e (0 : Fin 1))))) := by
  unfold val_main_v28
  exact Gcn.Idx.gather_vec (by decide) _ rfl rfl rfl rfl _ _ e

/-- The transformed table at node c, feature j: the row of the node times the weight column. -/
theorem v30_at (x0 : S200000x20.Idx → EReal) (x3 : S20x20.Idx → EReal) (c : Fin 200000) (j : Fin 20) :
    val_main_v30 (F := Ideal) x0 x3 (ix2 c j) = ∑ k : Fin 20, x0 (ix2 c k) * x3 (ix2 k j) := by
  rw [val_main_v30_apply]
  refine Finset.sum_congr rfl fun k _ => ?_
  have el : lidx_main_v30 (ix2 c j) k = ix2 c k := by
    funext a; match a with | ⟨0, _⟩ => rfl | ⟨1, _⟩ => rfl
  have er : ridx_main_v30 (ix2 c j) k = ix2 k j := by
    funext a; match a with | ⟨0, _⟩ => rfl | ⟨1, _⟩ => rfl
  rw [el, er]

/-- The transformed rows gathered at the source column. -/
theorem v37_at (x0 : S200000x20.Idx → EReal) (x1 : S2x4000000.Idx → BitVec 32) (x3 : S20x20.Idx → EReal)
    (e : Fin 4200000) (j : Fin 20) :
    val_main_v37 (F := Ideal) x0 x1 x3 (ix2 e j)
      = val_main_v30 (F := Ideal) x0 x3 (ix2 (Gcn.clampNode (val_main_v20 (F := Ideal) x1 (ix2 e (0 : Fin 1)))) j) := by
  unfold val_main_v37
  rw [v36_eq_v20]
  exact Gcn.Idx.gather_rows (by decide) _ rfl rfl rfl rfl rfl rfl rfl _ _ e j

/-- The edge norm laid along the features: the product of the two gathered normalisations. -/
theorem v39_at (x1 : S2x4000000.Idx → BitVec 32) (e : Fin 4200000) (j : Fin 20) :
    val_main_v39 (F := Ideal) x1 (ix2 e j)
      = val_main_v21 (F := Ideal) x1 (ix1 e) * val_main_v28 (F := Ideal) x1 (ix1 e) := by
  rw [val_main_v39_apply, val_main_v38_apply, val_main_v29_apply]
  have ei : idx_main_v38 (idx_main_v39 (ix2 e j)) = ix1 e := by
    funext a; match a with | ⟨0, _⟩ => rfl
  rw [ei]
  rfl

/-- At the extended reals the accumulating scatter is the exact sum of the updates landing on each element. -/
theorem scatterAdd_ideal {s si u : Shape} (d : ScatterDims s si u) (x : s.Idx → EReal) (idx : IVec si 32)
    (upd : u.Idx → EReal) :
    Host.scatterAdd (F := Ideal) (φ := .f32) d x idx upd = Ideal.hostScatterAdd d x idx upd := rfl

/-- The message of edge e at feature j: the transformed source row, scaled by the edge's norm. -/
theorem v40_at (x0 : S200000x20.Idx → EReal) (x1 : S2x4000000.Idx → BitVec 32) (x3 : S20x20.Idx → EReal)
    (e : Fin 4200000) (j : Fin 20) :
    val_main_v40 (F := Ideal) x0 x1 x3 (ix2 e j)
      = (∑ k : Fin 20, Gcn.X2 x0 (Gcn.srcOf (val_main_v20 (F := Ideal) x1) e) k * Gcn.X2 x3 k j)
        * (Gcn.X1 (val_main_v14 (F := Ideal) x1) (Gcn.srcOf (val_main_v20 (F := Ideal) x1) e)
           * Gcn.X1 (val_main_v14 (F := Ideal) x1) (Gcn.srcOf (val_main_v27 (F := Ideal) x1) e)) := by
  rw [val_main_v40_apply, Ideal.mulf_def, v37_at, v30_at, v39_at, v21_at, v28_at]

/-- The scatter-add of the messages onto their destination nodes, at node n, feature j. -/
theorem v43_at (x0 : S200000x20.Idx → EReal) (x1 : S2x4000000.Idx → BitVec 32) (x3 : S20x20.Idx → EReal)
    (n : Fin 200000) (j : Fin 20) :
    val_main_v43 (F := Ideal) x0 x1 x3 (ix2 n j)
      = Gcn.aggR (Gcn.X2 x0) (Gcn.X2 x3) (Gcn.X1 (val_main_v14 (F := Ideal) x1))
          (Gcn.srcOf (val_main_v20 (F := Ideal) x1)) (Gcn.srcOf (val_main_v27 (F := Ideal) x1))
          (Gcn.tgtOf (val_main_v42 (F := Ideal) x1)) n j := by
  unfold val_main_v43
  rw [scatterAdd_ideal, Gcn.Idx.scatterAdd_rows scatter_S200000x20_S4200000x1_S4200000x20_1_0_0_1 rfl rfl rfl rfl,
    val_main_v41_apply, val_main_cst_8_apply, Ideal.ofBits_def, Ideal.ofBits_zero_f32, zero_add]
  unfold Gcn.aggR
  exact Finset.sum_congr rfl (fun e _ => v40_at x0 x1 x3 e j)

/-- The hidden layer at node n, feature j. -/
theorem v47_apply (x0 : S200000x20.Idx → EReal) (x1 : S2x4000000.Idx → BitVec 32) (x3 : S20x20.Idx → EReal) (x4 : S20.Idx → EReal)
    (n : Fin 200000) (j : Fin 20) :
    val_main_v47 (F := Ideal) x0 x1 x3 x4 (ix2 n j)
      = Gcn.hidR (Gcn.X2 x0) (Gcn.X2 x3) (Gcn.X1 x4) (Gcn.X1 (val_main_v14 (F := Ideal) x1))
          (Gcn.srcOf (val_main_v20 (F := Ideal) x1)) (Gcn.srcOf (val_main_v27 (F := Ideal) x1))
          (Gcn.tgtOf (val_main_v42 (F := Ideal) x1)) n j := by
  have ei : idx_main_v44 (idx_main_v45 (ix2 n j)) = ix1 j := by
    funext a; match a with | ⟨0, _⟩ => rfl
  rw [val_main_v47_apply, val_main_v46_apply, val_main_call1_v0_apply, val_main_call1_cst_apply, val_main_v45_apply,
    val_main_v44_apply, ei, v43_at, Ideal.maximumf_def, Ideal.addf_def, Ideal.ofBits_def, Ideal.ofBits_zero_f32]
  unfold Gcn.hidR
  with_reducible rfl

end Cert.ReferenceIdeal.RV

end
-- ==== Proof.RPool.lean ====
/-
  The transform-first program's pool: the hidden rows, and ones, scatter-added at the column of graph ids.
-/
import proofs.«417613_j4277787427600_3_alg».proof.Proof.RefRead
import proofs.«417613_j4277787427600_3_alg».proof.Proof.Spec
import proofs.«417613_j4277787427600_3_alg».proof.Proof.IdxLemmas
import Idealize.ShloMosaic.Lib.IdealHost

noncomputable section

namespace Cert.ReferenceIdeal.RV

open Cert.ReferenceIdeal Cert.ReferenceIdeal.Gen Cert.ReferenceIdeal.ReadP
open Idealize.ShloMosaic Idealize.ShloMosaic.TcCoe Idealize.ShloMosaic.ValueIdx

/-- At the extended reals the host's scatter-add is the ideal one: a definitional equality, stated over arbitrary
    shapes. -/
theorem scatterAdd_ideal {s si u : Shape} (d : ScatterDims s si u) (x : s.Idx → EReal) (idx : IVec si 32) (upd : u.Idx → EReal) :
    Host.scatterAdd (F := Ideal) (φ := .f32) d x idx upd = Ideal.hostScatterAdd d x idx upd := rfl

/-- The column of graph ids reads the graph id of its row. -/
theorem v49_col (x2 : S200000.Idx → BitVec 32) (n : Fin 200000) (q : Fin 1) :
    val_main_v49 (F := Ideal) x2 (ix2 n q) = x2 (ix1 n) := by
  unfold val_main_v49
  exact broadcastInDim_apply _ bcast_S200000_S200000x1_0 x2 (ix2 n q) (ix1 n) (fun a => match a with
    | ⟨0, _⟩ => by show n.val = if (200000 : Nat) = 1 then 0 else n.val; rw [if_neg (by decide)])

/-- The same column, as the count's scatter-add reads it. -/
theorem v53_col (x2 : S200000.Idx → BitVec 32) (n : Fin 200000) (q : Fin 1) :
    val_main_v53 (F := Ideal) x2 (ix2 n q) = x2 (ix1 n) := by
  unfold val_main_v53
  exact broadcastInDim_apply _ bcast_S200000_S200000x1_0 x2 (ix2 n q) (ix1 n) (fun a => match a with
    | ⟨0, _⟩ => by show n.val = if (200000 : Nat) = 1 then 0 else n.val; rw [if_neg (by decide)])

/-- The pooled sums at graph `g`, feature `j`: zero plus the rows of the nodes whose graph-id word names `g`; the hidden
    layer stays one opaque table. -/
theorem v50_apply (x0 : S200000x20.Idx → EReal) (x1 : S2x4000000.Idx → BitVec 32) (x2 : S200000.Idx → BitVec 32)
    (x3 : S20x20.Idx → EReal) (x4 : S20.Idx → EReal) (g : Fin 512) (j : Fin 20) :
    val_main_v50 (F := Ideal) x0 x1 x2 x3 x4 (ix2 g j)
      = Gcn.poolSum (Gcn.X2 (val_main_v47 (F := Ideal) x0 x1 x3 x4)) (Gcn.X1 x2) g j := by
  unfold val_main_v50
  generalize val_main_v47 (F := Ideal) x0 x1 x3 x4 = h
  rw [scatterAdd_ideal]
  rw [Gcn.Idx.scatterAdd_rows scatter_S512x20_S200000x1_S200000x20_1_0_0_1 rfl rfl rfl rfl]
  rw [val_main_v48_apply, val_main_cst_9_apply, Ideal.ofBits_def, Ideal.ofBits_zero_f32, zero_add]
  unfold Gcn.poolSum
  exact Finset.sum_congr (Finset.filter_congr fun n _ => by rw [v49_col]) (fun n _ => rfl)

/-- The node counts at graph `g`: zero plus a one for every node whose graph-id word names `g`. -/
theorem v54_apply (x2 : S200000.Idx → BitVec 32) (g : Fin 512) :
    val_main_v54 (F := Ideal) x2 (ix1 g) = Gcn.poolCnt (Gcn.X1 x2) g := by
  unfold val_main_v54
  rw [scatterAdd_ideal]
  rw [Gcn.Idx.scatterAdd_vec scatter_S512_S200000x1_S200000_n_0_0_1 rfl rfl rfl rfl]
  rw [val_main_v52_apply, val_main_cst_11_apply, Ideal.ofBits_def, Ideal.ofBits_zero_f32, zero_add]
  unfold Gcn.poolCnt
  refine Finset.sum_congr (Finset.filter_congr fun n _ => by rw [v53_col]) (fun n _ => ?_)
  rw [val_main_v51_apply, val_main_cst_10_apply, Ideal.ofBits_def, Ideal.ofBits_one_f32]

end Cert.ReferenceIdeal.RV

end
-- ==== Proof.RFinal.lean ====
/-
  The transform-first program's last stages, from its pooled sums and counts, are the head of the network.
-/
import proofs.«417613_j4277787427600_3_alg».proof.Proof.RefRead
import proofs.«417613_j4277787427600_3_alg».proof.Proof.Spec
import proofs.«417613_j4277787427600_3_alg».proof.Proof.SpecFinal

noncomputable section

namespace Cert.ReferenceIdeal.RV

open Cert.ReferenceIdeal Cert.ReferenceIdeal.Gen Cert.ReferenceIdeal.ReadP
open Idealize.ShloMosaic Idealize.ShloMosaic.TcCoe Idealize.ShloMosaic.ValueIdx

namespace Final

/-! ## The two constant words -/

/-- The word of one is one. -/
theorem ofBits_one_f32 : Ideal.ofBits .f32 0x3F800000#32 = 1 := by simp [Ideal.ofBits, Ideal.ieee, -EReal.coe_mul]; norm_num

/-- The word of minus infinity is the bottom element. -/
theorem ofBits_neginf_f32 : Ideal.ofBits .f32 0xFF800000#32 = ⊥ := by simp [Ideal.ofBits, Ideal.ieee]

/-- The reduced row index g with class k put back is (g, k). -/
theorem lift_row (h : S512x5.Reduces [1] S512) (g : Fin 512) (k : Fin (S512x5.size 1)) :
    h.lift (ix1 g) k = ix2 g (⟨k.val, k.isLt⟩ : Fin 5) := by
  funext c; apply Fin.ext
  match c with
  | ⟨0, _⟩ => rfl
  | ⟨1, _⟩ => rfl

/-! ## The logits -/

/-- The logits at graph g and class o: the pooled row divided by the count (at least one), through the output layer. -/
theorem v63_apply (x0 : S200000x20.Idx → EReal) (x1 : S2x4000000.Idx → BitVec 32) (x2 : S200000.Idx → BitVec 32)
    (x3 : S20x20.Idx → EReal) (x4 : S20.Idx → EReal) (x5 : S20x5.Idx → EReal) (x6 : S5.Idx → EReal) (g : Fin 512) (o : Fin 5) :
    val_main_v63 (F := Ideal) x0 x1 x2 x3 x4 x5 x6 (ix2 g o)
      = (∑ j : Fin 20, Ideal.div (val_main_v50 (F := Ideal) x0 x1 x2 x3 x4 (ix2 g j)) (max (val_main_v54 (F := Ideal) x2 (ix1 g)) 1) * x5 (ix2 j o))
          + x6 (ix1 o) := by
  rw [val_main_v63_apply, val_main_v60_apply, val_main_v62_apply, val_main_v61_apply, Ideal.addf_def]
  have e6 : idx_main_v61 (idx_main_v62 (ix2 g o)) = ix1 o := funext fun a => Fin.ext (by match a with | ⟨0, _⟩ => rfl)
  rw [e6]
  refine congrArg (· + x6 (ix1 o)) (Finset.sum_congr rfl fun k _ => ?_)
  have el : lidx_main_v60 (ix2 g o) k = ix2 g k := funext fun a => Fin.ext (by match a with | ⟨0, _⟩ => rfl | ⟨1, _⟩ => rfl)
  have er : ridx_main_v60 (ix2 g o) k = ix2 k o := funext fun a => Fin.ext (by match a with | ⟨0, _⟩ => rfl | ⟨1, _⟩ => rfl)
  have e8 : idx_main_v57 (idx_main_v58 (ix2 g k)) = ix1 g := funext fun a => Fin.ext (by match a with | ⟨0, _⟩ => rfl)
  rw [el, er, val_main_v59_apply, val_main_v58_apply, val_main_v57_apply, e8, val_main_v56_apply, val_main_v55_apply,
    val_main_cst_12_apply, Ideal.hostDivf_def, Ideal.maximumf_def, Ideal.ofBits_def, ofBits_one_f32]

/-! ## The row maximum and the exponentials -/

/-- The row maximum of the logits of graph g: the fold of max over the five classes, from the bottom element. -/
theorem v64_apply (x0 : S200000x20.Idx → EReal) (x1 : S2x4000000.Idx → BitVec 32) (x2 : S200000.Idx → BitVec 32)
    (x3 : S20x20.Idx → EReal) (x4 : S20.Idx → EReal) (x5 : S20x5.Idx → EReal) (x6 : S5.Idx → EReal) (g : Fin 512) :
    val_main_v64 (F := Ideal) x0 x1 x2 x3 x4 x5 x6 (ix1 g)
      = Finset.univ.fold max ⊥ (fun o' : Fin 5 => val_main_v63 (F := Ideal) x0 x1 x2 x3 x4 x5 x6 (ix2 g o')) := by
  unfold val_main_v64
  generalize val_main_v63 (F := Ideal) x0 x1 x2 x3 x4 x5 x6 = L
  refine (Host.reduce_eq_fold_single (FloatOps.maximumf (F := Ideal) (φ := .f32)) L (val_main_cst_13 (F := Ideal))
    reducesTo_S512x5_S512_d1 (by decide) h_S_ (ix1 g)).trans ?_
  rw [val_main_cst_13_apply, Ideal.ofBits_def, ofBits_neginf_f32]
  exact congrArg (fun f => Finset.fold max ⊥ f (Finset.univ : Finset (Fin 5))) (funext fun k => congrArg L (lift_row _ g k))

/-- The exponential of a logit less its row's maximum. -/
theorem v70_apply (x0 : S200000x20.Idx → EReal) (x1 : S2x4000000.Idx → BitVec 32) (x2 : S200000.Idx → BitVec 32)
    (x3 : S20x20.Idx → EReal) (x4 : S20.Idx → EReal) (x5 : S20x5.Idx → EReal) (x6 : S5.Idx → EReal) (g : Fin 512) (o : Fin 5) :
    val_main_v70 (F := Ideal) x0 x1 x2 x3 x4 x5 x6 (ix2 g o)
      = Ideal.exp (val_main_v63 (F := Ideal) x0 x1 x2 x3 x4 x5 x6 (ix2 g o)
          - Finset.univ.fold max ⊥ (fun o' : Fin 5 => val_main_v63 (F := Ideal) x0 x1 x2 x3 x4 x5 x6 (ix2 g o'))) := by
  have e67 : idx_main_v67 (idx_main_v68 (ix2 g o)) = ix1 g := funext fun a => Fin.ext (by match a with | ⟨0, _⟩ => rfl)
  rw [val_main_v70_apply, val_main_v69_apply, val_main_v68_apply, val_main_v67_apply, e67, val_main_v66_apply, val_main_v65_apply,
    val_main_cst_14_apply, Ideal.hostUnary_exp_def, Ideal.subf_def, Ideal.maximumf_def, Ideal.ofBits_def, ofBits_neginf_f32,
    max_eq_right bot_le, v64_apply]

end Final

open Final in
/-- The result at graph g and class o, from the pooled sums (%50) and counts (%54). -/
theorem v74_apply (x0 : S200000x20.Idx → EReal) (x1 : S2x4000000.Idx → BitVec 32) (x2 : S200000.Idx → BitVec 32)
    (x3 : S20x20.Idx → EReal) (x4 : S20.Idx → EReal) (x5 : S20x5.Idx → EReal) (x6 : S5.Idx → EReal) (g : Fin 512) (o : Fin 5) :
    val_main_v74 (F := Ideal) x0 x1 x2 x3 x4 x5 x6 (ix2 g o)
      = Gcn.finalOut (Gcn.X2 (val_main_v50 (F := Ideal) x0 x1 x2 x3 x4)) (Gcn.X1 (val_main_v54 (F := Ideal) x2)) (Gcn.X2 x5) (Gcn.X1 x6) g o := by
  have e72 : idx_main_v72 (idx_main_v73 (ix2 g o)) = ix1 g := funext fun a => Fin.ext (by match a with | ⟨0, _⟩ => rfl)
  have e71 : ∀ k : Fin 5, idx_main_v71 (ix1 g) k = ix2 g k := fun k =>
    funext fun a => Fin.ext (by match a with | ⟨0, _⟩ => rfl | ⟨1, _⟩ => rfl)
  rw [val_main_v74_apply, val_main_v73_apply, val_main_v72_apply, e72, val_main_v71_apply, val_main_cst_15_apply,
    Ideal.ofBits_def, Ideal.ofBits_zero_f32, zero_add, Ideal.hostDivf_def]
  simp only [e71, v70_apply, v63_apply]
  generalize val_main_v50 (F := Ideal) x0 x1 x2 x3 x4 = P
  generalize val_main_v54 (F := Ideal) x2 = C
  rfl

end Cert.ReferenceIdeal.RV

end
-- ==== Proof.RValue.lean ====
/-
  The transform-first program's result, index by index: the head of the network on the scatter-add pool of the
  hidden rows.
-/
import proofs.«417613_j4277787427600_3_alg».proof.Proof.RefRead
import proofs.«417613_j4277787427600_3_alg».proof.Proof.RConv
import proofs.«417613_j4277787427600_3_alg».proof.Proof.RPool
import proofs.«417613_j4277787427600_3_alg».proof.Proof.RFinal

noncomputable section

namespace Cert.ReferenceIdeal.RV

open Cert.ReferenceIdeal Cert.ReferenceIdeal.Gen Cert.ReferenceIdeal.ReadP
open Idealize.ShloMosaic Idealize.ShloMosaic.TcCoe Idealize.ShloMosaic.ValueIdx

/-- The result at graph `g`, class `o`. -/
theorem result_apply (x0 : S200000x20.Idx → EReal) (x1 : S2x4000000.Idx → BitVec 32) (x2 : S200000.Idx → BitVec 32)
    (x3 : S20x20.Idx → EReal) (x4 : S20.Idx → EReal) (x5 : S20x5.Idx → EReal) (x6 : S5.Idx → EReal) (g : Fin 512) (o : Fin 5) :
    val_main_v74 (F := Ideal) x0 x1 x2 x3 x4 x5 x6 (ix2 g o)
      = Gcn.finalOut
          (Gcn.poolSum (Gcn.hidR (Gcn.X2 x0) (Gcn.X2 x3) (Gcn.X1 x4) (Gcn.X1 (val_main_v14 (F := Ideal) x1))
            (Gcn.srcOf (val_main_v20 (F := Ideal) x1)) (Gcn.srcOf (val_main_v27 (F := Ideal) x1))
            (Gcn.tgtOf (val_main_v42 (F := Ideal) x1))) (Gcn.X1 x2))
          (Gcn.poolCnt (Gcn.X1 x2)) (Gcn.X2 x5) (Gcn.X1 x6) g o := by
  rw [v74_apply]
  have e1 : Gcn.X2 (val_main_v50 (F := Ideal) x0 x1 x2 x3 x4)
      = Gcn.poolSum (Gcn.hidR (Gcn.X2 x0) (Gcn.X2 x3) (Gcn.X1 x4) (Gcn.X1 (val_main_v14 (F := Ideal) x1))
            (Gcn.srcOf (val_main_v20 (F := Ideal) x1)) (Gcn.srcOf (val_main_v27 (F := Ideal) x1))
            (Gcn.tgtOf (val_main_v42 (F := Ideal) x1))) (Gcn.X1 x2) := by
    funext g' j'
    show val_main_v50 (F := Ideal) x0 x1 x2 x3 x4 (ix2 g' j') = _
    rw [v50_apply]
    have e0 : Gcn.X2 (val_main_v47 (F := Ideal) x0 x1 x3 x4)
        = Gcn.hidR (Gcn.X2 x0) (Gcn.X2 x3) (Gcn.X1 x4) (Gcn.X1 (val_main_v14 (F := Ideal) x1))
            (Gcn.srcOf (val_main_v20 (F := Ideal) x1)) (Gcn.srcOf (val_main_v27 (F := Ideal) x1))
            (Gcn.tgtOf (val_main_v42 (F := Ideal) x1)) :=
      funext fun n => funext fun j => v47_apply x0 x1 x3 x4 n j
    rw [e0]
  have e2 : Gcn.X1 (val_main_v54 (F := Ideal) x2) = Gcn.poolCnt (Gcn.X1 x2) := funext fun g' => v54_apply x2 g'
  rw [e1, e2]

end Cert.ReferenceIdeal.RV

end
-- ==== Proof.Finite.lean ====
/-
  Under the precondition the feature matrix and the first weight matrix hold real numbers.
-/
import proofs.«417613_j4277787427600_3_alg».proof.Defs
import proofs.«417613_j4277787427600_3_alg».proof.Proof.Gen.Pre_finite_inputs
import Idealize.ShloMosaic.Lib.ReduceAll
import Idealize.ShloMosaic.Lib.ValueIdx

noncomputable section

namespace Cert.Proof.Finite

open Idealize.ShloMosaic Idealize.SL.Sem Idealize.ShloMosaic.ValueIdx

/-- The rank-0 shape has a single index. -/
instance subsingleton_scalar_idx : Subsingleton Cert.Pre_finite_inputs.S_.Idx :=
  ⟨fun a b => funext fun d => d.elim0⟩

/-- The word of positive infinity reads as the top extended real. -/
theorem inf_word : Ideal.ofBits .f32 0x7F800000#32 = (⊤ : EReal) := by
  simp [Ideal.ofBits, Ideal.ieee]

/-- An extended real whose absolute value `max a (-a)` is strictly below `+∞` is a real number. -/
theorem real_of_abs_lt_inf (a : EReal)
    (e : Ideal.cmp .olt (max a (-a)) (Ideal.ofBits .f32 0x7F800000#32) = 1#1) : ∃ r : ℝ, a = (r : EReal) := by
  rw [inf_word] at e
  induction a using EReal.rec with
  | bot => simp [Ideal.cmp] at e
  | coe r => exact ⟨r, rfl⟩
  | top => simp [Ideal.cmp] at e

/-- The precondition's predicate, all ones, makes every entry of the features and of the first weight matrix real. -/
theorem real_of_fn (x0 : Cert.Pre_finite_inputs.S200000x20.Idx → EReal) (x1 : Cert.Pre_finite_inputs.S2x4000000.Idx → BitVec 32)
    (x2 : Cert.Pre_finite_inputs.S200000.Idx → BitVec 32) (x3 : Cert.Pre_finite_inputs.S20x20.Idx → EReal) (x4 : Cert.Pre_finite_inputs.S20.Idx → EReal)
    (x5 : Cert.Pre_finite_inputs.S20x5.Idx → EReal) (x6 : Cert.Pre_finite_inputs.S5.Idx → EReal)
    (h : Cert.Pre_finite_inputs.fn (F := Ideal) x0 x1 x2 x3 x4 x5 x6 = fun _ => 1#1) :
    (∀ i, ∃ r : ℝ, x0 i = (r : EReal)) ∧ (∀ i, ∃ r : ℝ, x3 i = (r : EReal)) := by
  have h0 := congrFun h ValueIdx.ix0
  dsimp only [Cert.Pre_finite_inputs.fn, Cert.Pre_finite_inputs.fn_part1] at h0
  -- the predicate is the conjunction ((((c0 ∧ c3) ∧ c4) ∧ c5) ∧ c6); only c0 and c3 are used
  obtain ⟨h0123, _⟩ := IntOp.andi_eq_one.1 h0
  obtain ⟨h012, _⟩ := IntOp.andi_eq_one.1 h0123
  obtain ⟨h01, _⟩ := IntOp.andi_eq_one.1 h012
  obtain ⟨hx0, hx3⟩ := IntOp.andi_eq_one.1 h01
  refine ⟨fun i => ?_, fun i => ?_⟩
  · exact real_of_abs_lt_inf (x0 i) (Host.reduce_andi_all _ _ _ _ _ hx0 i)
  · exact real_of_abs_lt_inf (x3 i) (Host.reduce_andi_all _ _ _ _ _ hx3 i)

end Cert.Proof.Finite

end
-- ==== Proof.lean ====
/-
  A graph convolution (symmetric degree normalisation, self loops), a ReLU, a mean pool per graph and a softmax
  head, computed in two orders.

  One program scatter-adds the scaled neighbour rows first and applies the weight matrix afterwards, inside a
  launch that also pools: per tile of 5000 nodes a one-hot matrix of the graph ids times the hidden rows,
  accumulated over the twenty tiles of each of two slabs; the slabs are added on the host and a second launch
  divides by the counts, applies the output layer and the softmax.  The other program applies the weight matrix
  to every node first, scatter-adds the transformed rows, and pools by a scatter-add over the graph ids.

  Over the extended reals the two agree on finite features and weights: the normalisation is finite at every
  node whatever the degree, so the aggregated sums are finite and the weight matrix distributes over them; a
  one-hot entry is 0 or 1 and the forty tiles partition the nodes, so the tiled products are the scatter-add
  pool; the two heads are the same expression index by index.  The precondition gives the finiteness.
-/
import proofs.«417613_j4277787427600_3_alg».proof.Defs
import proofs.«417613_j4277787427600_3_alg».proof.Proof.Gen.Kernel
import proofs.«417613_j4277787427600_3_alg».proof.Proof.Gen.Kernel.Frame
import proofs.«417613_j4277787427600_3_alg».proof.Proof.Gen.KernelIdeal
import proofs.«417613_j4277787427600_3_alg».proof.Proof.Gen.KernelIdeal.Frame
import proofs.«417613_j4277787427600_3_alg».proof.Proof.Gen.ReferenceIdeal
import proofs.«417613_j4277787427600_3_alg».proof.Proof.Gen.Pre_finite_inputs
import proofs.«417613_j4277787427600_3_alg».proof.Proof.RefRun
import proofs.«417613_j4277787427600_3_alg».proof.Proof.RefRead
import proofs.«417613_j4277787427600_3_alg».proof.Proof.KFrame
import proofs.«417613_j4277787427600_3_alg».proof.Proof.KValue
import proofs.«417613_j4277787427600_3_alg».proof.Proof.RValue
import proofs.«417613_j4277787427600_3_alg».proof.Proof.Finite
import Idealize.ShloMosaic.Adequacy
import Idealize.ShloMosaic.Init

noncomputable section

namespace Cert.Proof

open Idealize.ShloMosaic Idealize.SL.Sem Idealize.ShloMosaic.ValueIdx

/-- The word-level program runs and leaves its arguments. -/
theorem frame_k : Cert.frame_Kernel := fun m ρ _ => Cert.Kernel.Gen.frame m ρ

/-- The idealized program runs and leaves its arguments. -/
theorem frame_ki : Cert.frame_KernelIdeal := fun m ρ _ => Cert.KernelIdeal.Gen.frame m ρ

/-- The transform-first program runs and leaves its arguments: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end with the same result, element by element, from memories agreeing on the arguments. -/
theorem algebraic : Cert.algebraic_KernelIdeal_ReferenceIdeal := by
  intro m ρ m' ρ' hpre hagree
  have hfin : ∀ c : Dev Cert.KernelIdeal.nD,
      (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg3) i = (r : EReal)) :=
    fun c => Cert.Proof.Finite.real_of_fn _ _ _ _ _ _ _ (hpre c)
  refine ⟨fun c => Cert.KernelIdeal.Gen.W6 (F := Ideal) m ρ c (Proc.devRef .tc Cert.KernelIdeal.main_v44),
    Cert.KernelIdeal.GenV.run_result (F := Ideal) m ρ, ?_⟩
  refine (θ_run Cert.ReferenceIdeal.defs _ _).mono (fun _ h c => ⟨?_, (h c).2⟩)
    (Cert.ReferenceIdeal.ValueP.run (F := Ideal) m' ρ')
  rw [(h c).1, Cert.ReferenceIdeal.ReadP.val_main_v74_eq]
  funext i
  obtain ⟨g, o, rfl⟩ : ∃ (g : Fin 512) (o : Fin 5), i = ix2 g o := ⟨i 0, i 1, eq_ix2 i⟩
  rw [Cert.ReferenceIdeal.RV.result_apply]
  refine ((Cert.KernelIdeal.KV.result_apply m ρ (fun c => (hfin c).1) (fun c => (hfin c).2) c g o).trans ?_).symm
  rw [(hagree c).1, (hagree c).2.1, (hagree c).2.2.1, (hagree c).2.2.2.1, (hagree c).2.2.2.2.1, (hagree c).2.2.2.2.2.1,
    (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
